-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64000x64 : Shape := ⟨2, ![64000, 64]⟩
abbrev S2x1024000 : Shape := ⟨2, ![2, 1024000]⟩
abbrev S64000 : Shape := ⟨1, ![64000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S_ : Shape := ⟨0, ![]⟩

class Facts : Prop where
  bcast_S_S64000x64 : S_.BroadcastsInDim S64000x64 (![] : Fin 0 → Fin S64000x64.rank)
  reducesTo_S64000x64_S_d0_1 : S64000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2x64 .f32) (main_arg7 : FVec F S2x64 .f32) (main_arg8 : FVec F S2 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S64000x64 .f32) (main_arg1 : IVec S2x1024000 32) (main_arg2 : IVec S64000 32) (main_arg3 : FVec F S3x64x64 .f32) (main_arg4 : FVec F S3x64x64 .f32) (main_arg5 : FVec F S3x64 .f32) (main_arg6 : FVec F S2x64 .f32) (main_arg7 : FVec F S2x64 .f32) (main_arg8 : FVec F S2 .f32) : IVec S_ 1 :=
  let main_v0 : FVec F S64000x64 .f32 := Host.absf main_arg0
  let main_cst : FVec F S_ .f32 := constant S_ .f32 0x7F800000#32
  let main_v1 : FVec F S64000x64 .f32 := broadcastInDim S64000x64 ![] bcast_S_S64000x64 main_cst
  let main_v2 : IVec S64000x64 1 := cmpf .olt main_v0 main_v1
  let main_c : IVec S_ 1 := constantI S_ 1 1#1
  let main_v3 : IVec S_ 1 := (fun x v => Host.reduce IntOp.andi x v reducesTo_S64000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_v13 main_v16
-- ==== Kernel.lean ====
abbrev S64000x64 : Shape := ⟨2, ![64000, 64]⟩
abbrev S2x1024000 : Shape := ⟨2, ![2, 1024000]⟩
abbrev S64000 : Shape := ⟨1, ![64000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S1x1024000 : Shape := ⟨2, ![1, 1024000]⟩
abbrev S1024000 : Shape := ⟨1, ![1024000]⟩
abbrev S64000x1 : Shape := ⟨2, ![64000, 1]⟩
abbrev S_ : Shape := ⟨0, ![]⟩
abbrev S1024000x1 : Shape := ⟨2, ![1024000, 1]⟩
abbrev S1024000x64 : Shape := ⟨2, ![1024000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000x64 : Shape := ⟨2, ![2000, 64]⟩
abbrev S2000x1 : Shape := ⟨2, ![2000, 1]⟩
abbrev S1x2 : Shape := ⟨2, ![1, 2]⟩
abbrev S64000x2 : Shape := ⟨2, ![64000, 2]⟩
abbrev S2000x2 : Shape := ⟨2, ![2000, 2]⟩
abbrev S64x2 : Shape := ⟨2, ![64, 2]⟩
abbrev S128x2 : Shape := ⟨2, ![128, 2]⟩
abbrev S6400x2 : Shape := ⟨2, ![6400, 2]⟩
abbrev S6400x1 : Shape := ⟨2, ![6400, 1]⟩
abbrev S128x1 : Shape := ⟨2, ![128, 1]⟩
abbrev S6400x128 : Shape := ⟨2, ![6400, 128]⟩
abbrev S128 : Shape := ⟨1, ![128]⟩

abbrev nBuf : Space → Nat
  | .hbm => 100
  | .vmem => 51
  | .smem => 0
  | _ => 0

abbrev bufTy : (tb : Table) → Fin (tcTables nBuf tb) → BufTy
  | .hbm, ⟨0, _⟩ => ⟨S64000x64, .f32⟩
  | .hbm, ⟨1, _⟩ => ⟨S2x1024000, .i32⟩
  | .hbm, ⟨2, _⟩ => ⟨S64000, .i32⟩
  | .hbm, ⟨3, _⟩ => ⟨S3x64x64, .f32⟩
  | .hbm, ⟨4, _⟩ => ⟨S3x64x64, .f32⟩
  | .hbm, ⟨5, _⟩ => ⟨S3x64, .f32⟩
  | .hbm, ⟨6, _⟩ => ⟨S2x64, .f32⟩
  | .hbm, ⟨7, _⟩ => ⟨S2x64, .f32⟩
  | .hbm, ⟨8, _⟩ => ⟨S2, .f32⟩
  | .hbm, ⟨9, _⟩ => ⟨S1x1024000, .i32⟩
  | .hbm, ⟨10, _⟩ => ⟨S1024000, .i32⟩
  | .hbm, ⟨11, _⟩ => ⟨S1x1024000, .i32⟩
  | .hbm, ⟨12, _⟩ => ⟨S1024000, .i32⟩
  | .hbm, ⟨13, _⟩ => ⟨S64000x1, .i32⟩
  | .hbm, ⟨14, _⟩ => ⟨S_, .f32⟩
  | .hbm, ⟨15, _⟩ => ⟨S1024000, .f32⟩
  | .hbm, ⟨16, _⟩ => ⟨S_, .f32⟩
  | .hbm, ⟨17, _⟩ => ⟨S64000, .f32⟩
  | .hbm, ⟨18, _⟩ => ⟨S1024000x1, .i32⟩
  | .hbm, ⟨19, _⟩ => ⟨S64000, .f32⟩
  | .hbm, ⟨20, _⟩ => ⟨S64000x1, .f32⟩
  | .hbm, ⟨21, _⟩ => ⟨S_, .i32⟩
  | .hbm, ⟨22, _⟩ => ⟨S1024000, .i32⟩
  | .hbm, ⟨23, _⟩ => ⟨S1024000, .i1⟩
  | .hbm, ⟨24, _⟩ => ⟨S_, .i32⟩
  | .hbm, ⟨25, _⟩ => ⟨S1024000, .i32⟩
  | .hbm, ⟨26, _⟩ => ⟨S1024000, .i32⟩
  | .hbm, ⟨27, _⟩ => ⟨S1024000, .i32⟩
  | .hbm, ⟨28, _⟩ => ⟨S1024000x1, .i32⟩
  | .hbm, ⟨29, _⟩ => ⟨S1024000x64, .f32⟩
  | .hbm, ⟨30, _⟩ => ⟨S_, .f32⟩
  | .hbm, ⟨31, _⟩ => ⟨S64000x64, .f32⟩
  | .hbm, ⟨32, _⟩ => ⟨S1024000x1, .i32⟩
  | .hbm, ⟨33, _⟩ => ⟨S64000x64, .f32⟩
  | .hbm, ⟨34, _⟩ => ⟨S1x64x64, .f32⟩
  | .hbm, ⟨35, _⟩ => ⟨S64x64, .f32⟩
  | .hbm, ⟨36, _⟩ => ⟨S1x64x64, .f32⟩
  | .hbm, ⟨37, _⟩ => ⟨S64x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S64000x64, .f32⟩
  | .hbm, ⟨42, _⟩ => ⟨S_, .i32⟩
  | .hbm, ⟨43, _⟩ => ⟨S1024000, .i32⟩
  | .hbm, ⟨44, _⟩ => ⟨S1024000, .i1⟩
  | .hbm, ⟨45, _⟩ => ⟨S_, .i32⟩
  | .hbm, ⟨46, _⟩ => ⟨S1024000, .i32⟩
  | .hbm, ⟨47, _⟩ => ⟨S1024000, .i32⟩
  | .hbm, ⟨48, _⟩ => ⟨S1024000, .i32⟩
  | .hbm, ⟨49, _⟩ => ⟨S1024000x1, .i32⟩
  | .hbm, ⟨50, _⟩ => ⟨S1024000x64, .f32⟩
  | .hbm, ⟨51, _⟩ => ⟨S_, .f32⟩
  | .hbm, ⟨52, _⟩ => ⟨S64000x64, .f32⟩
  | .hbm, ⟨53, _⟩ => ⟨S1024000x1, .i32⟩
  | .hbm, ⟨54, _⟩ => ⟨S64000x64, .f32⟩
  | .hbm, ⟨55, _⟩ => ⟨S1x64x64, .f32⟩
  | .hbm, ⟨56, _⟩ => ⟨S64x64, .f32⟩
  | .hbm, ⟨57, _⟩ => ⟨S1x64x64, .f32⟩
  | .hbm, ⟨58, _⟩ => ⟨S64x64, .f32⟩
  | .hbm, ⟨59, _⟩ => ⟨S1x64, .f32⟩
  | .hbm, ⟨60, _⟩ => ⟨S64, .f32⟩
  | .hbm, ⟨61, _⟩ => ⟨S1x64, .f32⟩
  | .hbm, ⟨62, _⟩ => ⟨S64000x64, .f32⟩
  | .hbm, ⟨63, _⟩ => ⟨S_, .i32⟩
  | .hbm, ⟨64, _⟩ => ⟨S1024000, .i32⟩
  | .hbm, ⟨65, _⟩ => ⟨S1024000, .i1⟩
  | .hbm, ⟨66, _⟩ => ⟨S_, .i32⟩
  | .hbm, ⟨67, _⟩ => ⟨S1024000, .i32⟩
  | .hbm, ⟨68, _⟩ => ⟨S1024000, .i32⟩
  | .hbm, ⟨69, _⟩ => ⟨S1024000, .i32⟩
  | .hbm, ⟨70, _⟩ => ⟨S1024000x1, .i32⟩
  | .hbm, ⟨71, _⟩ => ⟨S1024000x64, .f32⟩
  | .hbm, ⟨72, _⟩ => ⟨S_, .f32⟩
  | .hbm, ⟨73, _⟩ => ⟨S64000x64, .f32⟩
  | .hbm, ⟨74, _⟩ => ⟨S1024000x1, .i32⟩
  | .hbm, ⟨75, _⟩ => ⟨S64000x64, .f32⟩
  | .hbm, ⟨76, _⟩ => ⟨S1x64x64, .f32⟩
  | .hbm, ⟨77, _⟩ => ⟨S64x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S64000x64, .f32⟩
  | .hbm, ⟨84, _⟩ => ⟨S_, .i32⟩
  | .hbm, ⟨85, _⟩ => ⟨S1024000, .i32⟩
  | .hbm, ⟨86, _⟩ => ⟨S1024000, .i1⟩
  | .hbm, ⟨87, _⟩ => ⟨S_, .i32⟩
  | .hbm, ⟨88, _⟩ => ⟨S1024000, .i32⟩
  | .hbm, ⟨89, _⟩ => ⟨S1024000, .i32⟩
  | .hbm, ⟨90, _⟩ => ⟨S1024000, .i32⟩
  | .hbm, ⟨91, _⟩ => ⟨S1024000x1, .i32⟩
  | .hbm, ⟨92, _⟩ => ⟨S1024000x64, .f32⟩
  | .hbm, ⟨93, _⟩ => ⟨S_, .f32⟩
  | .hbm, ⟨94, _⟩ => ⟨S64000x64, .f32⟩
  | .hbm, ⟨95, _⟩ => ⟨S1024000x1, .i32⟩
  | .hbm, ⟨96, _⟩ => ⟨S64000x64, .f32⟩
  | .hbm, ⟨97, _⟩ => ⟨S1x2, .f32⟩
  | .hbm, ⟨98, _⟩ => ⟨S64000x2, .f32⟩
  | .hbm, ⟨99, _⟩ => ⟨S128x2, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x1, .f32⟩
  | .local _ .vmem, ⟨16, _⟩ => ⟨S2000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x1, .f32⟩
  | .local _ .vmem, ⟨27, _⟩ => ⟨S2000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S2x64, .f32⟩
  | .local _ .vmem, ⟨40, _⟩ => ⟨S2x64, .f32⟩
  | .local _ .vmem, ⟨41, _⟩ => ⟨S1x2, .f32⟩
  | .local _ .vmem, ⟨42, _⟩ => ⟨S2000x2, .f32⟩
  | .local _ .vmem, ⟨43, _⟩ => ⟨S2000x2, .f32⟩
  | .local _ .vmem, ⟨44, _⟩ => ⟨S6400x2, .f32⟩
  | .local _ .vmem, ⟨45, _⟩ => ⟨S6400x2, .f32⟩
  | .local _ .vmem, ⟨46, _⟩ => ⟨S6400x1, .i32⟩
  | .local _ .vmem, ⟨47, _⟩ => ⟨S6400x1, .i32⟩
  | .local _ .vmem, ⟨48, _⟩ => ⟨S128x2, .f32⟩
  | .local _ .vmem, ⟨49, _⟩ => ⟨S128x2, .f32⟩
  | .local _ .vmem, ⟨50, _⟩ => ⟨S128x1, .f32⟩
  | _, _ => ⟨S64000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_scratch0 : Ref sig .tc := ⟨.vmem, 49, rfl⟩
abbrev cc4_scratch1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_13 : BitVec 32 := 0#32
  let v27 : BitVec 1 := Scalar.cmpi .ne v26 c0_i32_13
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S6400x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1024000_S1x1024000_0_0 : S2x1024000.Slices ![0, 0] S1x1024000
  shapeCasts_S1x1024000_S1024000 : S1x1024000.ShapeCasts S1024000
  slices_S2x1024000_S1x1024000_1_0 : S2x1024000.Slices ![1, 0] S1x1024000
  bcast_S64000_S64000x1_0 : S64000.BroadcastsInDim S64000x1 (![0] : Fin 1 → Fin S64000x1.rank)
  bcast_S_S1024000 : S_.BroadcastsInDim S1024000 (![] : Fin 0 → Fin S1024000.rank)
  bcast_S_S64000 : S_.BroadcastsInDim S64000 (![] : Fin 0 → Fin S64000.rank)
  bcast_S1024000_S1024000x1_0 : S1024000.BroadcastsInDim S1024000x1 (![0] : Fin 1 → Fin S1024000x1.rank)
  bcast_S_S64000x64 : S_.BroadcastsInDim S64000x64 (![] : Fin 0 → Fin S64000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S2_S1x2 : S2.ShapeCasts S1x2
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  iota_S6400x128_d1_w32 : S6400x128.Iotas .tc 32 [1]
  broadcasts_S6400x1_S6400x128 : S6400x1.Broadcasts S6400x128
  natLt_1_32 : 1 < 32
  inb_S6400x2_S6400x2_0_0 : ∀ a, (![0, 0] : Fin 2 → Nat) a + S6400x2.size a ≤ S6400x2.size a
  h_S6400x2 : 0 < S6400x2.numel
  shapeCasts_S6400x2_S6400x2 : S6400x2.ShapeCasts S6400x2
  reduces_S6400x128_S128 : S6400x128.Reduces [0] S128
  shapeCasts_S128_S128x1 : S128.ShapeCasts S128x1
  broadcasts_S128x1_S128x2 : S128x1.Broadcasts S128x2
  scatter_S64000_S1024000x1_S1024000_n_0_0_1_wf : ScatterDims.WF S64000 S1024000x1 S1024000 [] [0] [0] 1
  gather_S64000x64_S1024000x1_S1024000x64_1_0_n_n_0_1_164_wf : GatherDims.WF S64000x64 S1024000x1 S1024000x64 [1] [0] [] [0] [] 1 ![1, 64]
  scatter_S64000x64_S1024000x1_S1024000x64_1_0_0_1_wf : ScatterDims.WF S64000x64 S1024000x1 S1024000x64 [1] [0] [0] 1
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  dot_S6400x128_S6400x2_S128x2_0_0_1_1_n_n_wf : DotDims.WF S6400x128 S6400x2 S128x2 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S64000x64.size a
  hwx0_0 : ∀ i : grid0.Coords, EltTy.bits .f32 = 32 ∨ (Rect.block (s := S64000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S64000x64.size a
  hwx0_1 : ∀ i : grid0.Coords, EltTy.bits .f32 = 32 ∨ (Rect.block (s := S64000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S64000x1.size a
  hwx0_2 : ∀ i : grid0.Coords, EltTy.bits .f32 = 32 ∨ (Rect.block (s := S64000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S64000x64.size a
  hwx0_6 : ∀ i : grid0.Coords, EltTy.bits .f32 = 32 ∨ (Rect.block (s := S64000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S64000x64.size a
  hwx1_0 : ∀ i : grid1.Coords, EltTy.bits .f32 = 32 ∨ (Rect.block (s := S64000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S64000x64.size a
  hwx1_1 : ∀ i : grid1.Coords, EltTy.bits .f32 = 32 ∨ (Rect.block (s := S64000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S64000x1.size a
  hwx1_2 : ∀ i : grid1.Coords, EltTy.bits .f32 = 32 ∨ (Rect.block (s := S64000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S64000x64.size a
  hwx1_6 : ∀ i : grid1.Coords, EltTy.bits .f32 = 32 ∨ (Rect.block (s := S64000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S64000x64.size a
  hwx2_0 : ∀ i : grid2.Coords, EltTy.bits .f32 = 32 ∨ (Rect.block (s := S64000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S64000x64.size a
  hwx2_1 : ∀ i : grid2.Coords, EltTy.bits .f32 = 32 ∨ (Rect.block (s := S64000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S64000x1.size a
  hwx2_2 : ∀ i : grid2.Coords, EltTy.bits .f32 = 32 ∨ (Rect.block (s := S64000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S64000x64.size a
  hwx2_6 : ∀ i : grid2.Coords, EltTy.bits .f32 = 32 ∨ (Rect.block (s := S64000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S64000x64.size a
  hwx3_0 : ∀ i : grid3.Coords, EltTy.bits .f32 = 32 ∨ (Rect.block (s := S64000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S64000x64.size a
  hwx3_1 : ∀ i : grid3.Coords, EltTy.bits .f32 = 32 ∨ (Rect.block (s := S64000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S64000x1.size a
  hwx3_2 : ∀ i : grid3.Coords, EltTy.bits .f32 = 32 ∨ (Rect.block (s := S64000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x64.size a ≤ S2x64.size a
  hwx3_3 : ∀ i : grid3.Coords, EltTy.bits .f32 = 32 ∨ (Rect.block (s := S2x64) S2x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x64.size a ≤ S2x64.size a
  hwx3_4 : ∀ i : grid3.Coords, EltTy.bits .f32 = 32 ∨ (Rect.block (s := S2x64) S2x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x2.size a ≤ S64000x2.size a
  hwx3_6 : ∀ i : grid3.Coords, EltTy.bits .f32 = 32 ∨ (Rect.block (s := S64000x2) S2000x2.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x2.size a ≤ S64000x2.size a
  hwx4_0 : ∀ i : grid4.Coords, EltTy.bits .f32 = 32 ∨ (Rect.block (s := S64000x2) S6400x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x1.size a ≤ S64000x1.size a
  hwx4_1 : ∀ i : grid4.Coords, EltTy.bits .i32 = 32 ∨ (Rect.block (s := S64000x1) S6400x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x2.size a ≤ S128x2.size a
  hwx4_2 : ∀ i : grid4.Coords, EltTy.bits .f32 = 32 ∨ (Rect.block (s := S128x2) S128x2.size (cc4_transform_2 i) (hinb4_2 i)).WholeWords (EltTy.packing .f32)

variable [Facts₀]

def scatter_S64000_S1024000x1_S1024000_n_0_0_1 : ScatterDims S64000 S1024000x1 S1024000 where
  updateWindowDims := []
  insertedWindowDims := [0]
  scatterDimsToOperandDims := [0]
  indexVectorDim := 1
  wf := scatter_S64000_S1024000x1_S1024000_n_0_0_1_wf
def gather_S64000x64_S1024000x1_S1024000x64_1_0_n_n_0_1_164 : GatherDims S64000x64 S1024000x1 S1024000x64 where
  offsetDims := [1]
  collapsedSliceDims := [0]
  operandBatchingDims := []
  startIndicesBatchingDims := []
  startIndexMap := [0]
  indexVectorDim := 1
  sliceSizes := ![1, 64]
  wf := gather_S64000x64_S1024000x1_S1024000x64_1_0_n_n_0_1_164_wf
def scatter_S64000x64_S1024000x1_S1024000x64_1_0_0_1 : ScatterDims S64000x64 S1024000x1 S1024000x64 where
  updateWindowDims := [1]
  insertedWindowDims := [0]
  scatterDimsToOperandDims := [0]
  indexVectorDim := 1
  wf := scatter_S64000x64_S1024000x1_S1024000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def dot_S6400x128_S6400x2_S128x2_0_0_1_1_n_n : DotDims S6400x128 S6400x2 S128x2 where
  lhsContracting := [0]
  rhsContracting := [0]
  lhsNonContracting := [1]
  rhsNonContracting := [1]
  lhsBatch := []
  rhsBatch := []
  wf := dot_S6400x128_S6400x2_S128x2_0_0_1_1_n_n_wf

abbrev win0_0 : Pipeline.Window sig grid0 :=
  Pipeline.Window.ofSpec (Memref.whole main_v19) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v73) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S2x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S2x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v75) S2000x2.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v75) S6400x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S6400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S128x2.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S64000x64 : Shape := ⟨2, ![64000, 64]⟩
abbrev S2x1024000 : Shape := ⟨2, ![2, 1024000]⟩
abbrev S64000 : Shape := ⟨1, ![64000]⟩
abbrev S3x64x64 : Shape := ⟨3, ![3, 64, 64]⟩
abbrev S3x64 : Shape := ⟨2, ![3, 64]⟩
abbrev S2x64 : Shape := ⟨2, ![2, 64]⟩
abbrev S2 : Shape := ⟨1, ![2]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1024000 : Shape := ⟨2, ![1, 1024000]⟩
abbrev S1024000 : Shape := ⟨1, ![1024000]⟩
abbrev S_ : Shape := ⟨0, ![]⟩
abbrev S1024000x1 : Shape := ⟨2, ![1024000, 1]⟩
abbrev S1024000x64 : Shape := ⟨2, ![1024000, 64]⟩
abbrev S64000x1 : Shape := ⟨2, ![64000, 1]⟩
abbrev S64x2 : Shape := ⟨2, ![64, 2]⟩
abbrev S64000x2 : Shape := ⟨2, ![64000, 2]⟩
abbrev S1x2 : Shape := ⟨2, ![1, 2]⟩
abbrev S128x2 : Shape := ⟨2, ![128, 2]⟩
abbrev S128 : Shape := ⟨1, ![128]⟩
abbrev S128x1 : Shape := ⟨2, ![128, 1]⟩

abbrev nBuf : Space → Nat
  | .hbm => 228
  | .vmem => 0
  | .smem => 0
  | _ => 0

abbrev hbmTy0_0 (i : Nat) : BufTy := match i % 128 with
  | 0 => ⟨S64000x64, .f32⟩
  | 1 => ⟨S2x1024000, .i32⟩
  | 2 => ⟨S64000, .i32⟩
  | 3 => ⟨S3x64x64, .f32⟩
  | 4 => ⟨S3x64x64, .f32⟩
  | 5 => ⟨S3x64, .f32⟩
  | 6 => ⟨S2x64, .f32⟩
  | 7 => ⟨S2x64, .f32⟩
  | 8 => ⟨S2, .f32⟩
  | 9 => ⟨S1x64x64, .f32⟩
  | 10 => ⟨S64x64, .f32⟩
  | 11 => ⟨S1x64x64, .f32⟩
  | 12 => ⟨S64x64, .f32⟩
  | 13 => ⟨S1x64, .f32⟩
  | 14 => ⟨S64, .f32⟩
  | 15 => ⟨S1x1024000, .i32⟩
  | 16 => ⟨S1024000, .i32⟩
  | 17 => ⟨S1x1024000, .i32⟩
  | 18 => ⟨S1024000, .i32⟩
  | 19 => ⟨S_, .i32⟩
  | 20 => ⟨S1024000, .i32⟩
  | 21 => ⟨S1024000, .i1⟩
  | 22 => ⟨S_, .i32⟩
  | 23 => ⟨S1024000, .i32⟩
  | 24 => ⟨S1024000, .i32⟩
  | 25 => ⟨S1024000, .i32⟩
  | 26 => ⟨S1024000x1, .i32⟩
  | 27 => ⟨S1024000x64, .f32⟩
  | 28 => ⟨S_, .f32⟩
  | 29 => ⟨S64000x64, .f32⟩
  | 30 => ⟨S1024000x1, .i32⟩
  | 31 => ⟨S64000x64, .f32⟩
  | 32 => ⟨S_, .f32⟩
  | 33 => ⟨S1024000, .f32⟩
  | 34 => ⟨S_, .f32⟩
  | 35 => ⟨S64000, .f32⟩
  | 36 => ⟨S1024000x1, .i32⟩
  | 37 => ⟨S64000, .f32⟩
  | 38 => ⟨S64000x1, .f32⟩
  | 39 => ⟨S_, .f32⟩
  | 40 => ⟨S64000x1, .f32⟩
  | 41 => ⟨S64000x1, .i1⟩
  | 42 => ⟨S_, .f32⟩
  | 43 => ⟨S64000x1, .f32⟩
  | 44 => ⟨S64000x1, .f32⟩
  | 45 => ⟨S64000x64, .f32⟩
  | 46 => ⟨S64000x64, .f32⟩
  | 47 => ⟨S_, .f32⟩
  | 48 => ⟨S64000x64, .i1⟩
  | 49 => ⟨S64000x64, .f32⟩
  | 50 => ⟨S64000x64, .f32⟩
  | 51 => ⟨S64x64, .f32⟩
  | 52 => ⟨S64000x64, .f32⟩
  | 53 => ⟨S64x64, .f32⟩
  | 54 => ⟨S64000x64, .f32⟩
  | 55 => ⟨S64000x64, .f32⟩
  | 56 => ⟨S1x64, .f32⟩
  | 57 => ⟨S64000x64, .f32⟩
  | 58 => ⟨S64000x64, .f32⟩
  | 59 => ⟨S_, .f32⟩
  | 60 => ⟨S64000x64, .f32⟩
  | 61 => ⟨S64000x64, .f32⟩
  | 62 => ⟨S1x64x64, .f32⟩
  | 63 => ⟨S64x64, .f32⟩
  | 64 => ⟨S1x64x64, .f32⟩
  | 65 => ⟨S64x64, .f32⟩
  | 66 => ⟨S1x64, .f32⟩
  | 67 => ⟨S64, .f32⟩
  | 68 => ⟨S1x1024000, .i32⟩
  | 69 => ⟨S1024000, .i32⟩
  | 70 => ⟨S1x1024000, .i32⟩
  | 71 => ⟨S1024000, .i32⟩
  | 72 => ⟨S_, .i32⟩
  | 73 => ⟨S1024000, .i32⟩
  | 74 => ⟨S1024000, .i1⟩
  | 75 => ⟨S_, .i32⟩
  | 76 => ⟨S1024000, .i32⟩
  | 77 => ⟨S1024000, .i32⟩
  | 78 => ⟨S1024000, .i32⟩
  | 79 => ⟨S1024000x1, .i32⟩
  | 80 => ⟨S1024000x64, .f32⟩
  | 81 => ⟨S_, .f32⟩
  | 82 => ⟨S64000x64, .f32⟩
  | 83 => ⟨S1024000x1, .i32⟩
  | 84 => ⟨S64000x64, .f32⟩
  | 85 => ⟨S_, .f32⟩
  | 86 => ⟨S1024000, .f32⟩
  | 87 => ⟨S_, .f32⟩
  | 88 => ⟨S64000, .f32⟩
  | 89 => ⟨S1024000x1, .i32⟩
  | 90 => ⟨S64000, .f32⟩
  | 91 => ⟨S64000x1, .f32⟩
  | 92 => ⟨S_, .f32⟩
  | 93 => ⟨S64000x1, .f32⟩
  | 94 => ⟨S64000x1, .i1⟩
  | 95 => ⟨S_, .f32⟩
  | 96 => ⟨S64000x1, .f32⟩
  | 97 => ⟨S64000x1, .f32⟩
  | 98 => ⟨S64000x64, .f32⟩
  | 99 => ⟨S64000x64, .f32⟩
  | 100 => ⟨S_, .f32⟩
  | 101 => ⟨S64000x64, .i1⟩
  | 102 => ⟨S64000x64, .f32⟩
  | 103 => ⟨S64000x64, .f32⟩
  | 104 => ⟨S64x64, .f32⟩
  | 105 => ⟨S64000x64, .f32⟩
  | 106 => ⟨S64x64, .f32⟩
  | 107 => ⟨S64000x64, .f32⟩
  | 108 => ⟨S64000x64, .f32⟩
  | 109 => ⟨S1x64, .f32⟩
  | 110 => ⟨S64000x64, .f32⟩
  | 111 => ⟨S64000x64, .f32⟩
  | 112 => ⟨S_, .f32⟩
  | 113 => ⟨S64000x64, .f32⟩
  | 114 => ⟨S64000x64, .f32⟩
  | 115 => ⟨S1x64x64, .f32⟩
  | 116 => ⟨S64x64, .f32⟩
  | 117 => ⟨S1x64x64, .f32⟩
  | 118 => ⟨S64x64, .f32⟩
  | 119 => ⟨S1x64, .f32⟩
  | 120 => ⟨S64, .f32⟩
  | 121 => ⟨S1x1024000, .i32⟩
  | 122 => ⟨S1024000, .i32⟩
  | 123 => ⟨S1x1024000, .i32⟩
  | 124 => ⟨S1024000, .i32⟩
  | 125 => ⟨S_, .i32⟩
  | 126 => ⟨S1024000, .i32⟩
  | 127 => ⟨S1024000, .i1⟩
  | _ => ⟨S64000x64, .f32⟩

abbrev hbmTy0_1 (i : Nat) : BufTy := match i % 128 with
  | 0 => ⟨S_, .i32⟩
  | 1 => ⟨S1024000, .i32⟩
  | 2 => ⟨S1024000, .i32⟩
  | 3 => ⟨S1024000, .i32⟩
  | 4 => ⟨S1024000x1, .i32⟩
  | 5 => ⟨S1024000x64, .f32⟩
  | 6 => ⟨S_, .f32⟩
  | 7 => ⟨S64000x64, .f32⟩
  | 8 => ⟨S1024000x1, .i32⟩
  | 9 => ⟨S64000x64, .f32⟩
  | 10 => ⟨S_, .f32⟩
  | 11 => ⟨S1024000, .f32⟩
  | 12 => ⟨S_, .f32⟩
  | 13 => ⟨S64000, .f32⟩
  | 14 => ⟨S1024000x1, .i32⟩
  | 15 => ⟨S64000, .f32⟩
  | 16 => ⟨S64000x1, .f32⟩
  | 17 => ⟨S_, .f32⟩
  | 18 => ⟨S64000x1, .f32⟩
  | 19 => ⟨S64000x1, .i1⟩
  | 20 => ⟨S_, .f32⟩
  | 21 => ⟨S64000x1, .f32⟩
  | 22 => ⟨S64000x1, .f32⟩
  | 23 => ⟨S64000x64, .f32⟩
  | 24 => ⟨S64000x64, .f32⟩
  | 25 => ⟨S_, .f32⟩
  | 26 => ⟨S64000x64, .i1⟩
  | 27 => ⟨S64000x64, .f32⟩
  | 28 => ⟨S64000x64, .f32⟩
  | 29 => ⟨S64x64, .f32⟩
  | 30 => ⟨S64000x64, .f32⟩
  | 31 => ⟨S64x64, .f32⟩
  | 32 => ⟨S64000x64, .f32⟩
  | 33 => ⟨S64000x64, .f32⟩
  | 34 => ⟨S1x64, .f32⟩
  | 35 => ⟨S64000x64, .f32⟩
  | 36 => ⟨S64000x64, .f32⟩
  | 37 => ⟨S_, .f32⟩
  | 38 => ⟨S64000x64, .f32⟩
  | 39 => ⟨S64000x64, .f32⟩
  | 40 => ⟨S1x1024000, .i32⟩
  | 41 => ⟨S1024000, .i32⟩
  | 42 => ⟨S1x1024000, .i32⟩
  | 43 => ⟨S1024000, .i32⟩
  | 44 => ⟨S_, .i32⟩
  | 45 => ⟨S1024000, .i32⟩
  | 46 => ⟨S1024000, .i1⟩
  | 47 => ⟨S_, .i32⟩
  | 48 => ⟨S1024000, .i32⟩
  | 49 => ⟨S1024000, .i32⟩
  | 50 => ⟨S1024000, .i32⟩
  | 51 => ⟨S1024000x1, .i32⟩
  | 52 => ⟨S1024000x64, .f32⟩
  | 53 => ⟨S_, .f32⟩
  | 54 => ⟨S64000x64, .f32⟩
  | 55 => ⟨S1024000x1, .i32⟩
  | 56 => ⟨S64000x64, .f32⟩
  | 57 => ⟨S_, .f32⟩
  | 58 => ⟨S1024000, .f32⟩
  | 59 => ⟨S_, .f32⟩
  | 60 => ⟨S64000, .f32⟩
  | 61 => ⟨S1024000x1, .i32⟩
  | 62 => ⟨S64000, .f32⟩
  | 63 => ⟨S64000x1, .f32⟩
  | 64 => ⟨S_, .f32⟩
  | 65 => ⟨S64000x1, .f32⟩
  | 66 => ⟨S64000x1, .i1⟩
  | 67 => ⟨S_, .f32⟩
  | 68 => ⟨S64000x1, .f32⟩
  | 69 => ⟨S64000x1, .f32⟩
  | 70 => ⟨S64000x64, .f32⟩
  | 71 => ⟨S64000x64, .f32⟩
  | 72 => ⟨S_, .f32⟩
  | 73 => ⟨S64000x64, .i1⟩
  | 74 => ⟨S64000x64, .f32⟩
  | 75 => ⟨S64000x64, .f32⟩
  | 76 => ⟨S64x2, .f32⟩
  | 77 => ⟨S64000x2, .f32⟩
  | 78 => ⟨S64x2, .f32⟩
  | 79 => ⟨S64000x2, .f32⟩
  | 80 => ⟨S64000x2, .f32⟩
  | 81 => ⟨S1x2, .f32⟩
  | 82 => ⟨S64000x2, .f32⟩
  | 83 => ⟨S64000x2, .f32⟩
  | 84 => ⟨S_, .f32⟩
  | 85 => ⟨S128x2, .f32⟩
  | 86 => ⟨S64000x1, .i32⟩
  | 87 => ⟨S128x2, .f32⟩
  | 88 => ⟨S_, .f32⟩
  | 89 => ⟨S64000, .f32⟩
  | 90 => ⟨S_, .f32⟩
  | 91 => ⟨S128, .f32⟩
  | 92 => ⟨S64000x1, .i32⟩
  | 93 => ⟨S128, .f32⟩
  | 94 => ⟨S128x1, .f32⟩
  | 95 => ⟨S_, .f32⟩
  | 96 => ⟨S128x1, .f32⟩
  | 97 => ⟨S128x1, .f32⟩
  | 98 => ⟨S128x2, .f32⟩
  | 99 => ⟨S128x2, .f32⟩
  | _ => ⟨S64000x64, .f32⟩

abbrev hbmTy (i : Nat) : BufTy := match i / 128 with
  | 0 => hbmTy0_0 i
  | 1 => hbmTy0_1 i
  | _ => ⟨S64000x64, .f32⟩

abbrev bufTy : (tb : Table) → Fin (tcTables nBuf tb) → BufTy
  | .hbm, ⟨i, _⟩ => hbmTy i
  | _, _ => ⟨S64000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_6 : Ref sig .tc := ⟨.hbm, 72, rfl⟩
abbrev main_v51 : Ref sig .tc := ⟨.hbm, 73, rfl⟩
abbrev main_v52 : Ref sig .tc := ⟨.hbm, 74, rfl⟩
abbrev main_c_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_call2_v0 : Ref sig .tc := ⟨.hbm, 101, rfl⟩
abbrev main_call2_v1 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call3_cst : Ref sig .tc := ⟨.hbm, 112, rfl⟩
abbrev main_call3_v0 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_14 : Ref sig .tc := ⟨.hbm, 125, rfl⟩
abbrev main_v92 : Ref sig .tc := ⟨.hbm, 126, rfl⟩
abbrev main_v93 : Ref sig .tc := ⟨.hbm, 127, rfl⟩
abbrev main_c_15 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_17 : Ref sig .tc := ⟨.hbm, 138, rfl⟩
abbrev main_v102 : Ref sig .tc := ⟨.hbm, 139, rfl⟩
abbrev main_cst_18 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_19 : Ref sig .tc := ⟨.hbm, 145, rfl⟩
abbrev main_v107 : Ref sig .tc := ⟨.hbm, 146, rfl⟩
abbrev main_v108 : Ref sig .tc := ⟨.hbm, 147, rfl⟩
abbrev main_cst_20 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_call4_v0 : Ref sig .tc := ⟨.hbm, 154, rfl⟩
abbrev main_call4_v1 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call5_cst : Ref sig .tc := ⟨.hbm, 165, rfl⟩
abbrev main_call5_v0 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_22 : Ref sig .tc := ⟨.hbm, 172, rfl⟩
abbrev main_v127 : Ref sig .tc := ⟨.hbm, 173, rfl⟩
abbrev main_v128 : Ref sig .tc := ⟨.hbm, 174, rfl⟩
abbrev main_c_23 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_24 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_25 : Ref sig .tc := ⟨.hbm, 185, rfl⟩
abbrev main_v137 : Ref sig .tc := ⟨.hbm, 186, rfl⟩
abbrev main_cst_26 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_27 : Ref sig .tc := ⟨.hbm, 192, rfl⟩
abbrev main_v142 : Ref sig .tc := ⟨.hbm, 193, rfl⟩
abbrev main_v143 : Ref sig .tc := ⟨.hbm, 194, rfl⟩
abbrev main_cst_28 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_29 : Ref sig .tc := ⟨.hbm, 200, rfl⟩
abbrev main_call6_v0 : Ref sig .tc := ⟨.hbm, 201, rfl⟩
abbrev main_call6_v1 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_30 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_31 : Ref sig .tc := ⟨.hbm, 216, rfl⟩
abbrev main_v160 : Ref sig .tc := ⟨.hbm, 217, rfl⟩
abbrev main_cst_32 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_33 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩

abbrev nD : Nat := 1
abbrev τ : Topo := Topo.v7x

variable {F : FTy → Type} [FloatOps F]

class Facts₀ : Prop where
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S2x1024000_S1x1024000_0_0 : S2x1024000.Slices ![0, 0] S1x1024000
  shapeCasts_S1x1024000_S1024000 : S1x1024000.ShapeCasts S1024000
  slices_S2x1024000_S1x1024000_1_0 : S2x1024000.Slices ![1, 0] S1x1024000
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S64000x64 : S_.BroadcastsInDim S64000x64 (![] : Fin 0 → Fin S64000x64.rank)
  bcast_S_S64000 : S_.BroadcastsInDim S64000 (![] : Fin 0 → Fin S64000.rank)
  bcast_S64000_S64000x1_0 : S64000.BroadcastsInDim S64000x1 (![0] : Fin 1 → Fin S64000x1.rank)
  bcast_S_S64000x1 : S_.BroadcastsInDim S64000x1 (![] : Fin 0 → Fin S64000x1.rank)
  bcast_S64000x1_S64000x64_0_1 : S64000x1.BroadcastsInDim S64000x64 (![0, 1] : Fin 2 → Fin S64000x64.rank)
  transposes_S64x64_S64x64_1_0 : S64x64.Transposes [1, 0] S64x64
  bcast_S64_S1x64_1 : S64.BroadcastsInDim S1x64 (![1] : Fin 1 → Fin S1x64.rank)
  bcast_S1x64_S64000x64_0_1 : S1x64.BroadcastsInDim S64000x64 (![0, 1] : Fin 2 → Fin S64000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S2x64_S64x2_1_0 : S2x64.Transposes [1, 0] S64x2
  bcast_S2_S1x2_1 : S2.BroadcastsInDim S1x2 (![1] : Fin 1 → Fin S1x2.rank)
  bcast_S1x2_S64000x2_0_1 : S1x2.BroadcastsInDim S64000x2 (![0, 1] : Fin 2 → Fin S64000x2.rank)
  bcast_S_S128x2 : S_.BroadcastsInDim S128x2 (![] : Fin 0 → Fin S128x2.rank)
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S128x1_S128x2_0_1 : S128x1.BroadcastsInDim S128x2 (![0, 1] : Fin 2 → Fin S128x2.rank)
  gather_S64000x64_S1024000x1_S1024000x64_1_0_n_n_0_1_164_wf : GatherDims.WF S64000x64 S1024000x1 S1024000x64 [1] [0] [] [0] [] 1 ![1, 64]
  scatter_S64000x64_S1024000x1_S1024000x64_1_0_0_1_wf : ScatterDims.WF S64000x64 S1024000x1 S1024000x64 [1] [0] [0] 1
  scatter_S64000_S1024000x1_S1024000_n_0_0_1_wf : ScatterDims.WF S64000 S1024000x1 S1024000 [] [0] [0] 1
  dot_S64000x64_S64x64_S64000x64_1_0_0_1_n_n_wf : DotDims.WF S64000x64 S64x64 S64000x64 [1] [0] [0] [1] [] []
  dot_S64000x64_S64x2_S64000x2_1_0_0_1_n_n_wf : DotDims.WF S64000x64 S64x2 S64000x2 [1] [0] [0] [1] [] []
  scatter_S128x2_S64000x1_S64000x2_1_0_0_1_wf : ScatterDims.WF S128x2 S64000x1 S64000x2 [1] [0] [0] 1
  scatter_S128_S64000x1_S64000_n_0_0_1_wf : ScatterDims.WF S128 S64000x1 S64000 [] [0] [0] 1

variable [Facts₀]

def gather_S64000x64_S1024000x1_S1024000x64_1_0_n_n_0_1_164 : GatherDims S64000x64 S1024000x1 S1024000x64 where
  offsetDims := [1]
  collapsedSliceDims := [0]
  operandBatchingDims := []
  startIndicesBatchingDims := []
  startIndexMap := [0]
  indexVectorDim := 1
  sliceSizes := ![1, 64]
  wf := gather_S64000x64_S1024000x1_S1024000x64_1_0_n_n_0_1_164_wf
def scatter_S64000x64_S1024000x1_S1024000x64_1_0_0_1 : ScatterDims S64000x64 S1024000x1 S1024000x64 where
  updateWindowDims := [1]
  insertedWindowDims := [0]
  scatterDimsToOperandDims := [0]
  indexVectorDim := 1
  wf := scatter_S64000x64_S1024000x1_S1024000x64_1_0_0_1_wf
def scatter_S64000_S1024000x1_S1024000_n_0_0_1 : ScatterDims S64000 S1024000x1 S1024000 where
  updateWindowDims := []
  insertedWindowDims := [0]
  scatterDimsToOperandDims := [0]
  indexVectorDim := 1
  wf := scatter_S64000_S1024000x1_S1024000_n_0_0_1_wf
def dot_S64000x64_S64x64_S64000x64_1_0_0_1_n_n : DotDims S64000x64 S64x64 S64000x64 where
  lhsContracting := [1]
  rhsContracting := [0]
  lhsNonContracting := [0]
  rhsNonContracting := [1]
  lhsBatch := []
  rhsBatch := []
  wf := dot_S64000x64_S64x64_S64000x64_1_0_0_1_n_n_wf
def dot_S64000x64_S64x2_S64000x2_1_0_0_1_n_n : DotDims S64000x64 S64x2 S64000x2 where
  lhsContracting := [1]
  rhsContracting := [0]
  lhsNonContracting := [0]
  rhsNonContracting := [1]
  lhsBatch := []
  rhsBatch := []
  wf := dot_S64000x64_S64x2_S64000x2_1_0_0_1_n_n_wf
def scatter_S128x2_S64000x1_S64000x2_1_0_0_1 : ScatterDims S128x2 S64000x1 S64000x2 where
  updateWindowDims := [1]
  insertedWindowDims := [0]
  scatterDimsToOperandDims := [0]
  indexVectorDim := 1
  wf := scatter_S128x2_S64000x1_S64000x2_1_0_0_1_wf
def scatter_S128_S64000x1_S64000_n_0_0_1 : ScatterDims S128 S64000x1 S64000 where
  updateWindowDims := []
  insertedWindowDims := [0]
  scatterDimsToOperandDims := [0]
  indexVectorDim := 1
  wf := scatter_S128_S64000x1_S64000_n_0_0_1_wf

class Facts : Prop extends Facts₀ where

variable [Facts]
-- ==== Proof.K.RegA0.lean ====
/-
  REGION 0 of @main (custom_call 0, `cc0__transform_kernel`, pipeline 0), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out0_6`), and what it finds in an input buffer is that
  window's block at the point, whether or not the pipeline fetched it there: the three windows with a constant index
  map (the weights and the bias) are fetched at the first point only, and their block index never moves after it.
  From these: the pipeline's proof data (`dat0`) and the body obligation at every point (`body_obligation0`).
-/
import proofs.«422203_j1219770712268_1_alg».proof.Proof.Gen.Kernel.Launch
import proofs.«422203_j1219770712268_1_alg».proof.Proof.Gen.Kernel.Skeleton
import proofs.«422203_j1219770712268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S64x64
local notation "𝕊b" => S1x64
local notation "𝕊o" => S2000x64

-- the TensorCore's buffer contents when the region is entered
variable (V : (c : Dev nD) → (b : Ref sig .tc) → Buf (Elt F) ((c : Thread nD τ).loc b))

/-! # REGION 0 of @main: custom_call 0, `cc0__transform_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is `V`'s
    (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- of input window 2, -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- and of input windows 3, 4, 5, whose index map is constant: fetched at the first point only, the buffer holds that
    block at every later point, and it is every point's block (unfetched, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_n : Rect 𝕊n := Rect.unit (s := 𝕊n) ![0, 0] (𝕊n).size inb_S2000x64_S2000x64_0_0
abbrev r0_c : Rect 𝕊c := Rect.unit (s := 𝕊c) ![0, 0] (𝕊c).size inb_S2000x1_S2000x1_0_0
abbrev r0_w : Rect 𝕊w := Rect.unit (s := 𝕊w) ![0, 0] (𝕊w).size inb_S64x64_S64x64_0_0
abbrev r0_b : Rect 𝕊b := Rect.unit (s := 𝕊b) ![0, 0] (𝕊b).size inb_S1x64_S1x64_0_0
abbrev r0_o : Rect 𝕊o := Rect.unit (s := 𝕊o) ![0, 0] (𝕊o).size inb_S2000x64_S2000x64_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out0_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r0_o, k0_pay1 (View.ld x0 r0_n) (View.ld x2 r0_c) (View.ld x3 r0_w) (View.ld x1 r0_n) (View.ld x4 r0_w) (View.ld x5 r0_b)⟩]

/-- The one store is of the whole buffer, so it covers it. -/
theorem cover0_6 (p0 : Vec F 𝕊o .f32) (y : (𝕊o).Idx) :
    ∃ pc ∈ ([⟨r0_o, p0⟩] : List (View.Piece (Elt F) 𝕊o .f32)), y ∈ pc.1.set :=
  View.cover_of_tiled [⟨r0_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out0_6` of the inputs'. (The body
    also loads the output buffer before the store; nothing reads that value.) -/
theorem sound_kernel0 (c : Dev nD) (E : Set ℕ) (i : grid0.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__transform_kernel i arg1 harg1 arg2 harg2 arg3 harg3 arg4 harg4 arg5 harg5 arg6 harg6 arg7 harg7) K := by
  simp only [cc0__transform_kernel_eq_skeleton]; unfold cc0__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the six input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.RegA1.lean ====
/-
  REGION 1 of @main (custom_call 1, `cc1__transform_kernel`, pipeline 1), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out1_6`), and what it finds in an input buffer is that
  window's block at the point, whether or not the pipeline fetched it there: the three windows with a constant index
  map (the weights and the bias) are fetched at the first point only, and their block index never moves after it.
  From these: the pipeline's proof data (`dat1`) and the body obligation at every point (`body_obligation1`).
-/
import proofs.«422203_j1219770712268_1_alg».proof.Proof.Gen.Kernel.Launch
import proofs.«422203_j1219770712268_1_alg».proof.Proof.Gen.Kernel.Skeleton
import proofs.«422203_j1219770712268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S64x64
local notation "𝕊b" => S1x64
local notation "𝕊o" => S2000x64

-- the TensorCore's buffer contents when the region is entered
variable (V : (c : Dev nD) → (b : Ref sig .tc) → Buf (Elt F) ((c : Thread nD τ).loc b))

/-! # REGION 1 of @main: custom_call 1, `cc1__transform_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- of input window 2, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- and of input windows 3, 4, 5, whose index map is constant: fetched at the first point only, the buffer holds that
    block at every later point, and it is every point's block (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_n : Rect 𝕊n := Rect.unit (s := 𝕊n) ![0, 0] (𝕊n).size inb_S2000x64_S2000x64_0_0
abbrev r1_c : Rect 𝕊c := Rect.unit (s := 𝕊c) ![0, 0] (𝕊c).size inb_S2000x1_S2000x1_0_0
abbrev r1_w : Rect 𝕊w := Rect.unit (s := 𝕊w) ![0, 0] (𝕊w).size inb_S64x64_S64x64_0_0
abbrev r1_b : Rect 𝕊b := Rect.unit (s := 𝕊b) ![0, 0] (𝕊b).size inb_S1x64_S1x64_0_0
abbrev r1_o : Rect 𝕊o := Rect.unit (s := 𝕊o) ![0, 0] (𝕊o).size inb_S2000x64_S2000x64_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out1_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r1_o, k1_pay1 (View.ld x0 r1_n) (View.ld x2 r1_c) (View.ld x3 r1_w) (View.ld x1 r1_n) (View.ld x4 r1_w) (View.ld x5 r1_b)⟩]

/-- The one store is of the whole buffer, so it covers it. -/
theorem cover1_6 (p0 : Vec F 𝕊o .f32) (y : (𝕊o).Idx) :
    ∃ pc ∈ ([⟨r1_o, p0⟩] : List (View.Piece (Elt F) 𝕊o .f32)), y ∈ pc.1.set :=
  View.cover_of_tiled [⟨r1_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out1_6` of the inputs'. (The body
    also loads the output buffer before the store; nothing reads that value.) -/
theorem sound_kernel1 (c : Dev nD) (E : Set ℕ) (i : grid1.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__transform_kernel i arg1 harg1 arg2 harg2 arg3 harg3 arg4 harg4 arg5 harg5 arg6 harg6 arg7 harg7) K := by
  simp only [cc1__transform_kernel_eq_skeleton]; unfold cc1__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.RegA2.lean ====
/-
  REGION 2 of @main (custom_call 2, `cc2__transform_kernel`, pipeline 2), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out2_6`), and what it finds in an input buffer is that
  window's block at the point, whether or not the pipeline fetched it there: the three windows with a constant index
  map (the weights and the bias) are fetched at the first point only, and their block index never moves after it.
  From these: the pipeline's proof data (`dat2`) and the body obligation at every point (`body_obligation2`).
-/
import proofs.«422203_j1219770712268_1_alg».proof.Proof.Gen.Kernel.Launch
import proofs.«422203_j1219770712268_1_alg».proof.Proof.Gen.Kernel.Skeleton
import proofs.«422203_j1219770712268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S64x64
local notation "𝕊b" => S1x64
local notation "𝕊o" => S2000x64

-- the TensorCore's buffer contents when the region is entered
variable (V : (c : Dev nD) → (b : Ref sig .tc) → Buf (Elt F) ((c : Thread nD τ).loc b))

/-! # REGION 2 of @main: custom_call 2, `cc2__transform_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for ANY proof data whose array is `V`'s
    (`hA`) and whose body leaves the block in place (`hafter`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- of input window 2, -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- and of input windows 3, 4, 5, whose index map is constant: fetched at the first point only, the buffer holds that
    block at every later point, and it is every point's block (unfetched, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_n : Rect 𝕊n := Rect.unit (s := 𝕊n) ![0, 0] (𝕊n).size inb_S2000x64_S2000x64_0_0
abbrev r2_c : Rect 𝕊c := Rect.unit (s := 𝕊c) ![0, 0] (𝕊c).size inb_S2000x1_S2000x1_0_0
abbrev r2_w : Rect 𝕊w := Rect.unit (s := 𝕊w) ![0, 0] (𝕊w).size inb_S64x64_S64x64_0_0
abbrev r2_b : Rect 𝕊b := Rect.unit (s := 𝕊b) ![0, 0] (𝕊b).size inb_S1x64_S1x64_0_0
abbrev r2_o : Rect 𝕊o := Rect.unit (s := 𝕊o) ![0, 0] (𝕊o).size inb_S2000x64_S2000x64_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out2_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r2_o, k2_pay1 (View.ld x0 r2_n) (View.ld x2 r2_c) (View.ld x3 r2_w) (View.ld x1 r2_n) (View.ld x4 r2_w) (View.ld x5 r2_b)⟩]

/-- The one store is of the whole buffer, so it covers it. -/
theorem cover2_6 (p0 : Vec F 𝕊o .f32) (y : (𝕊o).Idx) :
    ∃ pc ∈ ([⟨r2_o, p0⟩] : List (View.Piece (Elt F) 𝕊o .f32)), y ∈ pc.1.set :=
  View.cover_of_tiled [⟨r2_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out2_6` of the inputs'. (The body
    also loads the output buffer before the store; nothing reads that value.) -/
theorem sound_kernel2 (c : Dev nD) (E : Set ℕ) (i : grid2.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__transform_kernel i arg1 harg1 arg2 harg2 arg3 harg3 arg4 harg4 arg5 harg5 arg6 harg6 arg7 harg7) K := by
  simp only [cc2__transform_kernel_eq_skeleton]; unfold cc2__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the six input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.RegA3.lean ====
/-
  REGION 3 of @main (custom_call 3, `cc3__transform_kernel`, pipeline 3), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out3_6`), and what it finds in an input buffer is that
  window's block at the point, whether or not the pipeline fetched it there: the three windows with a constant index
  map (the weights and the bias) are fetched at the first point only, and their block index never moves after it.
  From these: the pipeline's proof data (`dat3`) and the body obligation at every point (`body_obligation3`).
-/
import proofs.«422203_j1219770712268_1_alg».proof.Proof.Gen.Kernel.Launch
import proofs.«422203_j1219770712268_1_alg».proof.Proof.Gen.Kernel.Skeleton
import proofs.«422203_j1219770712268_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S2x64
local notation "𝕊b" => S1x2
local notation "𝕊o" => S2000x2

-- the TensorCore's buffer contents when the region is entered
variable (V : (c : Dev nD) → (b : Ref sig .tc) → Buf (Elt F) ((c : Thread nD τ).loc b))

/-! # REGION 3 of @main: custom_call 3, `cc3__transform_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for ANY proof data whose array is `V`'s
    (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- of input window 2, -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- and of input windows 3, 4, 5, whose index map is constant: fetched at the first point only, the buffer holds that
    block at every later point, and it is every point's block (unfetched, the block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_n : Rect 𝕊n := Rect.unit (s := 𝕊n) ![0, 0] (𝕊n).size inb_S2000x64_S2000x64_0_0
abbrev r3_c : Rect 𝕊c := Rect.unit (s := 𝕊c) ![0, 0] (𝕊c).size inb_S2000x1_S2000x1_0_0
abbrev r3_w : Rect 𝕊w := Rect.unit (s := 𝕊w) ![0, 0] (𝕊w).size inb_S2x64_S2x64_0_0
abbrev r3_b : Rect 𝕊b := Rect.unit (s := 𝕊b) ![0, 0] (𝕊b).size inb_S1x2_S1x2_0_0
abbrev r3_o : Rect 𝕊o := Rect.unit (s := 𝕊o) ![0, 0] (𝕊o).size inb_S2000x2_S2000x2_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out3_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r3_o, k3_pay1 (View.ld x0 r3_n) (View.ld x2 r3_c) (View.ld x3 r3_w) (View.ld x1 r3_n) (View.ld x4 r3_w) (View.ld x5 r3_b)⟩]

/-- The one store is of the whole buffer, so it covers it. -/
theorem cover3_6 (p0 : Vec F 𝕊o .f32) (y : (𝕊o).Idx) :
    ∃ pc ∈ ([⟨r3_o, p0⟩] : List (View.Piece (Elt F) 𝕊o .f32)), y ∈ pc.1.set :=
  View.cover_of_tiled [⟨r3_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out3_6` of the inputs'. (The body
    also loads the output buffer before the store; nothing reads that value.) -/
theorem sound_kernel3 (c : Dev nD) (E : Set ℕ) (i : grid3.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__transform_kernel i arg1 harg1 arg2 harg2 arg3 harg3 arg4 harg4 arg5 harg5 arg6 harg6 arg7 harg7) K := by
  simp only [cc3__transform_kernel_eq_skeleton]; unfold cc3__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at point `t`
    each input's buffer at its block and the output's at `out3_6` of the six input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's case split reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so the body's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.RegR4.lean ====
import proofs.«422203_j1219770712268_1_alg».proof.Proof.Gen.Kernel.Launch
import proofs.«422203_j1219770712268_1_alg».proof.Proof.Gen.Kernel.Skeleton
import proofs.«422203_j1219770712268_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # Region 4, the readout: the body half

The readout kernel runs on a grid of 10 points. It keeps two accumulators in scratch memory between points: a
`128 × 2` array of per-graph feature sums and a `128 × 1` array of per-graph node counts. At the first point it
zeroes both; at every point it adds the block's contribution (the one-hot matrix of the block's graph ids,
transposed, times the block of features; and the one-hot matrix's column sums); at the last point it stores
sums divided by `max(counts, 1)` into the output block, which is written back there and only there.

So the body has three control cases — the first point, the points between, the last point — and the output
window is idle except at the last. This module states what the two accumulators hold after each point as explicit
functions of the blocks read (`scAt4`), gives the pipeline's proof data at an arbitrary valuation `V` of the
core's buffers on entry, and proves the body obligation and the two ends of the invariant. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two branch conditions, decided over the grid -/

/-- The first conditional's test: the grid coordinate is 0. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional's test: the grid coordinate is 9. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the output window is idle: nothing is stored into it, -/
theorem idleAt4_2 : ∀ t : Fin cfg4.N, ¬cond4_1 (grid4.coords t) → cfg4.idle 2 (grid4.coords t) = true := by decide +kernel
/-- and its block is not written back. -/
theorem noFlush4_2 : ∀ t : Fin cfg4.N, ¬cond4_1 (grid4.coords t) → (cfg4.win 2).flush t = false := by decide +kernel
/-- At the last point it is live. -/
theorem liveAt4_2 : ∀ t : Fin cfg4.N, cond4_1 (grid4.coords t) → cfg4.idle 2 (grid4.coords t) = false := by decide +kernel

/-! ## The memrefs the body is called with -/

/-- Each window's current staging memref at point `t`, and its wholeness. -/
abbrev ms4_0 (t : Fin cfg4.N) : Memref sig .tc .vmem S6400x2 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S6400x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x2 .f32 := win4_2.stage (cfg4.slots t 2)
abbrev hs4_2 (t : Fin cfg4.N) : (ms4_2 t).IsWhole := hstage4_2 ((cfg4.slots t 2).cast nbuf4_2)
/-- The two accumulators: whole scoped buffers of the kernel's own. -/
abbrev scM4_0 : Memref sig .tc .vmem S128x2 .f32 := Memref.whole cc4_scratch0
abbrev scM4_1 : Memref sig .tc .vmem S128x1 .f32 := Memref.whole cc4_scratch1

/-- The region's entry invariant with the two accumulators split off as memrefs owned at some contents: the rest of
    the core's scoped buffers and the generator register ride along unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
            ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-! ## The body's run, case by case

Each case's run is stated on any whole memrefs: the two input blocks at given contents, and — as the case
requires — the output buffer handed back untouched or taken at anything, the accumulators taken at anything (the
first point, which overwrites them) or at given contents. The run ends with each buffer stored into holding a
list of written pieces, last first; the lists are found by running the body. -/

set_option maxHeartbeats 1000000 in
/-- The first point: the first conditional taken, the second not. The accumulators are zeroed, then updated. -/
noncomputable def kernelRun4_A (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i)
    (x0 : Vec F S6400x2 .f32) (x1 : Vec F S6400x1 .i32) :
    Σ' (L2 : List (View.Piece (Elt F) S128x2 .f32)) (LS0 : List (View.Piece (Elt F) S128x2 .f32)), { LS1 : List (View.Piece (Elt F) S128x1 .f32) //
      ∀ (xi2 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4__readout_kernel i arg1 harg1 arg2 harg2 arg3 harg3 arg4 harg4 arg5 harg5) K } := by
  refine ⟨[], ?_, ?_, fun xi2 E K => ?run⟩
  case run =>
    simp only [cc4__readout_kernel_eq_skeleton]; unfold cc4__readout_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The points between: neither conditional taken. The accumulators are updated. -/
noncomputable def kernelRun4_B (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i)
    (x0 : Vec F S6400x2 .f32) (x1 : Vec F S6400x1 .i32) (xs0 : Vec F S128x2 .f32) (xs1 : Vec F S128x1 .f32) :
    Σ' (L2 : List (View.Piece (Elt F) S128x2 .f32)) (LS0 : List (View.Piece (Elt F) S128x2 .f32)), { LS1 : List (View.Piece (Elt F) S128x1 .f32) //
      ∀ (xi2 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4__readout_kernel i arg1 harg1 arg2 harg2 arg3 harg3 arg4 harg4 arg5 harg5) K } := by
  refine ⟨[], ?_, ?_, fun xi2 E K => ?run⟩
  case run =>
    simp only [cc4__readout_kernel_eq_skeleton]; unfold cc4__readout_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the first conditional not taken, the second taken. The accumulators are updated, read back, and
    their quotient stored into the output buffer. -/
noncomputable def kernelRun4_C (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i)
    (x0 : Vec F S6400x2 .f32) (x1 : Vec F S6400x1 .i32) (xs0 : Vec F S128x2 .f32) (xs1 : Vec F S128x1 .f32) :
    Σ' (L2 : List (View.Piece (Elt F) S128x2 .f32)) (LS0 : List (View.Piece (Elt F) S128x2 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4__readout_kernel i arg1 harg1 arg2 harg2 arg3 harg3 arg4 harg4 arg5 harg5) K } := by
  refine ⟨?_, ?_, ?_, fun E K => ?run⟩
  case run =>
    simp only [cc4__readout_kernel_eq_skeleton]; unfold cc4__readout_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

/-! ## What the stores leave, as explicit functions of what was read -/

/-- The zero offsets of a whole-buffer load or store, however spelt. -/
theorem hz2 : (![0, 0] : Fin 2 → ℕ) = fun _ => 0 := by funext a; fin_cases a <;> rfl

/-- The sum accumulator after the zero store. -/
def zacc4 : Vec F S128x2 .f32 := k4_pay1
/-- The count accumulator after the zero store. -/
def zcnt4 : Vec F S128x1 .f32 := k4_pay2
/-- The sum accumulator after one update: `a` plus the one-hot matrix of the graph ids `b`, transposed, times the
    feature block `x`. -/
def accNext4 (a : Vec F S128x2 .f32) (x : Vec F S6400x2 .f32) (b : Vec F S6400x1 .i32) : Vec F S128x2 .f32 := k4_pay4 b x a
/-- The count accumulator after one update: `k` plus the column sums of the one-hot matrix of `b`. -/
def cntNext4 (k : Vec F S128x1 .f32) (b : Vec F S6400x1 .i32) : Vec F S128x1 .f32 := k4_pay5 b k
/-- The output block: sums over `max(counts, 1)`. -/
def fin4 (a : Vec F S128x2 .f32) (k : Vec F S128x1 .f32) : Vec F S128x2 .f32 := k4_pay6 a k

/-! Per case and buffer: the pieces the run found cover the buffer, their canonical contents are the explicit
    function, and so whatever the buffer held before, it reads as that function afterwards. -/

theorem coverA_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (y : S128x2.Idx) :
    ∃ pc ∈ (kernelRun4_A c i arg1 harg1 arg2 harg2 arg3 harg3 arg4 harg4 arg5 harg5 hc0 hc1 x0 x1).2.1, y ∈ pc.1.set :=
  View.cover_of_tiledL (kernelRun4_A c i arg1 harg1 arg2 harg2 arg3 harg3 arg4 harg4 arg5 harg5 hc0 hc1 x0 x1).2.1 S128x2.size (by sl_kernel_rfl) y

theorem canonA_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) :
    View.canon (kernelRun4_A c i arg1 harg1 arg2 harg2 arg3 harg3 arg4 harg4 arg5 harg5 hc0 hc1 x0 x1).2.1 = accNext4 zacc4 x0 x1 := by
  unfold kernelRun4_A
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesA_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (f : arg4.view.ty.Contents (Elt F)) :
    arg4.view.read (Elt F) (arg4.view.writes (Elt F) f (kernelRun4_A c i arg1 harg1 arg2 harg2 arg3 harg3 arg4 harg4 arg5 harg5 hc0 hc1 x0 x1).2.1) = accNext4 zacc4 x0 x1 :=
  (View.read_writes_eq_canon _ _ _ (coverA_0 c i arg1 harg1 arg2 harg2 arg3 harg3 arg4 harg4 arg5 harg5 hc0 hc1 x0 x1)).trans (canonA_0 c i arg1 harg1 arg2 harg2 arg3 harg3 arg4 harg4 arg5 harg5 hc0 hc1 x0 x1)

theorem coverA_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (y : S128x1.Idx) :
    ∃ pc ∈ (kernelRun4_A c i arg1 harg1 arg2 harg2 arg3 harg3 arg4 harg4 arg5 harg5 hc0 hc1 x0 x1).2.2.1, y ∈ pc.1.set :=
  View.cover_of_tiledL (kernelRun4_A c i arg1 harg1 arg2 harg2 arg3 harg3 arg4 harg4 arg5 harg5 hc0 hc1 x0 x1).2.2.1 S128x1.size (by sl_kernel_rfl) y

theorem canonA_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) :
    View.canon (kernelRun4_A c i arg1 harg1 arg2 harg2 arg3 harg3 arg4 harg4 arg5 harg5 hc0 hc1 x0 x1).2.2.1 = cntNext4 zcnt4 x1 := by
  unfold kernelRun4_A
  dsimp only
  sl_unfold_words
  rw [View.canon_cons_unit_zero (S := S128x1) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesA_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (f : arg5.view.ty.Contents (Elt F)) :
    arg5.view.read (Elt F) (arg5.view.writes (Elt F) f (kernelRun4_A c i arg1 harg1 arg2 harg2 arg3 harg3 arg4 harg4 arg5 harg5 hc0 hc1 x0 x1).2.2.1) = cntNext4 zcnt4 x1 :=
  (View.read_writes_eq_canon _ _ _ (coverA_1 c i arg1 harg1 arg2 harg2 arg3 harg3 arg4 harg4 arg5 harg5 hc0 hc1 x0 x1)).trans (canonA_1 c i arg1 harg1 arg2 harg2 arg3 harg3 arg4 harg4 arg5 harg5 hc0 hc1 x0 x1)

theorem coverB_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (y : S128x2.Idx) :
    ∃ pc ∈ (kernelRun4_B c i arg1 harg1 arg2 harg2 arg3 harg3 arg4 harg4 arg5 harg5 hc0 hc1 x0 x1 xs0 xs1).2.1, y ∈ pc.1.set :=
  View.cover_of_tiledL (kernelRun4_B c i arg1 harg1 arg2 harg2 arg3 harg3 arg4 harg4 arg5 harg5 hc0 hc1 x0 x1 xs0 xs1).2.1 S128x2.size (by sl_kernel_rfl) y

theorem canonB_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) :
    View.canon (kernelRun4_B c i arg1 harg1 arg2 harg2 arg3 harg3 arg4 harg4 arg5 harg5 hc0 hc1 x0 x1 xs0 xs1).2.1 = accNext4 xs0 x0 x1 := by
  unfold kernelRun4_B
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesB_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (f : arg4.view.ty.Contents (Elt F)) :
    arg4.view.read (Elt F) (arg4.view.writes (Elt F) f (kernelRun4_B c i arg1 harg1 arg2 harg2 arg3 harg3 arg4 harg4 arg5 harg5 hc0 hc1 x0 x1 xs0 xs1).2.1) = accNext4 xs0 x0 x1 :=
  (View.read_writes_eq_canon _ _ _ (coverB_0 c i arg1 harg1 arg2 harg2 arg3 harg3 arg4 harg4 arg5 harg5 hc0 hc1 x0 x1 xs0 xs1)).trans (canonB_0 c i arg1 harg1 arg2 harg2 arg3 harg3 arg4 harg4 arg5 harg5 hc0 hc1 x0 x1 xs0 xs1)

theorem coverB_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (y : S128x1.Idx) :
    ∃ pc ∈ (kernelRun4_B c i arg1 harg1 arg2 harg2 arg3 harg3 arg4 harg4 arg5 harg5 hc0 hc1 x0 x1 xs0 xs1).2.2.1, y ∈ pc.1.set :=
  View.cover_of_tiledL (kernelRun4_B c i arg1 harg1 arg2 harg2 arg3 harg3 arg4 harg4 arg5 harg5 hc0 hc1 x0 x1 xs0 xs1).2.2.1 S128x1.size (by sl_kernel_rfl) y

theorem canonB_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) :
    View.canon (kernelRun4_B c i arg1 harg1 arg2 harg2 arg3 harg3 arg4 harg4 arg5 harg5 hc0 hc1 x0 x1 xs0 xs1).2.2.1 = cntNext4 xs1 x1 := by
  unfold kernelRun4_B
  dsimp only
  sl_unfold_words
  rw [View.canon_cons_unit_zero (S := S128x1) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesB_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (f : arg5.view.ty.Contents (Elt F)) :
    arg5.view.read (Elt F) (arg5.view.writes (Elt F) f (kernelRun4_B c i arg1 harg1 arg2 harg2 arg3 harg3 arg4 harg4 arg5 harg5 hc0 hc1 x0 x1 xs0 xs1).2.2.1) = cntNext4 xs1 x1 :=
  (View.read_writes_eq_canon _ _ _ (coverB_1 c i arg1 harg1 arg2 harg2 arg3 harg3 arg4 harg4 arg5 harg5 hc0 hc1 x0 x1 xs0 xs1)).trans (canonB_1 c i arg1 harg1 arg2 harg2 arg3 harg3 arg4 harg4 arg5 harg5 hc0 hc1 x0 x1 xs0 xs1)

theorem coverC_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (y : S128x2.Idx) :
    ∃ pc ∈ (kernelRun4_C c i arg1 harg1 arg2 harg2 arg3 harg3 arg4 harg4 arg5 harg5 hc0 hc1 x0 x1 xs0 xs1).2.1, y ∈ pc.1.set :=
  View.cover_of_tiledL (kernelRun4_C c i arg1 harg1 arg2 harg2 arg3 harg3 arg4 harg4 arg5 harg5 hc0 hc1 x0 x1 xs0 xs1).2.1 S128x2.size (by sl_kernel_rfl) y

theorem canonC_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) :
    View.canon (kernelRun4_C c i arg1 harg1 arg2 harg2 arg3 harg3 arg4 harg4 arg5 harg5 hc0 hc1 x0 x1 xs0 xs1).2.1 = accNext4 xs0 x0 x1 := by
  unfold kernelRun4_C
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesC_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (f : arg4.view.ty.Contents (Elt F)) :
    arg4.view.read (Elt F) (arg4.view.writes (Elt F) f (kernelRun4_C c i arg1 harg1 arg2 harg2 arg3 harg3 arg4 harg4 arg5 harg5 hc0 hc1 x0 x1 xs0 xs1).2.1) = accNext4 xs0 x0 x1 :=
  (View.read_writes_eq_canon _ _ _ (coverC_0 c i arg1 harg1 arg2 harg2 arg3 harg3 arg4 harg4 arg5 harg5 hc0 hc1 x0 x1 xs0 xs1)).trans (canonC_0 c i arg1 harg1 arg2 harg2 arg3 harg3 arg4 harg4 arg5 harg5 hc0 hc1 x0 x1 xs0 xs1)

theorem coverC_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (y : S128x1.Idx) :
    ∃ pc ∈ (kernelRun4_C c i arg1 harg1 arg2 harg2 arg3 harg3 arg4 harg4 arg5 harg5 hc0 hc1 x0 x1 xs0 xs1).2.2.1, y ∈ pc.1.set :=
  View.cover_of_tiledL (kernelRun4_C c i arg1 harg1 arg2 harg2 arg3 harg3 arg4 harg4 arg5 harg5 hc0 hc1 x0 x1 xs0 xs1).2.2.1 S128x1.size (by sl_kernel_rfl) y

theorem canonC_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) :
    View.canon (kernelRun4_C c i arg1 harg1 arg2 harg2 arg3 harg3 arg4 harg4 arg5 harg5 hc0 hc1 x0 x1 xs0 xs1).2.2.1 = cntNext4 xs1 x1 := by
  unfold kernelRun4_C
  dsimp only
  sl_unfold_words
  rw [View.canon_cons_unit_zero (S := S128x1) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesC_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (f : arg5.view.ty.Contents (Elt F)) :
    arg5.view.read (Elt F) (arg5.view.writes (Elt F) f (kernelRun4_C c i arg1 harg1 arg2 harg2 arg3 harg3 arg4 harg4 arg5 harg5 hc0 hc1 x0 x1 xs0 xs1).2.2.1) = cntNext4 xs1 x1 :=
  (View.read_writes_eq_canon _ _ _ (coverC_1 c i arg1 harg1 arg2 harg2 arg3 harg3 arg4 harg4 arg5 harg5 hc0 hc1 x0 x1 xs0 xs1)).trans (canonC_1 c i arg1 harg1 arg2 harg2 arg3 harg3 arg4 harg4 arg5 harg5 hc0 hc1 x0 x1 xs0 xs1)

theorem coverC_2 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (y : S128x2.Idx) :
    ∃ pc ∈ (kernelRun4_C c i arg1 harg1 arg2 harg2 arg3 harg3 arg4 harg4 arg5 harg5 hc0 hc1 x0 x1 xs0 xs1).1, y ∈ pc.1.set :=
  View.cover_of_tiledL (kernelRun4_C c i arg1 harg1 arg2 harg2 arg3 harg3 arg4 harg4 arg5 harg5 hc0 hc1 x0 x1 xs0 xs1).1 S128x2.size (by sl_kernel_rfl) y

theorem canonC_2 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) :
    View.canon (kernelRun4_C c i arg1 harg1 arg2 harg2 arg3 harg3 arg4 harg4 arg5 harg5 hc0 hc1 x0 x1 xs0 xs1).1 = fin4 (accNext4 xs0 x0 x1) (cntNext4 xs1 x1) := by
  unfold kernelRun4_C
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesC_2 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (f : arg3.view.ty.Contents (Elt F)) :
    arg3.view.read (Elt F) (arg3.view.writes (Elt F) f (kernelRun4_C c i arg1 harg1 arg2 harg2 arg3 harg3 arg4 harg4 arg5 harg5 hc0 hc1 x0 x1 xs0 xs1).1) = fin4 (accNext4 xs0 x0 x1) (cntNext4 xs1 x1) :=
  (View.read_writes_eq_canon _ _ _ (coverC_2 c i arg1 harg1 arg2 harg2 arg3 harg3 arg4 harg4 arg5 harg5 hc0 hc1 x0 x1 xs0 xs1)).trans (canonC_2 c i arg1 harg1 arg2 harg2 arg3 harg3 arg4 harg4 arg5 harg5 hc0 hc1 x0 x1 xs0 xs1)

/-! ## The proof data at a valuation `V` of the core's buffers on entry -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- THE ACCUMULATION: what the two accumulators hold after the body at point `n` — zeros updated by the first
    point's blocks, then each point's update of what the point before left. -/
def scAt4 (c : Dev nD) : (n : ℕ) → n < cfg4.N → Vec F S128x2 .f32 × Vec F S128x1 .f32
  | 0, h => (accNext4 zacc4 (iblk4 V c 0 ⟨0, h⟩) (iblk4 V c 1 ⟨0, h⟩), cntNext4 zcnt4 (iblk4 V c 1 ⟨0, h⟩))
  | n + 1, h => (accNext4 (scAt4 c n (Nat.lt_of_succ_lt h)).1 (iblk4 V c 0 ⟨n + 1, h⟩) (iblk4 V c 1 ⟨n + 1, h⟩),
      cntNext4 (scAt4 c n (Nat.lt_of_succ_lt h)).2 (iblk4 V c 1 ⟨n + 1, h⟩))

theorem scAt4_zero (c : Dev nD) (h : 0 < cfg4.N) :
    scAt4 V c 0 h = (accNext4 zacc4 (iblk4 V c 0 ⟨0, h⟩) (iblk4 V c 1 ⟨0, h⟩), cntNext4 zcnt4 (iblk4 V c 1 ⟨0, h⟩)) := rfl

theorem scAt4_succ (c : Dev nD) (n : ℕ) (h : n + 1 < cfg4.N) :
    scAt4 V c (n + 1) h = (accNext4 (scAt4 V c n (Nat.lt_of_succ_lt h)).1 (iblk4 V c 0 ⟨n + 1, h⟩) (iblk4 V c 1 ⟨n + 1, h⟩),
      cntNext4 (scAt4 V c n (Nat.lt_of_succ_lt h)).2 (iblk4 V c 1 ⟨n + 1, h⟩)) := rfl

/-- At the first point, stated at a point of the grid. -/
theorem scAt4_first (c : Dev nD) (t : Fin cfg4.N) (hz : t.val = 0) :
    scAt4 V c t.val t.isLt = (accNext4 zacc4 (iblk4 V c 0 t) (iblk4 V c 1 t), cntNext4 zcnt4 (iblk4 V c 1 t)) := by
  obtain ⟨n, hn⟩ := t
  cases n with
  | zero => rfl
  | succ n => exact absurd hz (Nat.succ_ne_zero n)

/-- At a later point: the update of what the point before left. -/
theorem scAt4_later (c : Dev nD) (t : Fin cfg4.N) (hz : t.val ≠ 0) :
    scAt4 V c t.val t.isLt
      = (accNext4 (scAt4 V c (t.val - 1) (Nat.lt_of_le_of_lt (Nat.sub_le _ _) t.isLt)).1 (iblk4 V c 0 t) (iblk4 V c 1 t),
         cntNext4 (scAt4 V c (t.val - 1) (Nat.lt_of_le_of_lt (Nat.sub_le _ _) t.isLt)).2 (iblk4 V c 1 t)) := by
  obtain ⟨n, hn⟩ := t
  cases n with
  | zero => exact absurd rfl hz
  | succ n => rfl

/-- The region invariant before position `n`: before the first point what the launch hands the region (every scoped
    buffer that is no staging buffer at anything, the generator register at some state); afterwards the same with the
    two accumulators named — at what the point before left in them. -/
def PhiS4 (c : Dev nD) : (n : ℕ) → n ≤ cfg4.N → sProp 𝕄
  | 0, _ => Pipeline.ΦA spec4 c
  | n + 1, hn => iprop(iprop(iprop(owns (c : Thread nD τ) scM4_0 fullShare (scAt4 V c n hn).1 ∗ owns (c : Thread nD τ) scM4_1 fullShare (scAt4 V c n hn).2)
        ∗ Pipeline.scopedRestBut (Ix := Unit) (Name := ℕ) (U := UR sig nD τ) (Lvl := ℕ) (Val := Elt F) spec4 c [cc4_scratch0, cc4_scratch1])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (scAt4 V c n hn).1 ∗ owns (c : Thread nD τ) scM4_1 fullShare (scAt4 V c n hn).2)
        ∗ Pipeline.scopedRestBut (Ix := Unit) (Name := ℕ) (U := UR sig nD τ) (Lvl := ℕ) (Val := Elt F) spec4 c [cc4_scratch0, cc4_scratch1])
      ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (scAt4 V c (n - 1) (by omega)).1 ∗ owns (c : Thread nD τ) scM4_1 fullShare (scAt4 V c (n - 1) (by omega)).2)
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- The proof data of the readout's pipeline on core `c`: the arrays as the region finds them; after the body at
    point `t` each input's buffer at its block and the output's at the quotient of the accumulators as they then
    stand (consulted only at the last point, where the window is live); the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => fin4 (scAt4 V c t.val t.isLt).1 (scAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = fin4 (scAt4 V c t.val t.isLt).1 (scAt4 V c t.val t.isLt).2 := by dsimp only [dat4]

/-- Each input's current staging buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' buffers hold their blocks. At the first point the invariant hands over the
    accumulators at anything and the first case's run applies; at a later point it hands them over at what the point
    before left, and the middle case's run applies, or at the last point the last case's, which also fills the output
    buffer. Either way the accumulators come back holding this point's update, which is the invariant at the next
    position; away from the last point the output buffer is handed back as it was found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases hz : t.val = 0
  · -- the first point
    have h0 : cond4_0 (grid4.coords t) := (hcond4_0 t).mpr hz
    have h1 : ¬cond4_1 (grid4.coords t) := fun h => by have := (hcond4_1 t).mp h; omega
    rw [Dat.leavesExact_idle (dat4 V c) 2 t (idleAt4_2 t h1) (noFlush4_2 t h1)]
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩⟩
    iapply ((kernelRun4_A c (grid4.coords t) _ _ _ _ _ _ _ _ _ _ h0 h1 (iblk4 V c 0 t) (iblk4 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; rw [scAt4_first V c t hz]; exact leavesA_0 c (grid4.coords t) _ _ _ _ _ _ _ _ _ _ h0 h1 (iblk4 V c 0 t) (iblk4 V c 1 t) es0
          · unfold owns; iexists _; isplitr
            swap; · iexact HS1
            ipureintro; rw [scAt4_first V c t hz]; exact leavesA_1 c (grid4.coords t) _ _ _ _ _ _ _ _ _ _ h0 h1 (iblk4 V c 0 t) (iblk4 V c 1 t) es1
        iexact HR
      iexact Hg
    isplitl [Ho]; · iexact Ho
    isplitl [H0]; · iexact H0
    isplitl [H1]; · iexact H1
    iexists _; iexact H2
  · have h0 : ¬cond4_0 (grid4.coords t) := fun h => hz ((hcond4_0 t).mp h)
    rw [PhiS4_castSucc V c t, PhiS4_pos V c _ _ hz]
    by_cases h9 : t.val = 9
    · -- the last point
      have h1 : cond4_1 (grid4.coords t) := (hcond4_1 t).mpr h9
      rw [show (dat4 V c).leavesExact 2 t = owns (c : Thread nD τ) (ms4_2 t) fullShare ((dat4 V c).after 2 t) from by
        unfold Dat.leavesExact; rw [liveAt4_2 t h1], after4_2]
      iintro ⟨⟨⟨⟨HS0, HS1⟩, HR⟩, Hg⟩, Ho, ⟨%d0, H0⟩, ⟨%d1, H1⟩, ⟨%d2, H2⟩⟩
      iapply ((kernelRun4_C c (grid4.coords t) _ _ _ _ _ _ _ _ _ _ h0 h1 (iblk4 V c 0 t) (iblk4 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [scAt4_later V c t hz]; exact leavesC_0 c (grid4.coords t) _ _ _ _ _ _ _ _ _ _ h0 h1 (iblk4 V c 0 t) (iblk4 V c 1 t) _ _ es0
            · unfold owns; iexists _; isplitr
              swap; · iexact HS1
              ipureintro; rw [scAt4_later V c t hz]; exact leavesC_1 c (grid4.coords t) _ _ _ _ _ _ _ _ _ _ h0 h1 (iblk4 V c 0 t) (iblk4 V c 1 t) _ _ es1
          iexact HR
        iexact Hg
      isplitl [Ho]; · iexact Ho
      isplitl [H0]; · iexact H0
      isplitl [H1]; · iexact H1
      unfold owns; iexists _; isplitr
      swap; · iexact H2
      ipureintro; rw [scAt4_later V c t hz]; exact leavesC_2 c (grid4.coords t) _ _ _ _ _ _ _ _ _ _ h0 h1 (iblk4 V c 0 t) (iblk4 V c 1 t) _ _ e2
    · -- a point between
      have h1 : ¬cond4_1 (grid4.coords t) := fun h => h9 ((hcond4_1 t).mp h)
      rw [Dat.leavesExact_idle (dat4 V c) 2 t (idleAt4_2 t h1) (noFlush4_2 t h1)]
      iintro ⟨⟨⟨⟨HS0, HS1⟩, HR⟩, Hg⟩, Ho, ⟨%d0, H0⟩, ⟨%d1, H1⟩, ⟨%d2, H2⟩⟩
      iapply ((kernelRun4_B c (grid4.coords t) _ _ _ _ _ _ _ _ _ _ h0 h1 (iblk4 V c 0 t) (iblk4 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [scAt4_later V c t hz]; exact leavesB_0 c (grid4.coords t) _ _ _ _ _ _ _ _ _ _ h0 h1 (iblk4 V c 0 t) (iblk4 V c 1 t) _ _ es0
            · unfold owns; iexists _; isplitr
              swap; · iexact HS1
              ipureintro; rw [scAt4_later V c t hz]; exact leavesB_1 c (grid4.coords t) _ _ _ _ _ _ _ _ _ _ h0 h1 (iblk4 V c 0 t) (iblk4 V c 1 t) _ _ es1
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the entry form back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- In particular after the last point. -/
theorem hout4 (c : Dev nD) : (dat4 V c).Φ (Fin.last cfg4.N) ⊢ Pipeline.ΦA spec4 c :=
  Phi_out4 V c _ (by rw [Fin.val_last]; have : cfg4.N = 10 := N_4; omega)

end Cert.Kernel.Fr

end
-- ==== Proof.K.Run.lean ====
/- The run of the whole program: nine items (four stretches of host operations, five kernel regions). The buffers'
   contents at each boundary are a fold from the launch memory: a host stretch applies its operations, a region leaves
   its arrays at what its write-backs fold to and every other buffer as it found it. Each item is a segment over the
   thread state "every unscoped buffer whole at the boundary's contents, the random-number register at some state, nothing
   owed"; the launch theorem for segment lists then gives: every weakly fair execution terminates, without a fault,
   with every unscoped buffer at the last boundary's contents. -/
import proofs.«422203_j1219770712268_1_alg».proof.Proof.Gen.Kernel.Launch
import proofs.«422203_j1219770712268_1_alg».proof.Proof.Gen.Kernel.Skeleton
import proofs.«422203_j1219770712268_1_alg».proof.Proof.Gen.Kernel.Points
import proofs.«422203_j1219770712268_1_alg».proof.Proof.K.RegA0
import proofs.«422203_j1219770712268_1_alg».proof.Proof.K.RegA1
import proofs.«422203_j1219770712268_1_alg».proof.Proof.K.RegA2
import proofs.«422203_j1219770712268_1_alg».proof.Proof.K.RegA3
import proofs.«422203_j1219770712268_1_alg».proof.Proof.K.RegR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)

/-- The buffers after the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The buffers when region 0 returns: its arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The buffers after the host stretch hostOps1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The buffers when region 1 returns: its arrays at what the pipeline's write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The buffers after the host stretch hostOps2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- The buffers when region 2 returns: its arrays at what the pipeline's write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- The buffers after the host stretch hostOps3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- The buffers when region 3 returns: its arrays at what the pipeline's write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- The buffers when region 4 returns: its arrays at what the pipeline's write-backs leave, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the random-number register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- The last thread state without the dues: every unscoped buffer at the last boundary's contents, the random-number register at some state. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered with every unscoped buffer at W1, left with them at W2; its arrays are split
    out of the unscoped buffers and put back at the exit contents; the random-number register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W3, left with them at W4; its arrays are split
    out of the unscoped buffers and put back at the exit contents; the random-number register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W5, left with them at W6; its arrays are split
    out of the unscoped buffers and put back at the exit contents; the random-number register goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W7, left with them at W8; its arrays are split
    out of the unscoped buffers and put back at the exit contents; the random-number register goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the pooling kernel), the last item: entered with the buffers at W8, left at W9. Its invariant carries the two
    scratch accumulators; at the region's two ends it is the plain one (hin4, hout4). -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec4 c).trans (show Pipeline.ΦA spec4 c ⊢ (pdats m 4 c).Φ 0 from hin4 (V8 m) c)
    unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (V8 m) c).trans (?_ : Pipeline.ΦA spec4 c ⊢ _)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The nine items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .region (reg4 m) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, with
    every unscoped buffer of every core at the last boundary's contents W9. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Fr

end
-- ==== Proof.K.Frame.lean ====
/- What the run leaves untouched, and the frame claim. A host stretch changes only the buffers its operations write; a
   region changes only its output array (an input window's array is read, never written back). So a buffer that no
   stretch writes and that is no region's output holds its launch contents at the end: the nine arguments do. -/
import proofs.«422203_j1219770712268_1_alg».proof.Proof.K.Run
import proofs.«422203_j1219770712268_1_alg».proof.Proof.Gen.Kernel.Regions

set_option maxRecDepth 16384

noncomputable section

namespace Cert.Kernel.Fr

open Idealize.ShloMosaic Idealize.ShloMosaic.TcCoe
open Idealize.SL Idealize.SL.Sem
open Idealize.ShloMosaic.Pipeline (Dat)
open Cert.Kernel

variable {F : FTy → Type} [FloatOps F]
variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The host stretches -/

theorem keepH0 (c : Dev nD) (b : Ref sig .tc) (hb : b ∉ Gen.hostOps0_W) : W1 m c (Proc.devRef .tc b) = W0 m c (Proc.devRef .tc b) :=
  StableHlo.after_of_writes_sub Gen.hostOps0 _ Gen.hostOps0_writes hb
theorem keepH1 (c : Dev nD) (b : Ref sig .tc) (hb : b ∉ Gen.hostOps1_W) : W3 m c (Proc.devRef .tc b) = W2 m c (Proc.devRef .tc b) :=
  StableHlo.after_of_writes_sub Gen.hostOps1 _ Gen.hostOps1_writes hb
theorem keepH2 (c : Dev nD) (b : Ref sig .tc) (hb : b ∉ Gen.hostOps2_W) : W5 m c (Proc.devRef .tc b) = W4 m c (Proc.devRef .tc b) :=
  StableHlo.after_of_writes_sub Gen.hostOps2 _ Gen.hostOps2_writes hb
theorem keepH3 (c : Dev nD) (b : Ref sig .tc) (hb : b ∉ Gen.hostOps3_W) : W7 m c (Proc.devRef .tc b) = W6 m c (Proc.devRef .tc b) :=
  StableHlo.after_of_writes_sub Gen.hostOps3 _ Gen.hostOps3_writes hb

/-! ## The regions: every window but the last is an input -/

theorem isIn0 : ∀ w : Fin cfg0.W, w ≠ 6 → (cfg0.win w).isOut = false := by decide
theorem isIn1 : ∀ w : Fin cfg1.W, w ≠ 6 → (cfg1.win w).isOut = false := by decide
theorem isIn2 : ∀ w : Fin cfg2.W, w ≠ 6 → (cfg2.win w).isOut = false := by decide
theorem isIn3 : ∀ w : Fin cfg3.W, w ≠ 6 → (cfg3.win w).isOut = false := by decide
theorem isIn4 : ∀ w : Fin cfg4.W, w ≠ 2 → (cfg4.win w).isOut = false := by decide

theorem keepR0 (c : Dev nD) (b : Ref sig .tc) (hb : b ≠ main_v27) : W2 m c (Proc.devRef .tc b) = W1 m c (Proc.devRef .tc b) := by
  by_cases h : ∃ w, Pipeline.arrRef spec0 w = b
  · obtain ⟨w, rfl⟩ := h
    have hw : w ≠ 6 := fun e => hb (by subst e; rfl)
    rw [W2_arr]
    exact ((dat0 (V1 m) c).arrAt_in w (isIn0 w hw) _).trans (A_eq0 (V1 m) c w)
  · exact W2_of_ne m c b fun w e => h ⟨w, e⟩
theorem keepR1 (c : Dev nD) (b : Ref sig .tc) (hb : b ≠ main_v45) : W4 m c (Proc.devRef .tc b) = W3 m c (Proc.devRef .tc b) := by
  by_cases h : ∃ w, Pipeline.arrRef spec1 w = b
  · obtain ⟨w, rfl⟩ := h
    have hw : w ≠ 6 := fun e => hb (by subst e; rfl)
    rw [W4_arr]
    exact ((dat1 (V3 m) c).arrAt_in w (isIn1 w hw) _).trans (A_eq1 (V3 m) c w)
  · exact W4_of_ne m c b fun w e => h ⟨w, e⟩
theorem keepR2 (c : Dev nD) (b : Ref sig .tc) (hb : b ≠ main_v63) : W6 m c (Proc.devRef .tc b) = W5 m c (Proc.devRef .tc b) := by
  by_cases h : ∃ w, Pipeline.arrRef spec2 w = b
  · obtain ⟨w, rfl⟩ := h
    have hw : w ≠ 6 := fun e => hb (by subst e; rfl)
    rw [W6_arr]
    exact ((dat2 (V5 m) c).arrAt_in w (isIn2 w hw) _).trans (A_eq2 (V5 m) c w)
  · exact W6_of_ne m c b fun w e => h ⟨w, e⟩
theorem keepR3 (c : Dev nD) (b : Ref sig .tc) (hb : b ≠ main_v75) : W8 m c (Proc.devRef .tc b) = W7 m c (Proc.devRef .tc b) := by
  by_cases h : ∃ w, Pipeline.arrRef spec3 w = b
  · obtain ⟨w, rfl⟩ := h
    have hw : w ≠ 6 := fun e => hb (by subst e; rfl)
    rw [W8_arr]
    exact ((dat3 (V7 m) c).arrAt_in w (isIn3 w hw) _).trans (A_eq3 (V7 m) c w)
  · exact W8_of_ne m c b fun w e => h ⟨w, e⟩
theorem keepR4 (c : Dev nD) (b : Ref sig .tc) (hb : b ≠ main_v76) : W9 m c (Proc.devRef .tc b) = W8 m c (Proc.devRef .tc b) := by
  by_cases h : ∃ w, Pipeline.arrRef spec4 w = b
  · obtain ⟨w, rfl⟩ := h
    have hw : w ≠ 2 := fun e => hb (by subst e; rfl)
    rw [W9_arr]
    exact ((dat4 (V8 m) c).arrAt_in w (isIn4 w hw) _).trans (A_eq4 (V8 m) c w)
  · exact W9_of_ne m c b fun w e => h ⟨w, e⟩

/-- A buffer no stretch writes and no region puts out ends at its launch contents. -/
theorem keep_all (c : Dev nD) (b : Ref sig .tc) (h0 : b ∉ Gen.hostOps0_W) (h1 : b ∉ Gen.hostOps1_W) (h2 : b ∉ Gen.hostOps2_W)
    (h3 : b ∉ Gen.hostOps3_W) (r0 : b ≠ main_v27) (r1 : b ≠ main_v45) (r2 : b ≠ main_v63) (r3 : b ≠ main_v75) (r4 : b ≠ main_v76) :
    W9 m c (Proc.devRef .tc b) = m ((c : Thread nD τ).loc b) :=
  (keepR4 m c b r4).trans <| (keepR3 m c b r3).trans <| (keepH3 m c b h3).trans <| (keepR2 m c b r2).trans <| (keepH2 m c b h2).trans <|
    (keepR1 m c b r1).trans <| (keepH1 m c b h1).trans <| (keepR0 m c b r0).trans <| (keepH0 m c b h0).trans rfl

/-- THE FRAME: every weakly fair execution terminates, nothing faulting, with the nine argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (keep_all m c main_arg0 (by decide) (by decide) (by decide) (by decide) (by decide) (by decide) (by decide) (by decide) (by decide)),
     (h c _ (mem_uc main_arg1 (by decide))).trans (keep_all m c main_arg1 (by decide) (by decide) (by decide) (by decide) (by decide) (by decide) (by decide) (by decide) (by decide)),
     (h c _ (mem_uc main_arg2 (by decide))).trans (keep_all m c main_arg2 (by decide) (by decide) (by decide) (by decide) (by decide) (by decide) (by decide) (by decide) (by decide)),
     (h c _ (mem_uc main_arg3 (by decide))).trans (keep_all m c main_arg3 (by decide) (by decide) (by decide) (by decide) (by decide) (by decide) (by decide) (by decide) (by decide)),
     (h c _ (mem_uc main_arg4 (by decide))).trans (keep_all m c main_arg4 (by decide) (by decide) (by decide) (by decide) (by decide) (by decide) (by decide) (by decide) (by decide)),
     (h c _ (mem_uc main_arg5 (by decide))).trans (keep_all m c main_arg5 (by decide) (by decide) (by decide) (by decide) (by decide) (by decide) (by decide) (by decide) (by decide)),
     (h c _ (mem_uc main_arg6 (by decide))).trans (keep_all m c main_arg6 (by decide) (by decide) (by decide) (by decide) (by decide) (by decide) (by decide) (by decide) (by decide)),
     (h c _ (mem_uc main_arg7 (by decide))).trans (keep_all m c main_arg7 (by decide) (by decide) (by decide) (by decide) (by decide) (by decide) (by decide) (by decide) (by decide)),
     (h c _ (mem_uc main_arg8 (by decide))).trans (keep_all m c main_arg8 (by decide) (by decide) (by decide) (by decide) (by decide) (by decide) (by decide) (by decide) (by decide))⟩)
    (run_all m ρ)

end Cert.Kernel.Fr

end
-- ==== Proof.KI.RegA0.lean ====
/-
  REGION 0 of @main (custom_call 0, `cc0__transform_kernel`, pipeline 0), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out0_6`), and what it finds in an input buffer is that
  window's block at the point, whether or not the pipeline fetched it there: the three windows with a constant index
  map (the weights and the bias) are fetched at the first point only, and their block index never moves after it.
  From these: the pipeline's proof data (`dat0`) and the body obligation at every point (`body_obligation0`).
-/
import proofs.«422203_j1219770712268_1_alg».proof.Proof.Gen.KernelIdeal.Launch
import proofs.«422203_j1219770712268_1_alg».proof.Proof.Gen.KernelIdeal.Skeleton
import proofs.«422203_j1219770712268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S64x64
local notation "𝕊b" => S1x64
local notation "𝕊o" => S2000x64

-- the TensorCore's buffer contents when the region is entered
variable (V : (c : Dev nD) → (b : Ref sig .tc) → Buf (Elt F) ((c : Thread nD τ).loc b))

/-! # REGION 0 of @main: custom_call 0, `cc0__transform_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is `V`'s
    (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same of input window 1, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- of input window 2, -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- and of input windows 3, 4, 5, whose index map is constant: fetched at the first point only, the buffer holds that
    block at every later point, and it is every point's block (unfetched, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_n : Rect 𝕊n := Rect.unit (s := 𝕊n) ![0, 0] (𝕊n).size inb_S2000x64_S2000x64_0_0
abbrev r0_c : Rect 𝕊c := Rect.unit (s := 𝕊c) ![0, 0] (𝕊c).size inb_S2000x1_S2000x1_0_0
abbrev r0_w : Rect 𝕊w := Rect.unit (s := 𝕊w) ![0, 0] (𝕊w).size inb_S64x64_S64x64_0_0
abbrev r0_b : Rect 𝕊b := Rect.unit (s := 𝕊b) ![0, 0] (𝕊b).size inb_S1x64_S1x64_0_0
abbrev r0_o : Rect 𝕊o := Rect.unit (s := 𝕊o) ![0, 0] (𝕊o).size inb_S2000x64_S2000x64_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out0_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r0_o, k0_pay1 (View.ld x0 r0_n) (View.ld x2 r0_c) (View.ld x3 r0_w) (View.ld x1 r0_n) (View.ld x4 r0_w) (View.ld x5 r0_b)⟩]

/-- The one store is of the whole buffer, so it covers it. -/
theorem cover0_6 (p0 : Vec F 𝕊o .f32) (y : (𝕊o).Idx) :
    ∃ pc ∈ ([⟨r0_o, p0⟩] : List (View.Piece (Elt F) 𝕊o .f32)), y ∈ pc.1.set :=
  View.cover_of_tiled [⟨r0_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out0_6` of the inputs'. (The body
    also loads the output buffer before the store; nothing reads that value.) -/
theorem sound_kernel0 (c : Dev nD) (E : Set ℕ) (i : grid0.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__transform_kernel i arg1 harg1 arg2 harg2 arg3 harg3 arg4 harg4 arg5 harg5 arg6 harg6 arg7 harg7) K := by
  simp only [cc0__transform_kernel_eq_skeleton]; unfold cc0__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the six input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.RegA1.lean ====
/-
  REGION 1 of @main (custom_call 1, `cc1__transform_kernel`, pipeline 1), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out1_6`), and what it finds in an input buffer is that
  window's block at the point, whether or not the pipeline fetched it there: the three windows with a constant index
  map (the weights and the bias) are fetched at the first point only, and their block index never moves after it.
  From these: the pipeline's proof data (`dat1`) and the body obligation at every point (`body_obligation1`).
-/
import proofs.«422203_j1219770712268_1_alg».proof.Proof.Gen.KernelIdeal.Launch
import proofs.«422203_j1219770712268_1_alg».proof.Proof.Gen.KernelIdeal.Skeleton
import proofs.«422203_j1219770712268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S64x64
local notation "𝕊b" => S1x64
local notation "𝕊o" => S2000x64

-- the TensorCore's buffer contents when the region is entered
variable (V : (c : Dev nD) → (b : Ref sig .tc) → Buf (Elt F) ((c : Thread nD τ).loc b))

/-! # REGION 1 of @main: custom_call 1, `cc1__transform_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is `V`'s
    (`hA`) and whose body leaves the block in place (`hafter`); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- of input window 2, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- and of input windows 3, 4, 5, whose index map is constant: fetched at the first point only, the buffer holds that
    block at every later point, and it is every point's block (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_n : Rect 𝕊n := Rect.unit (s := 𝕊n) ![0, 0] (𝕊n).size inb_S2000x64_S2000x64_0_0
abbrev r1_c : Rect 𝕊c := Rect.unit (s := 𝕊c) ![0, 0] (𝕊c).size inb_S2000x1_S2000x1_0_0
abbrev r1_w : Rect 𝕊w := Rect.unit (s := 𝕊w) ![0, 0] (𝕊w).size inb_S64x64_S64x64_0_0
abbrev r1_b : Rect 𝕊b := Rect.unit (s := 𝕊b) ![0, 0] (𝕊b).size inb_S1x64_S1x64_0_0
abbrev r1_o : Rect 𝕊o := Rect.unit (s := 𝕊o) ![0, 0] (𝕊o).size inb_S2000x64_S2000x64_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out1_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r1_o, k1_pay1 (View.ld x0 r1_n) (View.ld x2 r1_c) (View.ld x3 r1_w) (View.ld x1 r1_n) (View.ld x4 r1_w) (View.ld x5 r1_b)⟩]

/-- The one store is of the whole buffer, so it covers it. -/
theorem cover1_6 (p0 : Vec F 𝕊o .f32) (y : (𝕊o).Idx) :
    ∃ pc ∈ ([⟨r1_o, p0⟩] : List (View.Piece (Elt F) 𝕊o .f32)), y ∈ pc.1.set :=
  View.cover_of_tiled [⟨r1_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out1_6` of the inputs'. (The body
    also loads the output buffer before the store; nothing reads that value.) -/
theorem sound_kernel1 (c : Dev nD) (E : Set ℕ) (i : grid1.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__transform_kernel i arg1 harg1 arg2 harg2 arg3 harg3 arg4 harg4 arg5 harg5 arg6 harg6 arg7 harg7) K := by
  simp only [cc1__transform_kernel_eq_skeleton]; unfold cc1__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.RegA2.lean ====
/-
  REGION 2 of @main (custom_call 2, `cc2__transform_kernel`, pipeline 2), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out2_6`), and what it finds in an input buffer is that
  window's block at the point, whether or not the pipeline fetched it there: the three windows with a constant index
  map (the weights and the bias) are fetched at the first point only, and their block index never moves after it.
  From these: the pipeline's proof data (`dat2`) and the body obligation at every point (`body_obligation2`).
-/
import proofs.«422203_j1219770712268_1_alg».proof.Proof.Gen.KernelIdeal.Launch
import proofs.«422203_j1219770712268_1_alg».proof.Proof.Gen.KernelIdeal.Skeleton
import proofs.«422203_j1219770712268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S64x64
local notation "𝕊b" => S1x64
local notation "𝕊o" => S2000x64

-- the TensorCore's buffer contents when the region is entered
variable (V : (c : Dev nD) → (b : Ref sig .tc) → Buf (Elt F) ((c : Thread nD τ).loc b))

/-! # REGION 2 of @main: custom_call 2, `cc2__transform_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for ANY proof data whose array is `V`'s
    (`hA`) and whose body leaves the block in place (`hafter`); the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- of input window 2, -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- and of input windows 3, 4, 5, whose index map is constant: fetched at the first point only, the buffer holds that
    block at every later point, and it is every point's block (unfetched, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_n : Rect 𝕊n := Rect.unit (s := 𝕊n) ![0, 0] (𝕊n).size inb_S2000x64_S2000x64_0_0
abbrev r2_c : Rect 𝕊c := Rect.unit (s := 𝕊c) ![0, 0] (𝕊c).size inb_S2000x1_S2000x1_0_0
abbrev r2_w : Rect 𝕊w := Rect.unit (s := 𝕊w) ![0, 0] (𝕊w).size inb_S64x64_S64x64_0_0
abbrev r2_b : Rect 𝕊b := Rect.unit (s := 𝕊b) ![0, 0] (𝕊b).size inb_S1x64_S1x64_0_0
abbrev r2_o : Rect 𝕊o := Rect.unit (s := 𝕊o) ![0, 0] (𝕊o).size inb_S2000x64_S2000x64_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out2_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r2_o, k2_pay1 (View.ld x0 r2_n) (View.ld x2 r2_c) (View.ld x3 r2_w) (View.ld x1 r2_n) (View.ld x4 r2_w) (View.ld x5 r2_b)⟩]

/-- The one store is of the whole buffer, so it covers it. -/
theorem cover2_6 (p0 : Vec F 𝕊o .f32) (y : (𝕊o).Idx) :
    ∃ pc ∈ ([⟨r2_o, p0⟩] : List (View.Piece (Elt F) 𝕊o .f32)), y ∈ pc.1.set :=
  View.cover_of_tiled [⟨r2_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out2_6` of the inputs'. (The body
    also loads the output buffer before the store; nothing reads that value.) -/
theorem sound_kernel2 (c : Dev nD) (E : Set ℕ) (i : grid2.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__transform_kernel i arg1 harg1 arg2 harg2 arg3 harg3 arg4 harg4 arg5 harg5 arg6 harg6 arg7 harg7) K := by
  simp only [cc2__transform_kernel_eq_skeleton]; unfold cc2__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the six input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.RegA3.lean ====
/-
  REGION 3 of @main (custom_call 3, `cc3__transform_kernel`, pipeline 3), the body half, stated at a PARAMETER `V`:
  the TensorCore's buffer contents when the region is entered.

  The body loads its six input windows' staging buffers whole (the aggregated-feature block, the own-feature block,
  the neighbour-count block, the two weight matrices, the bias row), computes one payload from the six loads, and
  stores it over the whole of the output window's staging buffer. So what the body leaves in the output buffer is a
  closed function of the six input blocks at the point (`out3_6`), and what it finds in an input buffer is that
  window's block at the point, whether or not the pipeline fetched it there: the three windows with a constant index
  map (the weights and the bias) are fetched at the first point only, and their block index never moves after it.
  From these: the pipeline's proof data (`dat3`) and the body obligation at every point (`body_obligation3`).
-/
import proofs.«422203_j1219770712268_1_alg».proof.Proof.Gen.KernelIdeal.Launch
import proofs.«422203_j1219770712268_1_alg».proof.Proof.Gen.KernelIdeal.Skeleton
import proofs.«422203_j1219770712268_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The block shapes of the region's windows: the two node-feature blocks (windows 0, 1), the count block (window 2),
-- the two weight matrices (windows 3, 4), the bias row (window 5), the output block (window 6).
local notation "𝕊n" => S2000x64
local notation "𝕊c" => S2000x1
local notation "𝕊w" => S2x64
local notation "𝕊b" => S1x2
local notation "𝕊o" => S2000x2

-- the TensorCore's buffer contents when the region is entered
variable (V : (c : Dev nD) → (b : Ref sig .tc) → Buf (Elt F) ((c : Thread nD τ).loc b))

/-! # REGION 3 of @main: custom_call 3, `cc3__transform_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for ANY proof data whose array is `V`'s
    (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same of input window 1, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- of input window 2, -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- and of input windows 3, 4, 5, whose index map is constant: fetched at the first point only, the buffer holds that
    block at every later point, and it is every point's block (unfetched, the block index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_n : Rect 𝕊n := Rect.unit (s := 𝕊n) ![0, 0] (𝕊n).size inb_S2000x64_S2000x64_0_0
abbrev r3_c : Rect 𝕊c := Rect.unit (s := 𝕊c) ![0, 0] (𝕊c).size inb_S2000x1_S2000x1_0_0
abbrev r3_w : Rect 𝕊w := Rect.unit (s := 𝕊w) ![0, 0] (𝕊w).size inb_S2x64_S2x64_0_0
abbrev r3_b : Rect 𝕊b := Rect.unit (s := 𝕊b) ![0, 0] (𝕊b).size inb_S1x2_S1x2_0_0
abbrev r3_o : Rect 𝕊o := Rect.unit (s := 𝕊o) ![0, 0] (𝕊o).size inb_S2000x2_S2000x2_0_0

/-! ## What the body leaves in the output window's buffer -/

/-- Window 6's staging buffer after the body, from the six input windows' blocks (`x0` … `x5`, in window order): its
    one store, of the payload of the six loads, over the whole buffer. The payload takes the loads in the order the
    body makes them: window 0, window 2, window 3, window 1, window 4, window 5. -/
def out3_6 (x0 : Vec F 𝕊n .f32) (x1 : Vec F 𝕊n .f32) (x2 : Vec F 𝕊c .f32) (x3 : Vec F 𝕊w .f32) (x4 : Vec F 𝕊w .f32) (x5 : Vec F 𝕊b .f32) : Vec F 𝕊o .f32 :=
  View.canon [⟨r3_o, k3_pay1 (View.ld x0 r3_n) (View.ld x2 r3_c) (View.ld x3 r3_w) (View.ld x1 r3_n) (View.ld x4 r3_w) (View.ld x5 r3_b)⟩]

/-- The one store is of the whole buffer, so it covers it. -/
theorem cover3_6 (p0 : Vec F 𝕊o .f32) (y : (𝕊o).Idx) :
    ∃ pc ∈ ([⟨r3_o, p0⟩] : List (View.Piece (Elt F) 𝕊o .f32)), y ∈ pc.1.set :=
  View.cover_of_tiled [⟨r3_o, p0⟩] (𝕊o).size (by rfl) y

/-! ## The body's triple -/

set_option maxHeartbeats 1000000 in
/-- The kernel body on whole staging memrefs, the inputs' at read contents `x0` … `x5` and the output's at anything,
    runs to the continuation holding the inputs' as they were and the output's at `out3_6` of the inputs'. (The body
    also loads the output buffer before the store; nothing reads that value.) -/
theorem sound_kernel3 (c : Dev nD) (E : Set ℕ) (i : grid3.Coords)
    (arg1 : Memref sig .tc .vmem 𝕊n .f32) (harg1 : arg1.IsWhole) (arg2 : Memref sig .tc .vmem 𝕊n .f32) (harg2 : arg2.IsWhole)
    (arg3 : Memref sig .tc .vmem 𝕊c .f32) (harg3 : arg3.IsWhole) (arg4 : Memref sig .tc .vmem 𝕊w .f32) (harg4 : arg4.IsWhole)
    (arg5 : Memref sig .tc .vmem 𝕊w .f32) (harg5 : arg5.IsWhole) (arg6 : Memref sig .tc .vmem 𝕊b .f32) (harg6 : arg6.IsWhole)
    (arg7 : Memref sig .tc .vmem 𝕊o .f32) (harg7 : arg7.IsWhole)
    (x0 : Vec F 𝕊n .f32) (x1 : Vec F 𝕊n .f32) (x2 : Vec F 𝕊c .f32) (x3 : Vec F 𝕊w .f32) (x4 : Vec F 𝕊w .f32) (x5 : Vec F 𝕊b .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__transform_kernel i arg1 harg1 arg2 harg2 arg3 harg3 arg4 harg4 arg5 harg5 arg6 harg6 arg7 harg7) K := by
  simp only [cc3__transform_kernel_eq_skeleton]; unfold cc3__transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at point `t`
    each input's buffer at its block and the output's at `out3_6` of the six input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the definition's case split reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so the body's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.RegR4.lean ====
import proofs.«422203_j1219770712268_1_alg».proof.Proof.Gen.KernelIdeal.Launch
import proofs.«422203_j1219770712268_1_alg».proof.Proof.Gen.KernelIdeal.Skeleton
import proofs.«422203_j1219770712268_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-! # Region 4, the readout: the body half

The readout kernel runs on a grid of 10 points. It keeps two accumulators in scratch memory between points: a
`128 × 2` array of per-graph feature sums and a `128 × 1` array of per-graph node counts. At the first point it
zeroes both; at every point it adds the block's contribution (the one-hot matrix of the block's graph ids,
transposed, times the block of features; and the one-hot matrix's column sums); at the last point it stores
sums divided by `max(counts, 1)` into the output block, which is written back there and only there.

So the body has three control cases — the first point, the points between, the last point — and the output
window is idle except at the last. This module states what the two accumulators hold after each point as explicit
functions of the blocks read (`scAt4`), gives the pipeline's proof data at an arbitrary valuation `V` of the
core's buffers on entry, and proves the body obligation and the two ends of the invariant. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two branch conditions, decided over the grid -/

/-- The first conditional's test: the grid coordinate is 0. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional's test: the grid coordinate is 9. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the output window is idle: nothing is stored into it, -/
theorem idleAt4_2 : ∀ t : Fin cfg4.N, ¬cond4_1 (grid4.coords t) → cfg4.idle 2 (grid4.coords t) = true := by decide +kernel
/-- and its block is not written back. -/
theorem noFlush4_2 : ∀ t : Fin cfg4.N, ¬cond4_1 (grid4.coords t) → (cfg4.win 2).flush t = false := by decide +kernel
/-- At the last point it is live. -/
theorem liveAt4_2 : ∀ t : Fin cfg4.N, cond4_1 (grid4.coords t) → cfg4.idle 2 (grid4.coords t) = false := by decide +kernel

/-! ## The memrefs the body is called with -/

/-- Each window's current staging memref at point `t`, and its wholeness. -/
abbrev ms4_0 (t : Fin cfg4.N) : Memref sig .tc .vmem S6400x2 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S6400x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x2 .f32 := win4_2.stage (cfg4.slots t 2)
abbrev hs4_2 (t : Fin cfg4.N) : (ms4_2 t).IsWhole := hstage4_2 ((cfg4.slots t 2).cast nbuf4_2)
/-- The two accumulators: whole scoped buffers of the kernel's own. -/
abbrev scM4_0 : Memref sig .tc .vmem S128x2 .f32 := Memref.whole cc4_scratch0
abbrev scM4_1 : Memref sig .tc .vmem S128x1 .f32 := Memref.whole cc4_scratch1

/-- The region's entry invariant with the two accumulators split off as memrefs owned at some contents: the rest of
    the core's scoped buffers and the generator register ride along unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
            ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-! ## The body's run, case by case

Each case's run is stated on any whole memrefs: the two input blocks at given contents, and — as the case
requires — the output buffer handed back untouched or taken at anything, the accumulators taken at anything (the
first point, which overwrites them) or at given contents. The run ends with each buffer stored into holding a
list of written pieces, last first; the lists are found by running the body. -/

set_option maxHeartbeats 1000000 in
/-- The first point: the first conditional taken, the second not. The accumulators are zeroed, then updated. -/
noncomputable def kernelRun4_A (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i)
    (x0 : Vec F S6400x2 .f32) (x1 : Vec F S6400x1 .i32) :
    Σ' (L2 : List (View.Piece (Elt F) S128x2 .f32)) (LS0 : List (View.Piece (Elt F) S128x2 .f32)), { LS1 : List (View.Piece (Elt F) S128x1 .f32) //
      ∀ (xi2 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4__readout_kernel i arg1 harg1 arg2 harg2 arg3 harg3 arg4 harg4 arg5 harg5) K } := by
  refine ⟨[], ?_, ?_, fun xi2 E K => ?run⟩
  case run =>
    simp only [cc4__readout_kernel_eq_skeleton]; unfold cc4__readout_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The points between: neither conditional taken. The accumulators are updated. -/
noncomputable def kernelRun4_B (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i)
    (x0 : Vec F S6400x2 .f32) (x1 : Vec F S6400x1 .i32) (xs0 : Vec F S128x2 .f32) (xs1 : Vec F S128x1 .f32) :
    Σ' (L2 : List (View.Piece (Elt F) S128x2 .f32)) (LS0 : List (View.Piece (Elt F) S128x2 .f32)), { LS1 : List (View.Piece (Elt F) S128x1 .f32) //
      ∀ (xi2 : Vec F S128x2 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4__readout_kernel i arg1 harg1 arg2 harg2 arg3 harg3 arg4 harg4 arg5 harg5) K } := by
  refine ⟨[], ?_, ?_, fun xi2 E K => ?run⟩
  case run =>
    simp only [cc4__readout_kernel_eq_skeleton]; unfold cc4__readout_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the first conditional not taken, the second taken. The accumulators are updated, read back, and
    their quotient stored into the output buffer. -/
noncomputable def kernelRun4_C (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i)
    (x0 : Vec F S6400x2 .f32) (x1 : Vec F S6400x1 .i32) (xs0 : Vec F S128x2 .f32) (xs1 : Vec F S128x1 .f32) :
    Σ' (L2 : List (View.Piece (Elt F) S128x2 .f32)) (LS0 : List (View.Piece (Elt F) S128x2 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc4__readout_kernel i arg1 harg1 arg2 harg2 arg3 harg3 arg4 harg4 arg5 harg5) K } := by
  refine ⟨?_, ?_, ?_, fun E K => ?run⟩
  case run =>
    simp only [cc4__readout_kernel_eq_skeleton]; unfold cc4__readout_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

/-! ## What the stores leave, as explicit functions of what was read -/

/-- The zero offsets of a whole-buffer load or store, however spelt. -/
theorem hz2 : (![0, 0] : Fin 2 → ℕ) = fun _ => 0 := by funext a; fin_cases a <;> rfl

/-- The sum accumulator after the zero store. -/
def zacc4 : Vec F S128x2 .f32 := k4_pay1
/-- The count accumulator after the zero store. -/
def zcnt4 : Vec F S128x1 .f32 := k4_pay2
/-- The sum accumulator after one update: `a` plus the one-hot matrix of the graph ids `b`, transposed, times the
    feature block `x`. -/
def accNext4 (a : Vec F S128x2 .f32) (x : Vec F S6400x2 .f32) (b : Vec F S6400x1 .i32) : Vec F S128x2 .f32 := k4_pay4 b x a
/-- The count accumulator after one update: `k` plus the column sums of the one-hot matrix of `b`. -/
def cntNext4 (k : Vec F S128x1 .f32) (b : Vec F S6400x1 .i32) : Vec F S128x1 .f32 := k4_pay5 b k
/-- The output block: sums over `max(counts, 1)`. -/
def fin4 (a : Vec F S128x2 .f32) (k : Vec F S128x1 .f32) : Vec F S128x2 .f32 := k4_pay6 a k

/-! Per case and buffer: the pieces the run found cover the buffer, their canonical contents are the explicit
    function, and so whatever the buffer held before, it reads as that function afterwards. -/

theorem coverA_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (y : S128x2.Idx) :
    ∃ pc ∈ (kernelRun4_A c i arg1 harg1 arg2 harg2 arg3 harg3 arg4 harg4 arg5 harg5 hc0 hc1 x0 x1).2.1, y ∈ pc.1.set :=
  View.cover_of_tiledL (kernelRun4_A c i arg1 harg1 arg2 harg2 arg3 harg3 arg4 harg4 arg5 harg5 hc0 hc1 x0 x1).2.1 S128x2.size (by sl_kernel_rfl) y

theorem canonA_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) :
    View.canon (kernelRun4_A c i arg1 harg1 arg2 harg2 arg3 harg3 arg4 harg4 arg5 harg5 hc0 hc1 x0 x1).2.1 = accNext4 zacc4 x0 x1 := by
  unfold kernelRun4_A
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesA_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (f : arg4.view.ty.Contents (Elt F)) :
    arg4.view.read (Elt F) (arg4.view.writes (Elt F) f (kernelRun4_A c i arg1 harg1 arg2 harg2 arg3 harg3 arg4 harg4 arg5 harg5 hc0 hc1 x0 x1).2.1) = accNext4 zacc4 x0 x1 :=
  (View.read_writes_eq_canon _ _ _ (coverA_0 c i arg1 harg1 arg2 harg2 arg3 harg3 arg4 harg4 arg5 harg5 hc0 hc1 x0 x1)).trans (canonA_0 c i arg1 harg1 arg2 harg2 arg3 harg3 arg4 harg4 arg5 harg5 hc0 hc1 x0 x1)

theorem coverA_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (y : S128x1.Idx) :
    ∃ pc ∈ (kernelRun4_A c i arg1 harg1 arg2 harg2 arg3 harg3 arg4 harg4 arg5 harg5 hc0 hc1 x0 x1).2.2.1, y ∈ pc.1.set :=
  View.cover_of_tiledL (kernelRun4_A c i arg1 harg1 arg2 harg2 arg3 harg3 arg4 harg4 arg5 harg5 hc0 hc1 x0 x1).2.2.1 S128x1.size (by sl_kernel_rfl) y

theorem canonA_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) :
    View.canon (kernelRun4_A c i arg1 harg1 arg2 harg2 arg3 harg3 arg4 harg4 arg5 harg5 hc0 hc1 x0 x1).2.2.1 = cntNext4 zcnt4 x1 := by
  unfold kernelRun4_A
  dsimp only
  sl_unfold_words
  rw [View.canon_cons_unit_zero (S := S128x1) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesA_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : cond4_0 i) (hc1 : ¬cond4_1 i) (x0 : Vec F S6400x2 .f32) (x1 : Vec F S6400x1 .i32) (f : arg5.view.ty.Contents (Elt F)) :
    arg5.view.read (Elt F) (arg5.view.writes (Elt F) f (kernelRun4_A c i arg1 harg1 arg2 harg2 arg3 harg3 arg4 harg4 arg5 harg5 hc0 hc1 x0 x1).2.2.1) = cntNext4 zcnt4 x1 :=
  (View.read_writes_eq_canon _ _ _ (coverA_1 c i arg1 harg1 arg2 harg2 arg3 harg3 arg4 harg4 arg5 harg5 hc0 hc1 x0 x1)).trans (canonA_1 c i arg1 harg1 arg2 harg2 arg3 harg3 arg4 harg4 arg5 harg5 hc0 hc1 x0 x1)

theorem coverB_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (y : S128x2.Idx) :
    ∃ pc ∈ (kernelRun4_B c i arg1 harg1 arg2 harg2 arg3 harg3 arg4 harg4 arg5 harg5 hc0 hc1 x0 x1 xs0 xs1).2.1, y ∈ pc.1.set :=
  View.cover_of_tiledL (kernelRun4_B c i arg1 harg1 arg2 harg2 arg3 harg3 arg4 harg4 arg5 harg5 hc0 hc1 x0 x1 xs0 xs1).2.1 S128x2.size (by sl_kernel_rfl) y

theorem canonB_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) :
    View.canon (kernelRun4_B c i arg1 harg1 arg2 harg2 arg3 harg3 arg4 harg4 arg5 harg5 hc0 hc1 x0 x1 xs0 xs1).2.1 = accNext4 xs0 x0 x1 := by
  unfold kernelRun4_B
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesB_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (f : arg4.view.ty.Contents (Elt F)) :
    arg4.view.read (Elt F) (arg4.view.writes (Elt F) f (kernelRun4_B c i arg1 harg1 arg2 harg2 arg3 harg3 arg4 harg4 arg5 harg5 hc0 hc1 x0 x1 xs0 xs1).2.1) = accNext4 xs0 x0 x1 :=
  (View.read_writes_eq_canon _ _ _ (coverB_0 c i arg1 harg1 arg2 harg2 arg3 harg3 arg4 harg4 arg5 harg5 hc0 hc1 x0 x1 xs0 xs1)).trans (canonB_0 c i arg1 harg1 arg2 harg2 arg3 harg3 arg4 harg4 arg5 harg5 hc0 hc1 x0 x1 xs0 xs1)

theorem coverB_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (y : S128x1.Idx) :
    ∃ pc ∈ (kernelRun4_B c i arg1 harg1 arg2 harg2 arg3 harg3 arg4 harg4 arg5 harg5 hc0 hc1 x0 x1 xs0 xs1).2.2.1, y ∈ pc.1.set :=
  View.cover_of_tiledL (kernelRun4_B c i arg1 harg1 arg2 harg2 arg3 harg3 arg4 harg4 arg5 harg5 hc0 hc1 x0 x1 xs0 xs1).2.2.1 S128x1.size (by sl_kernel_rfl) y

theorem canonB_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) :
    View.canon (kernelRun4_B c i arg1 harg1 arg2 harg2 arg3 harg3 arg4 harg4 arg5 harg5 hc0 hc1 x0 x1 xs0 xs1).2.2.1 = cntNext4 xs1 x1 := by
  unfold kernelRun4_B
  dsimp only
  sl_unfold_words
  rw [View.canon_cons_unit_zero (S := S128x1) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesB_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : ¬cond4_1 i) (x0 : Vec F S6400x2 .f32) (x1 : Vec F S6400x1 .i32) (xs0 : Vec F S128x2 .f32) (xs1 : Vec F S128x1 .f32) (f : arg5.view.ty.Contents (Elt F)) :
    arg5.view.read (Elt F) (arg5.view.writes (Elt F) f (kernelRun4_B c i arg1 harg1 arg2 harg2 arg3 harg3 arg4 harg4 arg5 harg5 hc0 hc1 x0 x1 xs0 xs1).2.2.1) = cntNext4 xs1 x1 :=
  (View.read_writes_eq_canon _ _ _ (coverB_1 c i arg1 harg1 arg2 harg2 arg3 harg3 arg4 harg4 arg5 harg5 hc0 hc1 x0 x1 xs0 xs1)).trans (canonB_1 c i arg1 harg1 arg2 harg2 arg3 harg3 arg4 harg4 arg5 harg5 hc0 hc1 x0 x1 xs0 xs1)

theorem coverC_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (y : S128x2.Idx) :
    ∃ pc ∈ (kernelRun4_C c i arg1 harg1 arg2 harg2 arg3 harg3 arg4 harg4 arg5 harg5 hc0 hc1 x0 x1 xs0 xs1).2.1, y ∈ pc.1.set :=
  View.cover_of_tiledL (kernelRun4_C c i arg1 harg1 arg2 harg2 arg3 harg3 arg4 harg4 arg5 harg5 hc0 hc1 x0 x1 xs0 xs1).2.1 S128x2.size (by sl_kernel_rfl) y

theorem canonC_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) :
    View.canon (kernelRun4_C c i arg1 harg1 arg2 harg2 arg3 harg3 arg4 harg4 arg5 harg5 hc0 hc1 x0 x1 xs0 xs1).2.1 = accNext4 xs0 x0 x1 := by
  unfold kernelRun4_C
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesC_0 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (f : arg4.view.ty.Contents (Elt F)) :
    arg4.view.read (Elt F) (arg4.view.writes (Elt F) f (kernelRun4_C c i arg1 harg1 arg2 harg2 arg3 harg3 arg4 harg4 arg5 harg5 hc0 hc1 x0 x1 xs0 xs1).2.1) = accNext4 xs0 x0 x1 :=
  (View.read_writes_eq_canon _ _ _ (coverC_0 c i arg1 harg1 arg2 harg2 arg3 harg3 arg4 harg4 arg5 harg5 hc0 hc1 x0 x1 xs0 xs1)).trans (canonC_0 c i arg1 harg1 arg2 harg2 arg3 harg3 arg4 harg4 arg5 harg5 hc0 hc1 x0 x1 xs0 xs1)

theorem coverC_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (y : S128x1.Idx) :
    ∃ pc ∈ (kernelRun4_C c i arg1 harg1 arg2 harg2 arg3 harg3 arg4 harg4 arg5 harg5 hc0 hc1 x0 x1 xs0 xs1).2.2.1, y ∈ pc.1.set :=
  View.cover_of_tiledL (kernelRun4_C c i arg1 harg1 arg2 harg2 arg3 harg3 arg4 harg4 arg5 harg5 hc0 hc1 x0 x1 xs0 xs1).2.2.1 S128x1.size (by sl_kernel_rfl) y

theorem canonC_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) :
    View.canon (kernelRun4_C c i arg1 harg1 arg2 harg2 arg3 harg3 arg4 harg4 arg5 harg5 hc0 hc1 x0 x1 xs0 xs1).2.2.1 = cntNext4 xs1 x1 := by
  unfold kernelRun4_C
  dsimp only
  sl_unfold_words
  rw [View.canon_cons_unit_zero (S := S128x1) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesC_1 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (f : arg5.view.ty.Contents (Elt F)) :
    arg5.view.read (Elt F) (arg5.view.writes (Elt F) f (kernelRun4_C c i arg1 harg1 arg2 harg2 arg3 harg3 arg4 harg4 arg5 harg5 hc0 hc1 x0 x1 xs0 xs1).2.2.1) = cntNext4 xs1 x1 :=
  (View.read_writes_eq_canon _ _ _ (coverC_1 c i arg1 harg1 arg2 harg2 arg3 harg3 arg4 harg4 arg5 harg5 hc0 hc1 x0 x1 xs0 xs1)).trans (canonC_1 c i arg1 harg1 arg2 harg2 arg3 harg3 arg4 harg4 arg5 harg5 hc0 hc1 x0 x1 xs0 xs1)

theorem coverC_2 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (y : S128x2.Idx) :
    ∃ pc ∈ (kernelRun4_C c i arg1 harg1 arg2 harg2 arg3 harg3 arg4 harg4 arg5 harg5 hc0 hc1 x0 x1 xs0 xs1).1, y ∈ pc.1.set :=
  View.cover_of_tiledL (kernelRun4_C c i arg1 harg1 arg2 harg2 arg3 harg3 arg4 harg4 arg5 harg5 hc0 hc1 x0 x1 xs0 xs1).1 S128x2.size (by sl_kernel_rfl) y

theorem canonC_2 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) :
    View.canon (kernelRun4_C c i arg1 harg1 arg2 harg2 arg3 harg3 arg4 harg4 arg5 harg5 hc0 hc1 x0 x1 xs0 xs1).1 = fin4 (accNext4 xs0 x0 x1) (cntNext4 xs1 x1) := by
  unfold kernelRun4_C
  dsimp only
  sl_unfold_words
  rw [View.canon_cons_unit_zero (S := S128x2) hz2]
  simp only [View.readAt_eq_ld, harg1.read_unread, harg2.read_unread, harg4.read_unread, harg5.read_unread,
    View.ld_unit_zero (S := S6400x1) hz2, View.ld_unit_zero (S := S6400x2) hz2, View.ld_unit_zero (S := S128x2) hz2,
    View.ld_unit_zero (S := S128x1) hz2, View.readCov_unit_zero (S := S128x2) _ hz2, View.readCov_unit_zero (S := S128x1) _ hz2]
  rfl

theorem leavesC_2 (c : Dev nD) (i : grid4.Coords)
    (arg1 : Memref sig .tc .vmem S6400x2 .f32) (harg1 : arg1.IsWhole) (arg2 : Memref sig .tc .vmem S6400x1 .i32) (harg2 : arg2.IsWhole)
    (arg3 : Memref sig .tc .vmem S128x2 .f32) (harg3 : arg3.IsWhole) (arg4 : Memref sig .tc .vmem S128x2 .f32) (harg4 : arg4.IsWhole)
    (arg5 : Memref sig .tc .vmem S128x1 .f32) (harg5 : arg5.IsWhole) (hc0 : ¬cond4_0 i) (hc1 : cond4_1 i) (x0 : Vec F S6400x2 .f32) (x1 : Vec F S6400x1 .i32) (xs0 : Vec F S128x2 .f32) (xs1 : Vec F S128x1 .f32) (f : arg3.view.ty.Contents (Elt F)) :
    arg3.view.read (Elt F) (arg3.view.writes (Elt F) f (kernelRun4_C c i arg1 harg1 arg2 harg2 arg3 harg3 arg4 harg4 arg5 harg5 hc0 hc1 x0 x1 xs0 xs1).1) = fin4 (accNext4 xs0 x0 x1) (cntNext4 xs1 x1) :=
  (View.read_writes_eq_canon _ _ _ (coverC_2 c i arg1 harg1 arg2 harg2 arg3 harg3 arg4 harg4 arg5 harg5 hc0 hc1 x0 x1 xs0 xs1)).trans (canonC_2 c i arg1 harg1 arg2 harg2 arg3 harg3 arg4 harg4 arg5 harg5 hc0 hc1 x0 x1 xs0 xs1)

/-! ## The proof data at a valuation `V` of the core's buffers on entry -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- THE ACCUMULATION: what the two accumulators hold after the body at point `n` — zeros updated by the first
    point's blocks, then each point's update of what the point before left. -/
def scAt4 (c : Dev nD) : (n : ℕ) → n < cfg4.N → Vec F S128x2 .f32 × Vec F S128x1 .f32
  | 0, h => (accNext4 zacc4 (iblk4 V c 0 ⟨0, h⟩) (iblk4 V c 1 ⟨0, h⟩), cntNext4 zcnt4 (iblk4 V c 1 ⟨0, h⟩))
  | n + 1, h => (accNext4 (scAt4 c n (Nat.lt_of_succ_lt h)).1 (iblk4 V c 0 ⟨n + 1, h⟩) (iblk4 V c 1 ⟨n + 1, h⟩),
      cntNext4 (scAt4 c n (Nat.lt_of_succ_lt h)).2 (iblk4 V c 1 ⟨n + 1, h⟩))

theorem scAt4_zero (c : Dev nD) (h : 0 < cfg4.N) :
    scAt4 V c 0 h = (accNext4 zacc4 (iblk4 V c 0 ⟨0, h⟩) (iblk4 V c 1 ⟨0, h⟩), cntNext4 zcnt4 (iblk4 V c 1 ⟨0, h⟩)) := rfl

theorem scAt4_succ (c : Dev nD) (n : ℕ) (h : n + 1 < cfg4.N) :
    scAt4 V c (n + 1) h = (accNext4 (scAt4 V c n (Nat.lt_of_succ_lt h)).1 (iblk4 V c 0 ⟨n + 1, h⟩) (iblk4 V c 1 ⟨n + 1, h⟩),
      cntNext4 (scAt4 V c n (Nat.lt_of_succ_lt h)).2 (iblk4 V c 1 ⟨n + 1, h⟩)) := rfl

/-- At the first point, stated at a point of the grid. -/
theorem scAt4_first (c : Dev nD) (t : Fin cfg4.N) (hz : t.val = 0) :
    scAt4 V c t.val t.isLt = (accNext4 zacc4 (iblk4 V c 0 t) (iblk4 V c 1 t), cntNext4 zcnt4 (iblk4 V c 1 t)) := by
  obtain ⟨n, hn⟩ := t
  cases n with
  | zero => rfl
  | succ n => exact absurd hz (Nat.succ_ne_zero n)

/-- At a later point: the update of what the point before left. -/
theorem scAt4_later (c : Dev nD) (t : Fin cfg4.N) (hz : t.val ≠ 0) :
    scAt4 V c t.val t.isLt
      = (accNext4 (scAt4 V c (t.val - 1) (Nat.lt_of_le_of_lt (Nat.sub_le _ _) t.isLt)).1 (iblk4 V c 0 t) (iblk4 V c 1 t),
         cntNext4 (scAt4 V c (t.val - 1) (Nat.lt_of_le_of_lt (Nat.sub_le _ _) t.isLt)).2 (iblk4 V c 1 t)) := by
  obtain ⟨n, hn⟩ := t
  cases n with
  | zero => exact absurd rfl hz
  | succ n => rfl

/-- The region invariant before position `n`: before the first point what the launch hands the region (every scoped
    buffer that is no staging buffer at anything, the generator register at some state); afterwards the same with the
    two accumulators named — at what the point before left in them. -/
def PhiS4 (c : Dev nD) : (n : ℕ) → n ≤ cfg4.N → sProp 𝕄
  | 0, _ => Pipeline.ΦA spec4 c
  | n + 1, hn => iprop(iprop(iprop(owns (c : Thread nD τ) scM4_0 fullShare (scAt4 V c n hn).1 ∗ owns (c : Thread nD τ) scM4_1 fullShare (scAt4 V c n hn).2)
        ∗ Pipeline.scopedRestBut (Ix := Unit) (Name := ℕ) (U := UR sig nD τ) (Lvl := ℕ) (Val := Elt F) spec4 c [cc4_scratch0, cc4_scratch1])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (scAt4 V c n hn).1 ∗ owns (c : Thread nD τ) scM4_1 fullShare (scAt4 V c n hn).2)
        ∗ Pipeline.scopedRestBut (Ix := Unit) (Name := ℕ) (U := UR sig nD τ) (Lvl := ℕ) (Val := Elt F) spec4 c [cc4_scratch0, cc4_scratch1])
      ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (scAt4 V c (n - 1) (by omega)).1 ∗ owns (c : Thread nD τ) scM4_1 fullShare (scAt4 V c (n - 1) (by omega)).2)
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- The proof data of the readout's pipeline on core `c`: the arrays as the region finds them; after the body at
    point `t` each input's buffer at its block and the output's at the quotient of the accumulators as they then
    stand (consulted only at the last point, where the window is live); the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => fin4 (scAt4 V c t.val t.isLt).1 (scAt4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = fin4 (scAt4 V c t.val t.isLt).1 (scAt4 V c t.val t.isLt).2 := by dsimp only [dat4]

/-- Each input's current staging buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' buffers hold their blocks. At the first point the invariant hands over the
    accumulators at anything and the first case's run applies; at a later point it hands them over at what the point
    before left, and the middle case's run applies, or at the last point the last case's, which also fills the output
    buffer. Either way the accumulators come back holding this point's update, which is the invariant at the next
    position; away from the last point the output buffer is handed back as it was found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases hz : t.val = 0
  · -- the first point
    have h0 : cond4_0 (grid4.coords t) := (hcond4_0 t).mpr hz
    have h1 : ¬cond4_1 (grid4.coords t) := fun h => by have := (hcond4_1 t).mp h; omega
    rw [Dat.leavesExact_idle (dat4 V c) 2 t (idleAt4_2 t h1) (noFlush4_2 t h1)]
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩⟩
    iapply ((kernelRun4_A c (grid4.coords t) _ _ _ _ _ _ _ _ _ _ h0 h1 (iblk4 V c 0 t) (iblk4 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; rw [scAt4_first V c t hz]; exact leavesA_0 c (grid4.coords t) _ _ _ _ _ _ _ _ _ _ h0 h1 (iblk4 V c 0 t) (iblk4 V c 1 t) es0
          · unfold owns; iexists _; isplitr
            swap; · iexact HS1
            ipureintro; rw [scAt4_first V c t hz]; exact leavesA_1 c (grid4.coords t) _ _ _ _ _ _ _ _ _ _ h0 h1 (iblk4 V c 0 t) (iblk4 V c 1 t) es1
        iexact HR
      iexact Hg
    isplitl [Ho]; · iexact Ho
    isplitl [H0]; · iexact H0
    isplitl [H1]; · iexact H1
    iexists _; iexact H2
  · have h0 : ¬cond4_0 (grid4.coords t) := fun h => hz ((hcond4_0 t).mp h)
    rw [PhiS4_castSucc V c t, PhiS4_pos V c _ _ hz]
    by_cases h9 : t.val = 9
    · -- the last point
      have h1 : cond4_1 (grid4.coords t) := (hcond4_1 t).mpr h9
      rw [show (dat4 V c).leavesExact 2 t = owns (c : Thread nD τ) (ms4_2 t) fullShare ((dat4 V c).after 2 t) from by
        unfold Dat.leavesExact; rw [liveAt4_2 t h1], after4_2]
      iintro ⟨⟨⟨⟨HS0, HS1⟩, HR⟩, Hg⟩, Ho, ⟨%d0, H0⟩, ⟨%d1, H1⟩, ⟨%d2, H2⟩⟩
      iapply ((kernelRun4_C c (grid4.coords t) _ _ _ _ _ _ _ _ _ _ h0 h1 (iblk4 V c 0 t) (iblk4 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [scAt4_later V c t hz]; exact leavesC_0 c (grid4.coords t) _ _ _ _ _ _ _ _ _ _ h0 h1 (iblk4 V c 0 t) (iblk4 V c 1 t) _ _ es0
            · unfold owns; iexists _; isplitr
              swap; · iexact HS1
              ipureintro; rw [scAt4_later V c t hz]; exact leavesC_1 c (grid4.coords t) _ _ _ _ _ _ _ _ _ _ h0 h1 (iblk4 V c 0 t) (iblk4 V c 1 t) _ _ es1
          iexact HR
        iexact Hg
      isplitl [Ho]; · iexact Ho
      isplitl [H0]; · iexact H0
      isplitl [H1]; · iexact H1
      unfold owns; iexists _; isplitr
      swap; · iexact H2
      ipureintro; rw [scAt4_later V c t hz]; exact leavesC_2 c (grid4.coords t) _ _ _ _ _ _ _ _ _ _ h0 h1 (iblk4 V c 0 t) (iblk4 V c 1 t) _ _ e2
    · -- a point between
      have h1 : ¬cond4_1 (grid4.coords t) := fun h => h9 ((hcond4_1 t).mp h)
      rw [Dat.leavesExact_idle (dat4 V c) 2 t (idleAt4_2 t h1) (noFlush4_2 t h1)]
      iintro ⟨⟨⟨⟨HS0, HS1⟩, HR⟩, Hg⟩, Ho, ⟨%d0, H0⟩, ⟨%d1, H1⟩, ⟨%d2, H2⟩⟩
      iapply ((kernelRun4_B c (grid4.coords t) _ _ _ _ _ _ _ _ _ _ h0 h1 (iblk4 V c 0 t) (iblk4 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; rw [scAt4_later V c t hz]; exact leavesB_0 c (grid4.coords t) _ _ _ _ _ _ _ _ _ _ h0 h1 (iblk4 V c 0 t) (iblk4 V c 1 t) _ _ es0
            · unfold owns; iexists _; isplitr
              swap; · iexact HS1
              ipureintro; rw [scAt4_later V c t hz]; exact leavesB_1 c (grid4.coords t) _ _ _ _ _ _ _ _ _ _ h0 h1 (iblk4 V c 0 t) (iblk4 V c 1 t) _ _ es1
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant's two ends -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives the entry form back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- In particular after the last point. -/
theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Fr

end
-- ==== Proof.KI.Run.lean ====
/- The run of the whole program: nine items (four stretches of host operations, five kernel regions). The buffers'
   contents at each boundary are a fold from the launch memory: a host stretch applies its operations, a region leaves
   its arrays at what its write-backs fold to and every other buffer as it found it. Each item is a segment over the
   thread state "every unscoped buffer whole at the boundary's contents, the random-number register at some state, nothing
   owed"; the launch theorem for segment lists then gives: every weakly fair execution terminates, without a fault,
   with every unscoped buffer at the last boundary's contents. -/
import proofs.«422203_j1219770712268_1_alg».proof.Proof.Gen.KernelIdeal.Launch
import proofs.«422203_j1219770712268_1_alg».proof.Proof.Gen.KernelIdeal.Skeleton
import proofs.«422203_j1219770712268_1_alg».proof.Proof.Gen.KernelIdeal.Points
import proofs.«422203_j1219770712268_1_alg».proof.Proof.KI.RegA0
import proofs.«422203_j1219770712268_1_alg».proof.Proof.KI.RegA1
import proofs.«422203_j1219770712268_1_alg».proof.Proof.KI.RegA2
import proofs.«422203_j1219770712268_1_alg».proof.Proof.KI.RegA3
import proofs.«422203_j1219770712268_1_alg».proof.Proof.KI.RegR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)

/-- The buffers after the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The buffers when region 0 returns: its arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The buffers after the host stretch hostOps1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- The buffers when region 1 returns: its arrays at what the pipeline's write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The buffers after the host stretch hostOps2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- The buffers when region 2 returns: its arrays at what the pipeline's write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- The buffers after the host stretch hostOps3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- The buffers when region 3 returns: its arrays at what the pipeline's write-backs leave, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- The buffers when region 4 returns: its arrays at what the pipeline's write-backs leave, every other buffer as entered. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the random-number register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- The last thread state without the dues: every unscoped buffer at the last boundary's contents, the random-number register at some state. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered with every unscoped buffer at W1, left with them at W2; its arrays are split
    out of the unscoped buffers and put back at the exit contents; the random-number register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W3, left with them at W4; its arrays are split
    out of the unscoped buffers and put back at the exit contents; the random-number register goes into the invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W5, left with them at W6; its arrays are split
    out of the unscoped buffers and put back at the exit contents; the random-number register goes into the invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W7, left with them at W8; its arrays are split
    out of the unscoped buffers and put back at the exit contents; the random-number register goes into the invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the pooling kernel), the last item: entered with the buffers at W8, left at W9. Its invariant carries the two
    scratch accumulators; at the region's two ends it is the plain one (hin4, hout4). -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec4 c).trans (show Pipeline.ΦA spec4 c ⊢ (pdats m 4 c).Φ 0 from hin4 (V8 m) c)
    unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (V8 m) c).trans (?_ : Pipeline.ΦA spec4 c ⊢ _)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The nine items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .region (reg4 m) ]
/-- The program is the run of its segments. -/
theorem main_run (c : Dev nD) : main (F := F) c = Pipeline.Seg.run (segs m) := (main_chain c).trans (by chain_rfl)

set_option backward.isDefEq.respectTransparency.types false in
/-- From any memory with zero counters every weakly fair execution of the program terminates, nothing faulting, with
    every unscoped buffer of every core at the last boundary's contents W9. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Fr

end
-- ==== Proof.KI.Frame.lean ====
/- What the run leaves untouched, and the frame claim. A host stretch changes only the buffers its operations write; a
   region changes only its output array (an input window's array is read, never written back). So a buffer that no
   stretch writes and that is no region's output holds its launch contents at the end: the nine arguments do. -/
import proofs.«422203_j1219770712268_1_alg».proof.Proof.KI.Run
import proofs.«422203_j1219770712268_1_alg».proof.Proof.Gen.KernelIdeal.Regions

set_option maxRecDepth 16384

noncomputable section

namespace Cert.KernelIdeal.Fr

open Idealize.ShloMosaic Idealize.ShloMosaic.TcCoe
open Idealize.SL Idealize.SL.Sem
open Idealize.ShloMosaic.Pipeline (Dat)
open Cert.KernelIdeal

variable {F : FTy → Type} [FloatOps F]
variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The host stretches -/

theorem keepH0 (c : Dev nD) (b : Ref sig .tc) (hb : b ∉ Gen.hostOps0_W) : W1 m c (Proc.devRef .tc b) = W0 m c (Proc.devRef .tc b) :=
  StableHlo.after_of_writes_sub Gen.hostOps0 _ Gen.hostOps0_writes hb
theorem keepH1 (c : Dev nD) (b : Ref sig .tc) (hb : b ∉ Gen.hostOps1_W) : W3 m c (Proc.devRef .tc b) = W2 m c (Proc.devRef .tc b) :=
  StableHlo.after_of_writes_sub Gen.hostOps1 _ Gen.hostOps1_writes hb
theorem keepH2 (c : Dev nD) (b : Ref sig .tc) (hb : b ∉ Gen.hostOps2_W) : W5 m c (Proc.devRef .tc b) = W4 m c (Proc.devRef .tc b) :=
  StableHlo.after_of_writes_sub Gen.hostOps2 _ Gen.hostOps2_writes hb
theorem keepH3 (c : Dev nD) (b : Ref sig .tc) (hb : b ∉ Gen.hostOps3_W) : W7 m c (Proc.devRef .tc b) = W6 m c (Proc.devRef .tc b) :=
  StableHlo.after_of_writes_sub Gen.hostOps3 _ Gen.hostOps3_writes hb

/-! ## The regions: every window but the last is an input -/

theorem isIn0 : ∀ w : Fin cfg0.W, w ≠ 6 → (cfg0.win w).isOut = false := by decide
theorem isIn1 : ∀ w : Fin cfg1.W, w ≠ 6 → (cfg1.win w).isOut = false := by decide
theorem isIn2 : ∀ w : Fin cfg2.W, w ≠ 6 → (cfg2.win w).isOut = false := by decide
theorem isIn3 : ∀ w : Fin cfg3.W, w ≠ 6 → (cfg3.win w).isOut = false := by decide
theorem isIn4 : ∀ w : Fin cfg4.W, w ≠ 2 → (cfg4.win w).isOut = false := by decide

theorem keepR0 (c : Dev nD) (b : Ref sig .tc) (hb : b ≠ main_v27) : W2 m c (Proc.devRef .tc b) = W1 m c (Proc.devRef .tc b) := by
  by_cases h : ∃ w, Pipeline.arrRef spec0 w = b
  · obtain ⟨w, rfl⟩ := h
    have hw : w ≠ 6 := fun e => hb (by subst e; rfl)
    rw [W2_arr]
    exact ((dat0 (V1 m) c).arrAt_in w (isIn0 w hw) _).trans (A_eq0 (V1 m) c w)
  · exact W2_of_ne m c b fun w e => h ⟨w, e⟩
theorem keepR1 (c : Dev nD) (b : Ref sig .tc) (hb : b ≠ main_v45) : W4 m c (Proc.devRef .tc b) = W3 m c (Proc.devRef .tc b) := by
  by_cases h : ∃ w, Pipeline.arrRef spec1 w = b
  · obtain ⟨w, rfl⟩ := h
    have hw : w ≠ 6 := fun e => hb (by subst e; rfl)
    rw [W4_arr]
    exact ((dat1 (V3 m) c).arrAt_in w (isIn1 w hw) _).trans (A_eq1 (V3 m) c w)
  · exact W4_of_ne m c b fun w e => h ⟨w, e⟩
theorem keepR2 (c : Dev nD) (b : Ref sig .tc) (hb : b ≠ main_v63) : W6 m c (Proc.devRef .tc b) = W5 m c (Proc.devRef .tc b) := by
  by_cases h : ∃ w, Pipeline.arrRef spec2 w = b
  · obtain ⟨w, rfl⟩ := h
    have hw : w ≠ 6 := fun e => hb (by subst e; rfl)
    rw [W6_arr]
    exact ((dat2 (V5 m) c).arrAt_in w (isIn2 w hw) _).trans (A_eq2 (V5 m) c w)
  · exact W6_of_ne m c b fun w e => h ⟨w, e⟩
theorem keepR3 (c : Dev nD) (b : Ref sig .tc) (hb : b ≠ main_v75) : W8 m c (Proc.devRef .tc b) = W7 m c (Proc.devRef .tc b) := by
  by_cases h : ∃ w, Pipeline.arrRef spec3 w = b
  · obtain ⟨w, rfl⟩ := h
    have hw : w ≠ 6 := fun e => hb (by subst e; rfl)
    rw [W8_arr]
    exact ((dat3 (V7 m) c).arrAt_in w (isIn3 w hw) _).trans (A_eq3 (V7 m) c w)
  · exact W8_of_ne m c b fun w e => h ⟨w, e⟩
theorem keepR4 (c : Dev nD) (b : Ref sig .tc) (hb : b ≠ main_v76) : W9 m c (Proc.devRef .tc b) = W8 m c (Proc.devRef .tc b) := by
  by_cases h : ∃ w, Pipeline.arrRef spec4 w = b
  · obtain ⟨w, rfl⟩ := h
    have hw : w ≠ 2 := fun e => hb (by subst e; rfl)
    rw [W9_arr]
    exact ((dat4 (V8 m) c).arrAt_in w (isIn4 w hw) _).trans (A_eq4 (V8 m) c w)
  · exact W9_of_ne m c b fun w e => h ⟨w, e⟩

/-- A buffer no stretch writes and no region puts out ends at its launch contents. -/
theorem keep_all (c : Dev nD) (b : Ref sig .tc) (h0 : b ∉ Gen.hostOps0_W) (h1 : b ∉ Gen.hostOps1_W) (h2 : b ∉ Gen.hostOps2_W)
    (h3 : b ∉ Gen.hostOps3_W) (r0 : b ≠ main_v27) (r1 : b ≠ main_v45) (r2 : b ≠ main_v63) (r3 : b ≠ main_v75) (r4 : b ≠ main_v76) :
    W9 m c (Proc.devRef .tc b) = m ((c : Thread nD τ).loc b) :=
  (keepR4 m c b r4).trans <| (keepR3 m c b r3).trans <| (keepH3 m c b h3).trans <| (keepR2 m c b r2).trans <| (keepH2 m c b h2).trans <|
    (keepR1 m c b r1).trans <| (keepH1 m c b h1).trans <| (keepR0 m c b r0).trans <| (keepH0 m c b h0).trans rfl

/-- THE FRAME: every weakly fair execution terminates, nothing faulting, with the nine argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (keep_all m c main_arg0 (by decide) (by decide) (by decide) (by decide) (by decide) (by decide) (by decide) (by decide) (by decide)),
     (h c _ (mem_uc main_arg1 (by decide))).trans (keep_all m c main_arg1 (by decide) (by decide) (by decide) (by decide) (by decide) (by decide) (by decide) (by decide) (by decide)),
     (h c _ (mem_uc main_arg2 (by decide))).trans (keep_all m c main_arg2 (by decide) (by decide) (by decide) (by decide) (by decide) (by decide) (by decide) (by decide) (by decide)),
     (h c _ (mem_uc main_arg3 (by decide))).trans (keep_all m c main_arg3 (by decide) (by decide) (by decide) (by decide) (by decide) (by decide) (by decide) (by decide) (by decide)),
     (h c _ (mem_uc main_arg4 (by decide))).trans (keep_all m c main_arg4 (by decide) (by decide) (by decide) (by decide) (by decide) (by decide) (by decide) (by decide) (by decide)),
     (h c _ (mem_uc main_arg5 (by decide))).trans (keep_all m c main_arg5 (by decide) (by decide) (by decide) (by decide) (by decide) (by decide) (by decide) (by decide) (by decide)),
     (h c _ (mem_uc main_arg6 (by decide))).trans (keep_all m c main_arg6 (by decide) (by decide) (by decide) (by decide) (by decide) (by decide) (by decide) (by decide) (by decide)),
     (h c _ (mem_uc main_arg7 (by decide))).trans (keep_all m c main_arg7 (by decide) (by decide) (by decide) (by decide) (by decide) (by decide) (by decide) (by decide) (by decide)),
     (h c _ (mem_uc main_arg8 (by decide))).trans (keep_all m c main_arg8 (by decide) (by decide) (by decide) (by decide) (by decide) (by decide) (by decide) (by decide) (by decide))⟩)
    (run_all m ρ)

end Cert.KernelIdeal.Fr

end
-- ==== Proof.Spec.lean ====
/- The mathematics both programs compute, index by index over the extended reals.
   A graph-convolution layer: node n's output feature j is the mean of its in-neighbours' features (their sum s over
   max(count, 1)) contracted with Wl, plus its own features contracted with Wr, plus a bias; the hidden layers clamp
   the result at zero from below. The read-out: graph g's feature d is the sum of the features of the nodes whose
   graph id is g over max(number of such nodes, 1); a node whose id names no graph contributes nowhere. -/
import proofs.«422203_j1219770712268_1_alg».proof.KernelIdeal
import Idealize.ShloMosaic.PureOps.Ideal
import Idealize.ShloMosaic.Lib.ValueIdx

noncomputable section

namespace Cert.Spec

open Idealize.ShloMosaic Cert.KernelIdeal ValueIdx

/-- The float word of 1.0 and of +0.0, kept as words: both programs spell them so. -/
abbrev f1 : EReal := Ideal.ofBits .f32 0x3F800000#32
abbrev f0 : EReal := Ideal.ofBits .f32 0x00000000#32

/-- A hidden layer before the clamp, at node n and feature j. -/
def layAt (s h : FVec Ideal S64000x64 .f32) (cnt : FVec Ideal S64000x1 .f32) (Wl Wr : FVec Ideal S64x64 .f32)
    (b : FVec Ideal S1x64 .f32) (n : Fin 64000) (j : Fin 64) : EReal :=
  ((∑ k : Fin 64, Ideal.div (s (ix2 n k)) (max (cnt (ix2 n 0)) f1) * Wl (ix2 j k))
    + ∑ k : Fin 64, h (ix2 n k) * Wr (ix2 j k)) + b (ix2 0 j)

/-- A hidden layer: clamped at zero from below. -/
def lay64 (s h : FVec Ideal S64000x64 .f32) (cnt : FVec Ideal S64000x1 .f32) (Wl Wr : FVec Ideal S64x64 .f32)
    (b : FVec Ideal S1x64 .f32) : FVec Ideal S64000x64 .f32 :=
  fun i => max (layAt s h cnt Wl Wr b (i 0) (i 1)) f0

/-- The output layer (two features, no clamp), at node n and feature j. -/
def lay2At (s h : FVec Ideal S64000x64 .f32) (cnt : FVec Ideal S64000x1 .f32) (Wl Wr : FVec Ideal S2x64 .f32)
    (b : FVec Ideal S1x2 .f32) (n : Fin 64000) (j : Fin 2) : EReal :=
  ((∑ k : Fin 64, Ideal.div (s (ix2 n k)) (max (cnt (ix2 n 0)) f1) * Wl (ix2 j k))
    + ∑ k : Fin 64, h (ix2 n k) * Wr (ix2 j k)) + b (ix2 0 j)

def lay2 (s h : FVec Ideal S64000x64 .f32) (cnt : FVec Ideal S64000x1 .f32) (Wl Wr : FVec Ideal S2x64 .f32)
    (b : FVec Ideal S1x2 .f32) : FVec Ideal S64000x2 .f32 :=
  fun i => lay2At s h cnt Wl Wr b (i 0) (i 1)

/-- 1 when the graph-id word w names graph g, else 0. -/
def oneHot (w : BitVec 32) (g : Fin 128) : EReal := if w = BitVec.ofNat 32 g.val then 1 else 0

/-- The read-out at graph g and feature d. -/
def poolAt (h : FVec Ideal S64000x2 .f32) (b : IVec S64000x1 32) (g : Fin 128) (d : Fin 2) : EReal :=
  Ideal.div (∑ n : Fin 64000, oneHot (b (ix2 n 0)) g * h (ix2 n d)) (max (∑ n : Fin 64000, oneHot (b (ix2 n 0)) g) f1)

def pool (h : FVec Ideal S64000x2 .f32) (b : IVec S64000x1 32) : FVec Ideal S128x2 .f32 :=
  fun i => poolAt h b (i 0) (i 1)

end Cert.Spec

end
-- ==== Proof.KI.LayDot.lean ====
/-
  A hidden layer's block product and broadcasts, read at an index over the extended reals: a `[2000, 64]` block
  times a `[64, 64]` matrix, contracted over the block's columns and the matrix's rows, is at `(p, q)` the sum over
  `k` of the block at `(p, k)` times the matrix at `(k, q)`; against the matrix TRANSPOSED, times the matrix at
  `(q, k)`; a column `[a, 1]` broadcast along the rows reads its row.
-/
import proofs.«422203_j1219770712268_1_alg».proof.Proof.Gen.KernelIdeal.Skeleton
import proofs.«422203_j1219770712268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr.Lay

open Idealize.ShloMosaic Idealize.ShloMosaic.ValueIdx
open Cert.KernelIdeal Cert.KernelIdeal.Gen
open scoped BigOperators

/-! ## A column broadcast along the rows -/

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product read at an index -/

theorem lhs_dot64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_dot64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_dot64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_dot64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A `[2000, 64]` block times a `[64, 64]` matrix into the zero splat, at `(p, q)`: the sum over the one contracted
    axis of row `p` of the block against column `q` of the matrix. -/
theorem dot64_apply (a : FVec Ideal S2000x64 .f32) (b : FVec Ideal S64x64 .f32) (p : Fin 2000) (q : Fin 64) :
    matmul dot_S2000x64_S64x64_S2000x64_1_0_0_1_n_n none a b (constant (F := Ideal) S2000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_dot64_0 _ _
    | ⟨1, _⟩ => exact (lhs_dot64_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_dot64_0 _ _).trans hk
    | ⟨1, _⟩ => exact rhs_dot64_1 _ _)
  rw [el, er]

/-! ## The weight matrix transposed, read at an index; the zero offsets -/

/-- A `[64, 64]` matrix transposed reads, at `(k, q)`, the matrix at `(q, k)`. -/
theorem transpose64_apply {α : Type} (w : S64x64.Idx → α) (k q : Fin 64) :
    transpose S64x64 [1, 0] w transposes_S64x64_p1_0_S64x64 (ix2 k q) = w (ix2 q k) :=
  transpose_ix2_apply (a := 64) (b := 64) w transposes_S64x64_p1_0_S64x64 k q

/-- The offsets of a whole-buffer access are all zero. -/
theorem off_zero : (![0, 0] : Fin 2 → Nat) = fun _ => 0 := funext fun a => by fin_cases a <;> rfl

/-- The block times the TRANSPOSE of a `[64, 64]` weight matrix, at `(p, q)`: row `p` of the block against ROW `q` of
    the matrix. -/
theorem dot64T_apply (a : FVec Ideal S2000x64 .f32) (w : FVec Ideal S64x64 .f32) (p : Fin 2000) (q : Fin 64) :
    matmul dot_S2000x64_S64x64_S2000x64_1_0_0_1_n_n none a (transpose S64x64 [1, 0] w transposes_S64x64_p1_0_S64x64)
        (constant (F := Ideal) S2000x64 .f32 0x00000000#32) (ix2 p q)
      = ∑ k : Fin 64, a (ix2 p k) * w (ix2 q k) := by
  rw [dot64_apply]
  refine Finset.sum_congr rfl fun k _ => ?_
  rw [transpose64_apply]

end Cert.KernelIdeal.Fr.Lay

end
-- ==== Proof.KI.PayA0.lean ====
/-
  REGION 0's payload read at an index, over the extended reals: what the body stores at row `p`, feature `q` of the
  output block, as a function of the six loaded blocks; and the same against the layer's specification.
-/
import proofs.«422203_j1219770712268_1_alg».proof.Proof.KI.LayDot

noncomputable section

namespace Cert.KernelIdeal.Fr

open Idealize.ShloMosaic Idealize.ShloMosaic.ValueIdx
open Cert.KernelIdeal Cert.KernelIdeal.Gen
open scoped BigOperators

/-- The layer's payload at `(p, q)` over the extended reals: the mean-aggregated row `p` (the sum block over the count
    clamped below at one) against row `q` of the first weight matrix, plus row `p` of the own-feature block against
    row `q` of the second, plus the bias at `q`, clamped below at zero. -/
theorem k0_pay1_apply (x0 x1 : Vec Ideal S2000x64 .f32) (x2 : Vec Ideal S2000x1 .f32) (x3 x4 : Vec Ideal S64x64 .f32)
    (x5 : Vec Ideal S1x64 .f32) (p : Fin 2000) (q : Fin 64) :
    k0_pay1 x0 x2 x3 x1 x4 x5 (ix2 p q)
      = max (((∑ k : Fin 64, Ideal.div (x0 (ix2 p k)) (max (x2 (ix2 p (0 : Fin 1))) Cert.Spec.f1) * x3 (ix2 q k))
          + ∑ k : Fin 64, x1 (ix2 p k) * x4 (ix2 q k)) + x5 (ix2 (0 : Fin 1) q)) Cert.Spec.f0 := by
  unfold k0_pay1
  simp only [shapeCast_self]
  rw [maximumf_apply, addf_apply, addf_apply, Lay.dot64T_apply, Lay.dot64T_apply, broadcastTo_1b_ab_apply]
  simp only [divf_apply, Lay.broadcastTo_a1_ab_apply, maximumf_apply, broadcast_apply]
  rfl

/-- The same against the layer's specification: when the loaded node blocks are rows `n` of the arrays `s`, `h`, `cnt`
    at row `p`, and the loaded weights and bias are the arrays `Wl`, `Wr`, `b`, the payload at `(p, q)` is the layer at
    node `n`, feature `q`. -/
theorem k0_pay1_point (x0 x1 : Vec Ideal S2000x64 .f32) (x2 : Vec Ideal S2000x1 .f32) (x3 x4 : Vec Ideal S64x64 .f32)
    (x5 : Vec Ideal S1x64 .f32) (s h : FVec Ideal S64000x64 .f32) (cnt : FVec Ideal S64000x1 .f32)
    (Wl Wr : FVec Ideal S64x64 .f32) (b : FVec Ideal S1x64 .f32) (p : Fin 2000) (q : Fin 64) (n : Fin 64000)
    (h0 : ∀ k : Fin 64, x0 (ix2 p k) = s (ix2 n k)) (h1 : ∀ k : Fin 64, x1 (ix2 p k) = h (ix2 n k))
    (h2 : x2 (ix2 p (0 : Fin 1)) = cnt (ix2 n (0 : Fin 1))) (h3 : x3 = Wl) (h4 : x4 = Wr) (h5 : x5 = b) :
    k0_pay1 x0 x2 x3 x1 x4 x5 (ix2 p q) = Cert.Spec.lay64 s h cnt Wl Wr b (ix2 n q) := by
  subst h3 h4 h5
  rw [k0_pay1_apply, h2]
  simp only [h0, h1]
  rfl

end Cert.KernelIdeal.Fr

end
-- ==== Proof.KI.ValA0.lean ====
/-
  REGION 0's VALUE over the extended reals: after the region's 32 points its output array is the layer
  (the specification's `lay64`) of the six arrays the region's input windows stage, as the region finds them.
  Point `t` writes back block `t` of that layer: the body's one store leaves the payload of the six loaded blocks, each
  of which is read where the output's block sits (rows `t * 2000 …` of the three node arrays; the weights and the bias
  whole); row `r` of the array is in the block of point `r / 2000`, so the 32 blocks cover the array.
-/
import proofs.«422203_j1219770712268_1_alg».proof.Proof.KI.RegA0
import proofs.«422203_j1219770712268_1_alg».proof.Proof.KI.PayA0
import proofs.«422203_j1219770712268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

-- The block shapes of the region's windows (as in the region's body half), the shapes of the arrays they stage, the
-- sizes the index arithmetic meets, and the arrays themselves in window order.
local notation "𝕊n" => S2000x64
local notation "𝕊c" => S2000x1
local notation "𝕊w" => S64x64
local notation "𝕊b" => S1x64
local notation "𝕊o" => S2000x64
local notation "𝔸n" => S64000x64
local notation "𝔸c" => S64000x1
local notation "𝔸o" => S64000x64
local notation "𝕟q" => 64
local notation "𝔞s" => main_v19
local notation "𝔞h" => main_arg0
local notation "𝔞c" => main_v9
local notation "𝔞l" => main_v21
local notation "𝔞r" => main_v23
local notation "𝔞b" => main_v26
local notation "𝔞o" => main_v27
local notation "𝔾" => Cert.Spec.lay64

variable (V : (c : Dev nD) → (b : Ref sig .tc) → Buf (Elt Ideal) ((c : Thread nD τ).loc b))

/-! ## The index maps over the grid -/

/-- The printed index maps, decided over the 32 points: the three node-block windows and the output move one block
    along the rows per point; the weight and bias windows stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks, read where the output's block sits -/

/-- Row `p` of the sum block at point `t` is row `t * 2000 + p` of the sum array; -/
theorem rd0_0 (c : Dev nD) (t : Fin cfg0.N) (p : Fin 2000) (k : Fin 64) (n : Fin 64000) (hn : n.val = t.val * 2000 + p.val) :
    (iblk0 V c 0 t : Vec Ideal 𝕊n .f32) (ix2 p k) = (V c 𝔞s : FVec Ideal 𝔸n .f32) (ix2 n k) := by
  obtain ⟨e0, e1, -⟩ := idx_facts0 t
  show V c 𝔞s (((cfg0.win 0).blk t).view.emb (ix2 p k)) = V c 𝔞s (ix2 n k)
  refine congrArg _ (funext fun a => Fin.ext ?_)
  match a with
  | ⟨0, _⟩ => show win0_0.index t (0 : Fin 2) * 2000 + 1 * p.val = n.val; omega
  | ⟨1, _⟩ => show win0_0.index t (1 : Fin 2) * 64 + 1 * k.val = k.val; omega
/-- of the own-feature block likewise; -/
theorem rd0_1 (c : Dev nD) (t : Fin cfg0.N) (p : Fin 2000) (k : Fin 64) (n : Fin 64000) (hn : n.val = t.val * 2000 + p.val) :
    (iblk0 V c 1 t : Vec Ideal 𝕊n .f32) (ix2 p k) = (V c 𝔞h : FVec Ideal 𝔸n .f32) (ix2 n k) := by
  obtain ⟨-, -, e0, e1, -⟩ := idx_facts0 t
  show V c 𝔞h (((cfg0.win 1).blk t).view.emb (ix2 p k)) = V c 𝔞h (ix2 n k)
  refine congrArg _ (funext fun a => Fin.ext ?_)
  match a with
  | ⟨0, _⟩ => show win0_1.index t (0 : Fin 2) * 2000 + 1 * p.val = n.val; omega
  | ⟨1, _⟩ => show win0_1.index t (1 : Fin 2) * 64 + 1 * k.val = k.val; omega
/-- of the count block likewise. -/
theorem rd0_2 (c : Dev nD) (t : Fin cfg0.N) (p : Fin 2000) (n : Fin 64000) (hn : n.val = t.val * 2000 + p.val) :
    (iblk0 V c 2 t : Vec Ideal 𝕊c .f32) (ix2 p (0 : Fin 1)) = (V c 𝔞c : FVec Ideal 𝔸c .f32) (ix2 n (0 : Fin 1)) := by
  obtain ⟨-, -, -, -, e0, e1, -⟩ := idx_facts0 t
  show V c 𝔞c (((cfg0.win 2).blk t).view.emb (ix2 p (0 : Fin 1))) = V c 𝔞c (ix2 n (0 : Fin 1))
  refine congrArg _ (funext fun a => Fin.ext ?_)
  match a with
  | ⟨0, _⟩ => show win0_2.index t (0 : Fin 2) * 2000 + 1 * p.val = n.val; omega
  | ⟨1, _⟩ => show win0_2.index t (1 : Fin 2) * 1 + 1 * 0 = 0; omega
/-- The weight and bias blocks are their whole arrays at every point. -/
theorem rd0_3 (c : Dev nD) (t : Fin cfg0.N) : (iblk0 V c 3 t : Vec Ideal 𝕊w .f32) = (V c 𝔞l : FVec Ideal 𝕊w .f32) := by
  obtain ⟨-, -, -, -, -, -, e0, e1, -⟩ := idx_facts0 t
  funext y
  show V c 𝔞l (((cfg0.win 3).blk t).view.emb y) = V c 𝔞l y
  refine congrArg _ (funext fun a => Fin.ext ?_)
  match a with
  | ⟨0, _⟩ => show win0_3.index t (0 : Fin 2) * (𝕊w).size 0 + 1 * (y 0).val = (y 0).val; rw [e0]; omega
  | ⟨1, _⟩ => show win0_3.index t (1 : Fin 2) * (𝕊w).size 1 + 1 * (y 1).val = (y 1).val; rw [e1]; omega
theorem rd0_4 (c : Dev nD) (t : Fin cfg0.N) : (iblk0 V c 4 t : Vec Ideal 𝕊w .f32) = (V c 𝔞r : FVec Ideal 𝕊w .f32) := by
  obtain ⟨-, -, -, -, -, -, -, -, e0, e1, -⟩ := idx_facts0 t
  funext y
  show V c 𝔞r (((cfg0.win 4).blk t).view.emb y) = V c 𝔞r y
  refine congrArg _ (funext fun a => Fin.ext ?_)
  match a with
  | ⟨0, _⟩ => show win0_4.index t (0 : Fin 2) * (𝕊w).size 0 + 1 * (y 0).val = (y 0).val; rw [e0]; omega
  | ⟨1, _⟩ => show win0_4.index t (1 : Fin 2) * (𝕊w).size 1 + 1 * (y 1).val = (y 1).val; rw [e1]; omega
theorem rd0_5 (c : Dev nD) (t : Fin cfg0.N) : (iblk0 V c 5 t : Vec Ideal 𝕊b .f32) = (V c 𝔞b : FVec Ideal 𝕊b .f32) := by
  obtain ⟨-, -, -, -, -, -, -, -, -, -, e0, e1, -⟩ := idx_facts0 t
  funext y
  show V c 𝔞b (((cfg0.win 5).blk t).view.emb y) = V c 𝔞b y
  refine congrArg _ (funext fun a => Fin.ext ?_)
  match a with
  | ⟨0, _⟩ => show win0_5.index t (0 : Fin 2) * (𝕊b).size 0 + 1 * (y 0).val = (y 0).val; rw [e0]; omega
  | ⟨1, _⟩ => show win0_5.index t (1 : Fin 2) * (𝕊b).size 1 + 1 * (y 1).val = (y 1).val; rw [e1]; omega

/-! ## What a point writes back -/

/-- The layer of the arrays as the region finds them. -/
abbrev G0 (c : Dev nD) : FVec Ideal 𝔸o .f32 := 𝔾 (V c 𝔞s) (V c 𝔞h) (V c 𝔞c) (V c 𝔞l) (V c 𝔞r) (V c 𝔞b)

/-- WHAT POINT `t` WRITES BACK is block `t` of the layer of the arrays as the region finds them. -/
theorem flushed0_6_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero Lay.off_zero]
  simp only [View.ld_unit_zero (S := 𝕊n) Lay.off_zero, View.ld_unit_zero (S := 𝕊c) Lay.off_zero,
    View.ld_unit_zero (S := 𝕊w) Lay.off_zero, View.ld_unit_zero (S := 𝕊b) Lay.off_zero]
  obtain ⟨-, -, -, -, -, -, -, -, -, -, -, -, e0, e1⟩ := idx_facts0 t
  have ht : t.val < 32 := lt_of_lt_of_eq t.isLt N_0
  funext j
  obtain ⟨p, q, rfl⟩ : ∃ (p : Fin 2000) (q : Fin 𝕟q), j = ix2 p q := ⟨j 0, j 1, eq_ix2 j⟩
  have hemb : ((cfg0.win 6).blk t).view.emb (ix2 p q) = (ix2 (⟨t.val * 2000 + p.val, by omega⟩ : Fin 64000) q : (𝔸o).Idx) := by
    funext a; apply Fin.ext
    match a with
    | ⟨0, _⟩ => show win0_6.index t (0 : Fin 2) * 2000 + 1 * p.val = t.val * 2000 + p.val; omega
    | ⟨1, _⟩ => show win0_6.index t (1 : Fin 2) * 𝕟q + 1 * q.val = q.val; omega
  show k0_pay1 _ _ _ _ _ _ (ix2 p q) = G0 V c (((cfg0.win 6).blk t).view.emb (ix2 p q))
  rw [hemb]
  exact k0_pay1_point _ _ _ _ _ _ _ _ _ _ _ _ p q _ (fun k => rd0_0 V c t p k _ rfl) (fun k => rd0_1 V c t p k _ rfl)
    (rd0_2 V c t p _ rfl) (rd0_3 V c t) (rd0_4 V c t) (rd0_5 V c t)

/-! ## The blocks cover the array -/

/-- An index of the array is in point `t`'s block iff each coordinate is in the block's range on its axis. -/
theorem mem_blk0 (t : Fin cfg0.N) (i : (𝔸o).Idx) :
    i ∈ ((cfg0.win 6).blk t).view.set ↔ ∀ a : Fin 2, win0_6.index t a * (𝕊o).size a ≤ (i a).val ∧ (i a).val < win0_6.index t a * (𝕊o).size a + (𝕊o).size a := by
  show i ∈ ((View.whole 𝔞o).slice (win0_6.rect t)).set ↔ _
  rw [View.set_slice_whole, Rect.mem_set_unit]
  exact Iff.rfl

/-- Row `r` of the array is in the block of point `r / 2000`. -/
theorem covered0 (i : (𝔸o).Idx) : ∃ t : Fin cfg0.N, (cfg0.win 6).flush t = true ∧ i ∈ ((cfg0.win 6).blk t).view.set := by
  have hi0 : (i 0).val < 64000 := (i 0).isLt
  have hi1 : (i 1).val < 𝕟q := (i 1).isLt
  have hN : grid0.N = 32 := N_0
  have hlt : (i 0).val / 2000 < cfg0.N := by show _ < grid0.N; rw [hN]; omega
  obtain ⟨-, -, -, -, -, -, -, -, -, -, -, -, e0, e1⟩ := idx_facts0 ⟨(i 0).val / 2000, hlt⟩
  refine ⟨⟨(i 0).val / 2000, hlt⟩, flush0_6 _, ?_⟩
  rw [mem_blk0]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, hlt⟩ (1 : Fin 2) * 𝕟q ≤ (i 1).val ∧ (i 1).val < win0_6.index ⟨(i 0).val / 2000, hlt⟩ (1 : Fin 2) * 𝕟q + 𝕟q
    rw [e1]; omega

/-! ## The array after the region -/

/-- THE OUTPUT ARRAY after the region's 32 points is the layer of the arrays as the region finds them. -/
theorem arrAt0_6 (c : Dev nD) : (dat0 (F := Ideal) V c).arrAt 6 cfg0.N = 𝔾 (V c 𝔞s) (V c 𝔞h) (V c 𝔞c) (V c 𝔞l) (V c 𝔞r) (V c 𝔞b) :=
  (dat0 V c).arrAt_eq_of_cover 6 (G0 V c) (fun t _ => flushed0_6_eq V c t) covered0

end Cert.KernelIdeal.Fr

end
-- ==== Proof.KI.PayA1.lean ====
/-
  REGION 1's payload read at an index, over the extended reals: what the body stores at row `p`, feature `q` of the
  output block, as a function of the six loaded blocks; and the same against the layer's specification.
-/
import proofs.«422203_j1219770712268_1_alg».proof.Proof.KI.LayDot

noncomputable section

namespace Cert.KernelIdeal.Fr

open Idealize.ShloMosaic Idealize.ShloMosaic.ValueIdx
open Cert.KernelIdeal Cert.KernelIdeal.Gen
open scoped BigOperators

/-- The layer's payload at `(p, q)` over the extended reals: the mean-aggregated row `p` (the sum block over the count
    clamped below at one) against row `q` of the first weight matrix, plus row `p` of the own-feature block against
    row `q` of the second, plus the bias at `q`, clamped below at zero. -/
theorem k1_pay1_apply (x0 x1 : Vec Ideal S2000x64 .f32) (x2 : Vec Ideal S2000x1 .f32) (x3 x4 : Vec Ideal S64x64 .f32)
    (x5 : Vec Ideal S1x64 .f32) (p : Fin 2000) (q : Fin 64) :
    k1_pay1 x0 x2 x3 x1 x4 x5 (ix2 p q)
      = max (((∑ k : Fin 64, Ideal.div (x0 (ix2 p k)) (max (x2 (ix2 p (0 : Fin 1))) Cert.Spec.f1) * x3 (ix2 q k))
          + ∑ k : Fin 64, x1 (ix2 p k) * x4 (ix2 q k)) + x5 (ix2 (0 : Fin 1) q)) Cert.Spec.f0 := by
  unfold k1_pay1
  simp only [shapeCast_self]
  rw [maximumf_apply, addf_apply, addf_apply, Lay.dot64T_apply, Lay.dot64T_apply, broadcastTo_1b_ab_apply]
  simp only [divf_apply, Lay.broadcastTo_a1_ab_apply, maximumf_apply, broadcast_apply]
  rfl

/-- The same against the layer's specification: when the loaded node blocks are rows `n` of the arrays `s`, `h`, `cnt`
    at row `p`, and the loaded weights and bias are the arrays `Wl`, `Wr`, `b`, the payload at `(p, q)` is the layer at
    node `n`, feature `q`. -/
theorem k1_pay1_point (x0 x1 : Vec Ideal S2000x64 .f32) (x2 : Vec Ideal S2000x1 .f32) (x3 x4 : Vec Ideal S64x64 .f32)
    (x5 : Vec Ideal S1x64 .f32) (s h : FVec Ideal S64000x64 .f32) (cnt : FVec Ideal S64000x1 .f32)
    (Wl Wr : FVec Ideal S64x64 .f32) (b : FVec Ideal S1x64 .f32) (p : Fin 2000) (q : Fin 64) (n : Fin 64000)
    (h0 : ∀ k : Fin 64, x0 (ix2 p k) = s (ix2 n k)) (h1 : ∀ k : Fin 64, x1 (ix2 p k) = h (ix2 n k))
    (h2 : x2 (ix2 p (0 : Fin 1)) = cnt (ix2 n (0 : Fin 1))) (h3 : x3 = Wl) (h4 : x4 = Wr) (h5 : x5 = b) :
    k1_pay1 x0 x2 x3 x1 x4 x5 (ix2 p q) = Cert.Spec.lay64 s h cnt Wl Wr b (ix2 n q) := by
  subst h3 h4 h5
  rw [k1_pay1_apply, h2]
  simp only [h0, h1]
  rfl

end Cert.KernelIdeal.Fr

end
-- ==== Proof.KI.ValA1.lean ====
/-
  REGION 1's VALUE over the extended reals: after the region's 32 points its output array is the layer
  (the specification's `lay64`) of the six arrays the region's input windows stage, as the region finds them.
  Point `t` writes back block `t` of that layer: the body's one store leaves the payload of the six loaded blocks, each
  of which is read where the output's block sits (rows `t * 2000 …` of the three node arrays; the weights and the bias
  whole); row `r` of the array is in the block of point `r / 2000`, so the 32 blocks cover the array.
-/
import proofs.«422203_j1219770712268_1_alg».proof.Proof.KI.RegA1
import proofs.«422203_j1219770712268_1_alg».proof.Proof.KI.PayA1
import proofs.«422203_j1219770712268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

-- The block shapes of the region's windows (as in the region's body half), the shapes of the arrays they stage, the
-- sizes the index arithmetic meets, and the arrays themselves in window order.
local notation "𝕊n" => S2000x64
local notation "𝕊c" => S2000x1
local notation "𝕊w" => S64x64
local notation "𝕊b" => S1x64
local notation "𝕊o" => S2000x64
local notation "𝔸n" => S64000x64
local notation "𝔸c" => S64000x1
local notation "𝔸o" => S64000x64
local notation "𝕟q" => 64
local notation "𝔞s" => main_v37
local notation "𝔞h" => main_v27
local notation "𝔞c" => main_v9
local notation "𝔞l" => main_v39
local notation "𝔞r" => main_v41
local notation "𝔞b" => main_v44
local notation "𝔞o" => main_v45
local notation "𝔾" => Cert.Spec.lay64

variable (V : (c : Dev nD) → (b : Ref sig .tc) → Buf (Elt Ideal) ((c : Thread nD τ).loc b))

/-! ## The index maps over the grid -/

/-- The printed index maps, decided over the 32 points: the three node-block windows and the output move one block
    along the rows per point; the weight and bias windows stay at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The input blocks, read where the output's block sits -/

/-- Row `p` of the sum block at point `t` is row `t * 2000 + p` of the sum array; -/
theorem rd1_0 (c : Dev nD) (t : Fin cfg1.N) (p : Fin 2000) (k : Fin 64) (n : Fin 64000) (hn : n.val = t.val * 2000 + p.val) :
    (iblk1 V c 0 t : Vec Ideal 𝕊n .f32) (ix2 p k) = (V c 𝔞s : FVec Ideal 𝔸n .f32) (ix2 n k) := by
  obtain ⟨e0, e1, -⟩ := idx_facts1 t
  show V c 𝔞s (((cfg1.win 0).blk t).view.emb (ix2 p k)) = V c 𝔞s (ix2 n k)
  refine congrArg _ (funext fun a => Fin.ext ?_)
  match a with
  | ⟨0, _⟩ => show win1_0.index t (0 : Fin 2) * 2000 + 1 * p.val = n.val; omega
  | ⟨1, _⟩ => show win1_0.index t (1 : Fin 2) * 64 + 1 * k.val = k.val; omega
/-- of the own-feature block likewise; -/
theorem rd1_1 (c : Dev nD) (t : Fin cfg1.N) (p : Fin 2000) (k : Fin 64) (n : Fin 64000) (hn : n.val = t.val * 2000 + p.val) :
    (iblk1 V c 1 t : Vec Ideal 𝕊n .f32) (ix2 p k) = (V c 𝔞h : FVec Ideal 𝔸n .f32) (ix2 n k) := by
  obtain ⟨-, -, e0, e1, -⟩ := idx_facts1 t
  show V c 𝔞h (((cfg1.win 1).blk t).view.emb (ix2 p k)) = V c 𝔞h (ix2 n k)
  refine congrArg _ (funext fun a => Fin.ext ?_)
  match a with
  | ⟨0, _⟩ => show win1_1.index t (0 : Fin 2) * 2000 + 1 * p.val = n.val; omega
  | ⟨1, _⟩ => show win1_1.index t (1 : Fin 2) * 64 + 1 * k.val = k.val; omega
/-- of the count block likewise. -/
theorem rd1_2 (c : Dev nD) (t : Fin cfg1.N) (p : Fin 2000) (n : Fin 64000) (hn : n.val = t.val * 2000 + p.val) :
    (iblk1 V c 2 t : Vec Ideal 𝕊c .f32) (ix2 p (0 : Fin 1)) = (V c 𝔞c : FVec Ideal 𝔸c .f32) (ix2 n (0 : Fin 1)) := by
  obtain ⟨-, -, -, -, e0, e1, -⟩ := idx_facts1 t
  show V c 𝔞c (((cfg1.win 2).blk t).view.emb (ix2 p (0 : Fin 1))) = V c 𝔞c (ix2 n (0 : Fin 1))
  refine congrArg _ (funext fun a => Fin.ext ?_)
  match a with
  | ⟨0, _⟩ => show win1_2.index t (0 : Fin 2) * 2000 + 1 * p.val = n.val; omega
  | ⟨1, _⟩ => show win1_2.index t (1 : Fin 2) * 1 + 1 * 0 = 0; omega
/-- The weight and bias blocks are their whole arrays at every point. -/
theorem rd1_3 (c : Dev nD) (t : Fin cfg1.N) : (iblk1 V c 3 t : Vec Ideal 𝕊w .f32) = (V c 𝔞l : FVec Ideal 𝕊w .f32) := by
  obtain ⟨-, -, -, -, -, -, e0, e1, -⟩ := idx_facts1 t
  funext y
  show V c 𝔞l (((cfg1.win 3).blk t).view.emb y) = V c 𝔞l y
  refine congrArg _ (funext fun a => Fin.ext ?_)
  match a with
  | ⟨0, _⟩ => show win1_3.index t (0 : Fin 2) * (𝕊w).size 0 + 1 * (y 0).val = (y 0).val; rw [e0]; omega
  | ⟨1, _⟩ => show win1_3.index t (1 : Fin 2) * (𝕊w).size 1 + 1 * (y 1).val = (y 1).val; rw [e1]; omega
theorem rd1_4 (c : Dev nD) (t : Fin cfg1.N) : (iblk1 V c 4 t : Vec Ideal 𝕊w .f32) = (V c 𝔞r : FVec Ideal 𝕊w .f32) := by
  obtain ⟨-, -, -, -, -, -, -, -, e0, e1, -⟩ := idx_facts1 t
  funext y
  show V c 𝔞r (((cfg1.win 4).blk t).view.emb y) = V c 𝔞r y
  refine congrArg _ (funext fun a => Fin.ext ?_)
  match a with
  | ⟨0, _⟩ => show win1_4.index t (0 : Fin 2) * (𝕊w).size 0 + 1 * (y 0).val = (y 0).val; rw [e0]; omega
  | ⟨1, _⟩ => show win1_4.index t (1 : Fin 2) * (𝕊w).size 1 + 1 * (y 1).val = (y 1).val; rw [e1]; omega
theorem rd1_5 (c : Dev nD) (t : Fin cfg1.N) : (iblk1 V c 5 t : Vec Ideal 𝕊b .f32) = (V c 𝔞b : FVec Ideal 𝕊b .f32) := by
  obtain ⟨-, -, -, -, -, -, -, -, -, -, e0, e1, -⟩ := idx_facts1 t
  funext y
  show V c 𝔞b (((cfg1.win 5).blk t).view.emb y) = V c 𝔞b y
  refine congrArg _ (funext fun a => Fin.ext ?_)
  match a with
  | ⟨0, _⟩ => show win1_5.index t (0 : Fin 2) * (𝕊b).size 0 + 1 * (y 0).val = (y 0).val; rw [e0]; omega
  | ⟨1, _⟩ => show win1_5.index t (1 : Fin 2) * (𝕊b).size 1 + 1 * (y 1).val = (y 1).val; rw [e1]; omega

/-! ## What a point writes back -/

/-- The layer of the arrays as the region finds them. -/
abbrev G1 (c : Dev nD) : FVec Ideal 𝔸o .f32 := 𝔾 (V c 𝔞s) (V c 𝔞h) (V c 𝔞c) (V c 𝔞l) (V c 𝔞r) (V c 𝔞b)

/-- WHAT POINT `t` WRITES BACK is block `t` of the layer of the arrays as the region finds them. -/
theorem flushed1_6_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero Lay.off_zero]
  simp only [View.ld_unit_zero (S := 𝕊n) Lay.off_zero, View.ld_unit_zero (S := 𝕊c) Lay.off_zero,
    View.ld_unit_zero (S := 𝕊w) Lay.off_zero, View.ld_unit_zero (S := 𝕊b) Lay.off_zero]
  obtain ⟨-, -, -, -, -, -, -, -, -, -, -, -, e0, e1⟩ := idx_facts1 t
  have ht : t.val < 32 := lt_of_lt_of_eq t.isLt N_1
  funext j
  obtain ⟨p, q, rfl⟩ : ∃ (p : Fin 2000) (q : Fin 𝕟q), j = ix2 p q := ⟨j 0, j 1, eq_ix2 j⟩
  have hemb : ((cfg1.win 6).blk t).view.emb (ix2 p q) = (ix2 (⟨t.val * 2000 + p.val, by omega⟩ : Fin 64000) q : (𝔸o).Idx) := by
    funext a; apply Fin.ext
    match a with
    | ⟨0, _⟩ => show win1_6.index t (0 : Fin 2) * 2000 + 1 * p.val = t.val * 2000 + p.val; omega
    | ⟨1, _⟩ => show win1_6.index t (1 : Fin 2) * 𝕟q + 1 * q.val = q.val; omega
  show k1_pay1 _ _ _ _ _ _ (ix2 p q) = G1 V c (((cfg1.win 6).blk t).view.emb (ix2 p q))
  rw [hemb]
  exact k1_pay1_point _ _ _ _ _ _ _ _ _ _ _ _ p q _ (fun k => rd1_0 V c t p k _ rfl) (fun k => rd1_1 V c t p k _ rfl)
    (rd1_2 V c t p _ rfl) (rd1_3 V c t) (rd1_4 V c t) (rd1_5 V c t)

/-! ## The blocks cover the array -/

/-- An index of the array is in point `t`'s block iff each coordinate is in the block's range on its axis. -/
theorem mem_blk1 (t : Fin cfg1.N) (i : (𝔸o).Idx) :
    i ∈ ((cfg1.win 6).blk t).view.set ↔ ∀ a : Fin 2, win1_6.index t a * (𝕊o).size a ≤ (i a).val ∧ (i a).val < win1_6.index t a * (𝕊o).size a + (𝕊o).size a := by
  show i ∈ ((View.whole 𝔞o).slice (win1_6.rect t)).set ↔ _
  rw [View.set_slice_whole, Rect.mem_set_unit]
  exact Iff.rfl

/-- Row `r` of the array is in the block of point `r / 2000`. -/
theorem covered1 (i : (𝔸o).Idx) : ∃ t : Fin cfg1.N, (cfg1.win 6).flush t = true ∧ i ∈ ((cfg1.win 6).blk t).view.set := by
  have hi0 : (i 0).val < 64000 := (i 0).isLt
  have hi1 : (i 1).val < 𝕟q := (i 1).isLt
  have hN : grid1.N = 32 := N_1
  have hlt : (i 0).val / 2000 < cfg1.N := by show _ < grid1.N; rw [hN]; omega
  obtain ⟨-, -, -, -, -, -, -, -, -, -, -, -, e0, e1⟩ := idx_facts1 ⟨(i 0).val / 2000, hlt⟩
  refine ⟨⟨(i 0).val / 2000, hlt⟩, flush1_6 _, ?_⟩
  rw [mem_blk1]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hlt⟩ (1 : Fin 2) * 𝕟q ≤ (i 1).val ∧ (i 1).val < win1_6.index ⟨(i 0).val / 2000, hlt⟩ (1 : Fin 2) * 𝕟q + 𝕟q
    rw [e1]; omega

/-! ## The array after the region -/

/-- THE OUTPUT ARRAY after the region's 32 points is the layer of the arrays as the region finds them. -/
theorem arrAt1_6 (c : Dev nD) : (dat1 (F := Ideal) V c).arrAt 6 cfg1.N = 𝔾 (V c 𝔞s) (V c 𝔞h) (V c 𝔞c) (V c 𝔞l) (V c 𝔞r) (V c 𝔞b) :=
  (dat1 V c).arrAt_eq_of_cover 6 (G1 V c) (fun t _ => flushed1_6_eq V c t) covered1

end Cert.KernelIdeal.Fr

end
-- ==== Proof.KI.PayA2.lean ====
/-
  REGION 2's payload read at an index, over the extended reals: what the body stores at row `p`, feature `q` of the
  output block, as a function of the six loaded blocks; and the same against the layer's specification.
-/
import proofs.«422203_j1219770712268_1_alg».proof.Proof.KI.LayDot

noncomputable section

namespace Cert.KernelIdeal.Fr

open Idealize.ShloMosaic Idealize.ShloMosaic.ValueIdx
open Cert.KernelIdeal Cert.KernelIdeal.Gen
open scoped BigOperators

/-- The layer's payload at `(p, q)` over the extended reals: the mean-aggregated row `p` (the sum block over the count
    clamped below at one) against row `q` of the first weight matrix, plus row `p` of the own-feature block against
    row `q` of the second, plus the bias at `q`, clamped below at zero. -/
theorem k2_pay1_apply (x0 x1 : Vec Ideal S2000x64 .f32) (x2 : Vec Ideal S2000x1 .f32) (x3 x4 : Vec Ideal S64x64 .f32)
    (x5 : Vec Ideal S1x64 .f32) (p : Fin 2000) (q : Fin 64) :
    k2_pay1 x0 x2 x3 x1 x4 x5 (ix2 p q)
      = max (((∑ k : Fin 64, Ideal.div (x0 (ix2 p k)) (max (x2 (ix2 p (0 : Fin 1))) Cert.Spec.f1) * x3 (ix2 q k))
          + ∑ k : Fin 64, x1 (ix2 p k) * x4 (ix2 q k)) + x5 (ix2 (0 : Fin 1) q)) Cert.Spec.f0 := by
  unfold k2_pay1
  simp only [shapeCast_self]
  rw [maximumf_apply, addf_apply, addf_apply, Lay.dot64T_apply, Lay.dot64T_apply, broadcastTo_1b_ab_apply]
  simp only [divf_apply, Lay.broadcastTo_a1_ab_apply, maximumf_apply, broadcast_apply]
  rfl

/-- The same against the layer's specification: when the loaded node blocks are rows `n` of the arrays `s`, `h`, `cnt`
    at row `p`, and the loaded weights and bias are the arrays `Wl`, `Wr`, `b`, the payload at `(p, q)` is the layer at
    node `n`, feature `q`. -/
theorem k2_pay1_point (x0 x1 : Vec Ideal S2000x64 .f32) (x2 : Vec Ideal S2000x1 .f32) (x3 x4 : Vec Ideal S64x64 .f32)
    (x5 : Vec Ideal S1x64 .f32) (s h : FVec Ideal S64000x64 .f32) (cnt : FVec Ideal S64000x1 .f32)
    (Wl Wr : FVec Ideal S64x64 .f32) (b : FVec Ideal S1x64 .f32) (p : Fin 2000) (q : Fin 64) (n : Fin 64000)
    (h0 : ∀ k : Fin 64, x0 (ix2 p k) = s (ix2 n k)) (h1 : ∀ k : Fin 64, x1 (ix2 p k) = h (ix2 n k))
    (h2 : x2 (ix2 p (0 : Fin 1)) = cnt (ix2 n (0 : Fin 1))) (h3 : x3 = Wl) (h4 : x4 = Wr) (h5 : x5 = b) :
    k2_pay1 x0 x2 x3 x1 x4 x5 (ix2 p q) = Cert.Spec.lay64 s h cnt Wl Wr b (ix2 n q) := by
  subst h3 h4 h5
  rw [k2_pay1_apply, h2]
  simp only [h0, h1]
  rfl

end Cert.KernelIdeal.Fr

end
-- ==== Proof.KI.ValA2.lean ====
/-
  REGION 2's VALUE over the extended reals: after the region's 32 points its output array is the layer
  (the specification's `lay64`) of the six arrays the region's input windows stage, as the region finds them.
  Point `t` writes back block `t` of that layer: the body's one store leaves the payload of the six loaded blocks, each
  of which is read where the output's block sits (rows `t * 2000 …` of the three node arrays; the weights and the bias
  whole); row `r` of the array is in the block of point `r / 2000`, so the 32 blocks cover the array.
-/
import proofs.«422203_j1219770712268_1_alg».proof.Proof.KI.RegA2
import proofs.«422203_j1219770712268_1_alg».proof.Proof.KI.PayA2
import proofs.«422203_j1219770712268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

-- The block shapes of the region's windows (as in the region's body half), the shapes of the arrays they stage, the
-- sizes the index arithmetic meets, and the arrays themselves in window order.
local notation "𝕊n" => S2000x64
local notation "𝕊c" => S2000x1
local notation "𝕊w" => S64x64
local notation "𝕊b" => S1x64
local notation "𝕊o" => S2000x64
local notation "𝔸n" => S64000x64
local notation "𝔸c" => S64000x1
local notation "𝔸o" => S64000x64
local notation "𝕟q" => 64
local notation "𝔞s" => main_v55
local notation "𝔞h" => main_v45
local notation "𝔞c" => main_v9
local notation "𝔞l" => main_v57
local notation "𝔞r" => main_v59
local notation "𝔞b" => main_v62
local notation "𝔞o" => main_v63
local notation "𝔾" => Cert.Spec.lay64

variable (V : (c : Dev nD) → (b : Ref sig .tc) → Buf (Elt Ideal) ((c : Thread nD τ).loc b))

/-! ## The index maps over the grid -/

/-- The printed index maps, decided over the 32 points: the three node-block windows and the output move one block
    along the rows per point; the weight and bias windows stay at block zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The input blocks, read where the output's block sits -/

/-- Row `p` of the sum block at point `t` is row `t * 2000 + p` of the sum array; -/
theorem rd2_0 (c : Dev nD) (t : Fin cfg2.N) (p : Fin 2000) (k : Fin 64) (n : Fin 64000) (hn : n.val = t.val * 2000 + p.val) :
    (iblk2 V c 0 t : Vec Ideal 𝕊n .f32) (ix2 p k) = (V c 𝔞s : FVec Ideal 𝔸n .f32) (ix2 n k) := by
  obtain ⟨e0, e1, -⟩ := idx_facts2 t
  show V c 𝔞s (((cfg2.win 0).blk t).view.emb (ix2 p k)) = V c 𝔞s (ix2 n k)
  refine congrArg _ (funext fun a => Fin.ext ?_)
  match a with
  | ⟨0, _⟩ => show win2_0.index t (0 : Fin 2) * 2000 + 1 * p.val = n.val; omega
  | ⟨1, _⟩ => show win2_0.index t (1 : Fin 2) * 64 + 1 * k.val = k.val; omega
/-- of the own-feature block likewise; -/
theorem rd2_1 (c : Dev nD) (t : Fin cfg2.N) (p : Fin 2000) (k : Fin 64) (n : Fin 64000) (hn : n.val = t.val * 2000 + p.val) :
    (iblk2 V c 1 t : Vec Ideal 𝕊n .f32) (ix2 p k) = (V c 𝔞h : FVec Ideal 𝔸n .f32) (ix2 n k) := by
  obtain ⟨-, -, e0, e1, -⟩ := idx_facts2 t
  show V c 𝔞h (((cfg2.win 1).blk t).view.emb (ix2 p k)) = V c 𝔞h (ix2 n k)
  refine congrArg _ (funext fun a => Fin.ext ?_)
  match a with
  | ⟨0, _⟩ => show win2_1.index t (0 : Fin 2) * 2000 + 1 * p.val = n.val; omega
  | ⟨1, _⟩ => show win2_1.index t (1 : Fin 2) * 64 + 1 * k.val = k.val; omega
/-- of the count block likewise. -/
theorem rd2_2 (c : Dev nD) (t : Fin cfg2.N) (p : Fin 2000) (n : Fin 64000) (hn : n.val = t.val * 2000 + p.val) :
    (iblk2 V c 2 t : Vec Ideal 𝕊c .f32) (ix2 p (0 : Fin 1)) = (V c 𝔞c : FVec Ideal 𝔸c .f32) (ix2 n (0 : Fin 1)) := by
  obtain ⟨-, -, -, -, e0, e1, -⟩ := idx_facts2 t
  show V c 𝔞c (((cfg2.win 2).blk t).view.emb (ix2 p (0 : Fin 1))) = V c 𝔞c (ix2 n (0 : Fin 1))
  refine congrArg _ (funext fun a => Fin.ext ?_)
  match a with
  | ⟨0, _⟩ => show win2_2.index t (0 : Fin 2) * 2000 + 1 * p.val = n.val; omega
  | ⟨1, _⟩ => show win2_2.index t (1 : Fin 2) * 1 + 1 * 0 = 0; omega
/-- The weight and bias blocks are their whole arrays at every point. -/
theorem rd2_3 (c : Dev nD) (t : Fin cfg2.N) : (iblk2 V c 3 t : Vec Ideal 𝕊w .f32) = (V c 𝔞l : FVec Ideal 𝕊w .f32) := by
  obtain ⟨-, -, -, -, -, -, e0, e1, -⟩ := idx_facts2 t
  funext y
  show V c 𝔞l (((cfg2.win 3).blk t).view.emb y) = V c 𝔞l y
  refine congrArg _ (funext fun a => Fin.ext ?_)
  match a with
  | ⟨0, _⟩ => show win2_3.index t (0 : Fin 2) * (𝕊w).size 0 + 1 * (y 0).val = (y 0).val; rw [e0]; omega
  | ⟨1, _⟩ => show win2_3.index t (1 : Fin 2) * (𝕊w).size 1 + 1 * (y 1).val = (y 1).val; rw [e1]; omega
theorem rd2_4 (c : Dev nD) (t : Fin cfg2.N) : (iblk2 V c 4 t : Vec Ideal 𝕊w .f32) = (V c 𝔞r : FVec Ideal 𝕊w .f32) := by
  obtain ⟨-, -, -, -, -, -, -, -, e0, e1, -⟩ := idx_facts2 t
  funext y
  show V c 𝔞r (((cfg2.win 4).blk t).view.emb y) = V c 𝔞r y
  refine congrArg _ (funext fun a => Fin.ext ?_)
  match a with
  | ⟨0, _⟩ => show win2_4.index t (0 : Fin 2) * (𝕊w).size 0 + 1 * (y 0).val = (y 0).val; rw [e0]; omega
  | ⟨1, _⟩ => show win2_4.index t (1 : Fin 2) * (𝕊w).size 1 + 1 * (y 1).val = (y 1).val; rw [e1]; omega
theorem rd2_5 (c : Dev nD) (t : Fin cfg2.N) : (iblk2 V c 5 t : Vec Ideal 𝕊b .f32) = (V c 𝔞b : FVec Ideal 𝕊b .f32) := by
  obtain ⟨-, -, -, -, -, -, -, -, -, -, e0, e1, -⟩ := idx_facts2 t
  funext y
  show V c 𝔞b (((cfg2.win 5).blk t).view.emb y) = V c 𝔞b y
  refine congrArg _ (funext fun a => Fin.ext ?_)
  match a with
  | ⟨0, _⟩ => show win2_5.index t (0 : Fin 2) * (𝕊b).size 0 + 1 * (y 0).val = (y 0).val; rw [e0]; omega
  | ⟨1, _⟩ => show win2_5.index t (1 : Fin 2) * (𝕊b).size 1 + 1 * (y 1).val = (y 1).val; rw [e1]; omega

/-! ## What a point writes back -/

/-- The layer of the arrays as the region finds them. -/
abbrev G2 (c : Dev nD) : FVec Ideal 𝔸o .f32 := 𝔾 (V c 𝔞s) (V c 𝔞h) (V c 𝔞c) (V c 𝔞l) (V c 𝔞r) (V c 𝔞b)

/-- WHAT POINT `t` WRITES BACK is block `t` of the layer of the arrays as the region finds them. -/
theorem flushed2_6_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero Lay.off_zero]
  simp only [View.ld_unit_zero (S := 𝕊n) Lay.off_zero, View.ld_unit_zero (S := 𝕊c) Lay.off_zero,
    View.ld_unit_zero (S := 𝕊w) Lay.off_zero, View.ld_unit_zero (S := 𝕊b) Lay.off_zero]
  obtain ⟨-, -, -, -, -, -, -, -, -, -, -, -, e0, e1⟩ := idx_facts2 t
  have ht : t.val < 32 := lt_of_lt_of_eq t.isLt N_2
  funext j
  obtain ⟨p, q, rfl⟩ : ∃ (p : Fin 2000) (q : Fin 𝕟q), j = ix2 p q := ⟨j 0, j 1, eq_ix2 j⟩
  have hemb : ((cfg2.win 6).blk t).view.emb (ix2 p q) = (ix2 (⟨t.val * 2000 + p.val, by omega⟩ : Fin 64000) q : (𝔸o).Idx) := by
    funext a; apply Fin.ext
    match a with
    | ⟨0, _⟩ => show win2_6.index t (0 : Fin 2) * 2000 + 1 * p.val = t.val * 2000 + p.val; omega
    | ⟨1, _⟩ => show win2_6.index t (1 : Fin 2) * 𝕟q + 1 * q.val = q.val; omega
  show k2_pay1 _ _ _ _ _ _ (ix2 p q) = G2 V c (((cfg2.win 6).blk t).view.emb (ix2 p q))
  rw [hemb]
  exact k2_pay1_point _ _ _ _ _ _ _ _ _ _ _ _ p q _ (fun k => rd2_0 V c t p k _ rfl) (fun k => rd2_1 V c t p k _ rfl)
    (rd2_2 V c t p _ rfl) (rd2_3 V c t) (rd2_4 V c t) (rd2_5 V c t)

/-! ## The blocks cover the array -/

/-- An index of the array is in point `t`'s block iff each coordinate is in the block's range on its axis. -/
theorem mem_blk2 (t : Fin cfg2.N) (i : (𝔸o).Idx) :
    i ∈ ((cfg2.win 6).blk t).view.set ↔ ∀ a : Fin 2, win2_6.index t a * (𝕊o).size a ≤ (i a).val ∧ (i a).val < win2_6.index t a * (𝕊o).size a + (𝕊o).size a := by
  show i ∈ ((View.whole 𝔞o).slice (win2_6.rect t)).set ↔ _
  rw [View.set_slice_whole, Rect.mem_set_unit]
  exact Iff.rfl

/-- Row `r` of the array is in the block of point `r / 2000`. -/
theorem covered2 (i : (𝔸o).Idx) : ∃ t : Fin cfg2.N, (cfg2.win 6).flush t = true ∧ i ∈ ((cfg2.win 6).blk t).view.set := by
  have hi0 : (i 0).val < 64000 := (i 0).isLt
  have hi1 : (i 1).val < 𝕟q := (i 1).isLt
  have hN : grid2.N = 32 := N_2
  have hlt : (i 0).val / 2000 < cfg2.N := by show _ < grid2.N; rw [hN]; omega
  obtain ⟨-, -, -, -, -, -, -, -, -, -, -, -, e0, e1⟩ := idx_facts2 ⟨(i 0).val / 2000, hlt⟩
  refine ⟨⟨(i 0).val / 2000, hlt⟩, flush2_6 _, ?_⟩
  rw [mem_blk2]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, hlt⟩ (1 : Fin 2) * 𝕟q ≤ (i 1).val ∧ (i 1).val < win2_6.index ⟨(i 0).val / 2000, hlt⟩ (1 : Fin 2) * 𝕟q + 𝕟q
    rw [e1]; omega

/-! ## The array after the region -/

/-- THE OUTPUT ARRAY after the region's 32 points is the layer of the arrays as the region finds them. -/
theorem arrAt2_6 (c : Dev nD) : (dat2 (F := Ideal) V c).arrAt 6 cfg2.N = 𝔾 (V c 𝔞s) (V c 𝔞h) (V c 𝔞c) (V c 𝔞l) (V c 𝔞r) (V c 𝔞b) :=
  (dat2 V c).arrAt_eq_of_cover 6 (G2 V c) (fun t _ => flushed2_6_eq V c t) covered2

end Cert.KernelIdeal.Fr

end
-- ==== Proof.KI.LayDot3.lean ====
/-
  The output layer's block product read at an index over the extended reals: a `[2000, 64]` block times a `[64, 2]`
  matrix, contracted over the block's columns and the matrix's rows, is at `(p, q)` the sum over `k` of the block at
  `(p, k)` times the matrix at `(k, q)`; against a `[2, 64]` weight matrix TRANSPOSED, times the weights at `(q, k)`.
-/
import proofs.«422203_j1219770712268_1_alg».proof.Proof.KI.LayDot

noncomputable section

namespace Cert.KernelIdeal.Fr.Lay

open Idealize.ShloMosaic Idealize.ShloMosaic.ValueIdx
open Cert.KernelIdeal Cert.KernelIdeal.Gen
open scoped BigOperators

/-! ## The operand indices of the two-column product -/

theorem lhs_dot2_0 (i : S2000x2.Idx) (q : dot_S2000x64_S64x2_S2000x2_1_0_0_1_n_n.contr.Idx) :
    (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch by decide), dif_pos (show (0 : Fin S2000x64.rank) ∈ dot_S2000x64_S64x2_S2000x2_1_0_0_1_n_n.lhsNonContracting by decide)]
  rfl
theorem lhs_dot2_1 (i : S2000x2.Idx) (q : dot_S2000x64_S64x2_S2000x2_1_0_0_1_n_n.contr.Idx) :
    (dot_S2000x64_S64x2_S2000x2_1_0_0_1_n_n.lhsIdx i q 1).val = (q ⟨0, by decide⟩).val :=
  dot_S2000x64_S64x2_S2000x2_1_0_0_1_n_n.lhsIdx_val_of_single rfl i q
theorem rhs_dot2_0 (i : S2000x2.Idx) (q : dot_S2000x64_S64x2_S2000x2_1_0_0_1_n_n.contr.Idx) :
    (dot_S2000x64_S64x2_S2000x2_1_0_0_1_n_n.rhsIdx i q 0).val = (q ⟨0, by decide⟩).val :=
  dot_S2000x64_S64x2_S2000x2_1_0_0_1_n_n.rhsIdx_val_of_single rfl i q
theorem rhs_dot2_1 (i : S2000x2.Idx) (q : dot_S2000x64_S64x2_S2000x2_1_0_0_1_n_n.contr.Idx) :
    (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch by decide), dif_pos (show (1 : Fin S64x2.rank) ∈ dot_S2000x64_S64x2_S2000x2_1_0_0_1_n_n.rhsNonContracting by decide)]
  rfl

/-! ## The product read at an index -/

/-- A `[2000, 64]` block times a `[64, 2]` matrix into the zero splat, at `(p, q)`: row `p` of the block against
    column `q` of the matrix, summed over the one contracted axis. -/
theorem dot2_apply (a : FVec Ideal S2000x64 .f32) (b : FVec Ideal S64x2 .f32) (p : Fin 2000) (q : Fin 2) :
    matmul dot_S2000x64_S64x2_S2000x2_1_0_0_1_n_n none a b (constant (F := Ideal) S2000x2 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x2_S2000x2_1_0_0_1_n_n 64 rfl rfl).symm]
  refine Finset.sum_congr rfl fun k _ => ?_
  have hk := ValueIdx.contrEquiv1_symm_val dot_S2000x64_S64x2_S2000x2_1_0_0_1_n_n 64 rfl rfl k
  have el : dot_S2000x64_S64x2_S2000x2_1_0_0_1_n_n.lhsIdx (ix2 p q) ((ValueIdx.contrEquiv1 dot_S2000x64_S64x2_S2000x2_1_0_0_1_n_n 64 rfl rfl).symm k) = ix2 p k := funext fun ax => Fin.ext (by
    match ax with
    | ⟨0, _⟩ => exact lhs_dot2_0 _ _
    | ⟨1, _⟩ => exact (lhs_dot2_1 _ _).trans hk)
  have er : dot_S2000x64_S64x2_S2000x2_1_0_0_1_n_n.rhsIdx (ix2 p q) ((ValueIdx.contrEquiv1 dot_S2000x64_S64x2_S2000x2_1_0_0_1_n_n 64 rfl rfl).symm k) = ix2 k q := funext fun ax => Fin.ext (by
    match ax with
    | ⟨0, _⟩ => exact (rhs_dot2_0 _ _).trans hk
    | ⟨1, _⟩ => exact rhs_dot2_1 _ _)
  rw [el, er]

/-- A `[2, 64]` weight matrix transposed reads, at `(k, q)`, the weights at `(q, k)`. -/
theorem transpose2_apply {α : Type} (w : S2x64.Idx → α) (k : Fin 64) (q : Fin 2) :
    transpose S64x2 [1, 0] w transposes_S2x64_p1_0_S64x2 (ix2 k q) = w (ix2 q k) :=
  transpose_ix2_apply (a := 2) (b := 64) w transposes_S2x64_p1_0_S64x2 k q

/-- The block times the TRANSPOSE of a `[2, 64]` weight matrix, at `(p, q)`: row `p` of the block against ROW `q` of
    the weights. -/
theorem dot2T_apply (a : FVec Ideal S2000x64 .f32) (w : FVec Ideal S2x64 .f32) (p : Fin 2000) (q : Fin 2) :
    matmul dot_S2000x64_S64x2_S2000x2_1_0_0_1_n_n none a (transpose S64x2 [1, 0] w transposes_S2x64_p1_0_S64x2)
        (constant (F := Ideal) S2000x2 .f32 0x00000000#32) (ix2 p q)
      = ∑ k : Fin 64, a (ix2 p k) * w (ix2 q k) := by
  rw [dot2_apply]
  refine Finset.sum_congr rfl fun k _ => ?_
  rw [transpose2_apply]

end Cert.KernelIdeal.Fr.Lay

end
-- ==== Proof.KI.PayA3.lean ====
/-
  The output layer's payload read at an index, over the extended reals: what the body stores at row `p`, feature `q`
  (of two) of the output block, as a function of the six loaded blocks; and the same against the layer's specification.
  Unlike the hidden layers there is no clamp.
-/
import proofs.«422203_j1219770712268_1_alg».proof.Proof.KI.LayDot3

noncomputable section

namespace Cert.KernelIdeal.Fr

open Idealize.ShloMosaic Idealize.ShloMosaic.ValueIdx
open Cert.KernelIdeal Cert.KernelIdeal.Gen
open scoped BigOperators

/-- The output layer's payload at `(p, q)` over the extended reals: the mean-aggregated row `p` (the sum block over the
    count clamped below at one) against row `q` of the first weight matrix, plus row `p` of the own-feature block against
    row `q` of the second, plus the bias at `q`. -/
theorem k3_pay1_apply (x0 x1 : Vec Ideal S2000x64 .f32) (x2 : Vec Ideal S2000x1 .f32) (x3 x4 : Vec Ideal S2x64 .f32)
    (x5 : Vec Ideal S1x2 .f32) (p : Fin 2000) (q : Fin 2) :
    k3_pay1 x0 x2 x3 x1 x4 x5 (ix2 p q)
      = ((∑ k : Fin 64, Ideal.div (x0 (ix2 p k)) (max (x2 (ix2 p (0 : Fin 1))) Cert.Spec.f1) * x3 (ix2 q k))
          + ∑ k : Fin 64, x1 (ix2 p k) * x4 (ix2 q k)) + x5 (ix2 (0 : Fin 1) q) := by
  unfold k3_pay1
  simp only [shapeCast_self]
  rw [addf_apply, addf_apply, Lay.dot2T_apply, Lay.dot2T_apply, broadcastTo_1b_ab_apply]
  simp only [divf_apply, Lay.broadcastTo_a1_ab_apply, maximumf_apply, broadcast_apply]
  rfl

/-- The same against the layer's specification: when the loaded node blocks are rows `n` of the arrays `s`, `h`, `cnt`
    at row `p`, and the loaded weights and bias are the arrays `Wl`, `Wr`, `b`, the payload at `(p, q)` is the output
    layer at node `n`, feature `q`. -/
theorem k3_pay1_point (x0 x1 : Vec Ideal S2000x64 .f32) (x2 : Vec Ideal S2000x1 .f32) (x3 x4 : Vec Ideal S2x64 .f32)
    (x5 : Vec Ideal S1x2 .f32) (s h : FVec Ideal S64000x64 .f32) (cnt : FVec Ideal S64000x1 .f32)
    (Wl Wr : FVec Ideal S2x64 .f32) (b : FVec Ideal S1x2 .f32) (p : Fin 2000) (q : Fin 2) (n : Fin 64000)
    (h0 : ∀ k : Fin 64, x0 (ix2 p k) = s (ix2 n k)) (h1 : ∀ k : Fin 64, x1 (ix2 p k) = h (ix2 n k))
    (h2 : x2 (ix2 p (0 : Fin 1)) = cnt (ix2 n (0 : Fin 1))) (h3 : x3 = Wl) (h4 : x4 = Wr) (h5 : x5 = b) :
    k3_pay1 x0 x2 x3 x1 x4 x5 (ix2 p q) = Cert.Spec.lay2 s h cnt Wl Wr b (ix2 n q) := by
  subst h3 h4 h5
  rw [k3_pay1_apply, h2]
  simp only [h0, h1]
  rfl

end Cert.KernelIdeal.Fr

end
-- ==== Proof.KI.ValA3.lean ====
/-
  REGION 3's VALUE over the extended reals: after the region's 32 points its output array is the layer
  (the specification's `lay2`) of the six arrays the region's input windows stage, as the region finds them.
  Point `t` writes back block `t` of that layer: the body's one store leaves the payload of the six loaded blocks, each
  of which is read where the output's block sits (rows `t * 2000 …` of the three node arrays; the weights and the bias
  whole); row `r` of the array is in the block of point `r / 2000`, so the 32 blocks cover the array.
-/
import proofs.«422203_j1219770712268_1_alg».proof.Proof.KI.RegA3
import proofs.«422203_j1219770712268_1_alg».proof.Proof.KI.PayA3
import proofs.«422203_j1219770712268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

-- The block shapes of the region's windows (as in the region's body half), the shapes of the arrays they stage, the
-- sizes the index arithmetic meets, and the arrays themselves in window order.
local notation "𝕊n" => S2000x64
local notation "𝕊c" => S2000x1
local notation "𝕊w" => S2x64
local notation "𝕊b" => S1x2
local notation "𝕊o" => S2000x2
local notation "𝔸n" => S64000x64
local notation "𝔸c" => S64000x1
local notation "𝔸o" => S64000x2
local notation "𝕟q" => 2
local notation "𝔞s" => main_v73
local notation "𝔞h" => main_v63
local notation "𝔞c" => main_v9
local notation "𝔞l" => main_arg6
local notation "𝔞r" => main_arg7
local notation "𝔞b" => main_v74
local notation "𝔞o" => main_v75
local notation "𝔾" => Cert.Spec.lay2

variable (V : (c : Dev nD) → (b : Ref sig .tc) → Buf (Elt Ideal) ((c : Thread nD τ).loc b))

/-! ## The index maps over the grid -/

/-- The printed index maps, decided over the 32 points: the three node-block windows and the output move one block
    along the rows per point; the weight and bias windows stay at block zero. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! ## The input blocks, read where the output's block sits -/

/-- Row `p` of the sum block at point `t` is row `t * 2000 + p` of the sum array; -/
theorem rd3_0 (c : Dev nD) (t : Fin cfg3.N) (p : Fin 2000) (k : Fin 64) (n : Fin 64000) (hn : n.val = t.val * 2000 + p.val) :
    (iblk3 V c 0 t : Vec Ideal 𝕊n .f32) (ix2 p k) = (V c 𝔞s : FVec Ideal 𝔸n .f32) (ix2 n k) := by
  obtain ⟨e0, e1, -⟩ := idx_facts3 t
  show V c 𝔞s (((cfg3.win 0).blk t).view.emb (ix2 p k)) = V c 𝔞s (ix2 n k)
  refine congrArg _ (funext fun a => Fin.ext ?_)
  match a with
  | ⟨0, _⟩ => show win3_0.index t (0 : Fin 2) * 2000 + 1 * p.val = n.val; omega
  | ⟨1, _⟩ => show win3_0.index t (1 : Fin 2) * 64 + 1 * k.val = k.val; omega
/-- of the own-feature block likewise; -/
theorem rd3_1 (c : Dev nD) (t : Fin cfg3.N) (p : Fin 2000) (k : Fin 64) (n : Fin 64000) (hn : n.val = t.val * 2000 + p.val) :
    (iblk3 V c 1 t : Vec Ideal 𝕊n .f32) (ix2 p k) = (V c 𝔞h : FVec Ideal 𝔸n .f32) (ix2 n k) := by
  obtain ⟨-, -, e0, e1, -⟩ := idx_facts3 t
  show V c 𝔞h (((cfg3.win 1).blk t).view.emb (ix2 p k)) = V c 𝔞h (ix2 n k)
  refine congrArg _ (funext fun a => Fin.ext ?_)
  match a with
  | ⟨0, _⟩ => show win3_1.index t (0 : Fin 2) * 2000 + 1 * p.val = n.val; omega
  | ⟨1, _⟩ => show win3_1.index t (1 : Fin 2) * 64 + 1 * k.val = k.val; omega
/-- of the count block likewise. -/
theorem rd3_2 (c : Dev nD) (t : Fin cfg3.N) (p : Fin 2000) (n : Fin 64000) (hn : n.val = t.val * 2000 + p.val) :
    (iblk3 V c 2 t : Vec Ideal 𝕊c .f32) (ix2 p (0 : Fin 1)) = (V c 𝔞c : FVec Ideal 𝔸c .f32) (ix2 n (0 : Fin 1)) := by
  obtain ⟨-, -, -, -, e0, e1, -⟩ := idx_facts3 t
  show V c 𝔞c (((cfg3.win 2).blk t).view.emb (ix2 p (0 : Fin 1))) = V c 𝔞c (ix2 n (0 : Fin 1))
  refine congrArg _ (funext fun a => Fin.ext ?_)
  match a with
  | ⟨0, _⟩ => show win3_2.index t (0 : Fin 2) * 2000 + 1 * p.val = n.val; omega
  | ⟨1, _⟩ => show win3_2.index t (1 : Fin 2) * 1 + 1 * 0 = 0; omega
/-- The weight and bias blocks are their whole arrays at every point. -/
theorem rd3_3 (c : Dev nD) (t : Fin cfg3.N) : (iblk3 V c 3 t : Vec Ideal 𝕊w .f32) = (V c 𝔞l : FVec Ideal 𝕊w .f32) := by
  obtain ⟨-, -, -, -, -, -, e0, e1, -⟩ := idx_facts3 t
  funext y
  show V c 𝔞l (((cfg3.win 3).blk t).view.emb y) = V c 𝔞l y
  refine congrArg _ (funext fun a => Fin.ext ?_)
  match a with
  | ⟨0, _⟩ => show win3_3.index t (0 : Fin 2) * (𝕊w).size 0 + 1 * (y 0).val = (y 0).val; rw [e0]; omega
  | ⟨1, _⟩ => show win3_3.index t (1 : Fin 2) * (𝕊w).size 1 + 1 * (y 1).val = (y 1).val; rw [e1]; omega
theorem rd3_4 (c : Dev nD) (t : Fin cfg3.N) : (iblk3 V c 4 t : Vec Ideal 𝕊w .f32) = (V c 𝔞r : FVec Ideal 𝕊w .f32) := by
  obtain ⟨-, -, -, -, -, -, -, -, e0, e1, -⟩ := idx_facts3 t
  funext y
  show V c 𝔞r (((cfg3.win 4).blk t).view.emb y) = V c 𝔞r y
  refine congrArg _ (funext fun a => Fin.ext ?_)
  match a with
  | ⟨0, _⟩ => show win3_4.index t (0 : Fin 2) * (𝕊w).size 0 + 1 * (y 0).val = (y 0).val; rw [e0]; omega
  | ⟨1, _⟩ => show win3_4.index t (1 : Fin 2) * (𝕊w).size 1 + 1 * (y 1).val = (y 1).val; rw [e1]; omega
theorem rd3_5 (c : Dev nD) (t : Fin cfg3.N) : (iblk3 V c 5 t : Vec Ideal 𝕊b .f32) = (V c 𝔞b : FVec Ideal 𝕊b .f32) := by
  obtain ⟨-, -, -, -, -, -, -, -, -, -, e0, e1, -⟩ := idx_facts3 t
  funext y
  show V c 𝔞b (((cfg3.win 5).blk t).view.emb y) = V c 𝔞b y
  refine congrArg _ (funext fun a => Fin.ext ?_)
  match a with
  | ⟨0, _⟩ => show win3_5.index t (0 : Fin 2) * (𝕊b).size 0 + 1 * (y 0).val = (y 0).val; rw [e0]; omega
  | ⟨1, _⟩ => show win3_5.index t (1 : Fin 2) * (𝕊b).size 1 + 1 * (y 1).val = (y 1).val; rw [e1]; omega

/-! ## What a point writes back -/

/-- The layer of the arrays as the region finds them. -/
abbrev G3 (c : Dev nD) : FVec Ideal 𝔸o .f32 := 𝔾 (V c 𝔞s) (V c 𝔞h) (V c 𝔞c) (V c 𝔞l) (V c 𝔞r) (V c 𝔞b)

/-- WHAT POINT `t` WRITES BACK is block `t` of the layer of the arrays as the region finds them. -/
theorem flushed3_6_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero Lay.off_zero]
  simp only [View.ld_unit_zero (S := 𝕊n) Lay.off_zero, View.ld_unit_zero (S := 𝕊c) Lay.off_zero,
    View.ld_unit_zero (S := 𝕊w) Lay.off_zero, View.ld_unit_zero (S := 𝕊b) Lay.off_zero]
  obtain ⟨-, -, -, -, -, -, -, -, -, -, -, -, e0, e1⟩ := idx_facts3 t
  have ht : t.val < 32 := lt_of_lt_of_eq t.isLt N_3
  funext j
  obtain ⟨p, q, rfl⟩ : ∃ (p : Fin 2000) (q : Fin 𝕟q), j = ix2 p q := ⟨j 0, j 1, eq_ix2 j⟩
  have hemb : ((cfg3.win 6).blk t).view.emb (ix2 p q) = (ix2 (⟨t.val * 2000 + p.val, by omega⟩ : Fin 64000) q : (𝔸o).Idx) := by
    funext a; apply Fin.ext
    match a with
    | ⟨0, _⟩ => show win3_6.index t (0 : Fin 2) * 2000 + 1 * p.val = t.val * 2000 + p.val; omega
    | ⟨1, _⟩ => show win3_6.index t (1 : Fin 2) * 𝕟q + 1 * q.val = q.val; omega
  show k3_pay1 _ _ _ _ _ _ (ix2 p q) = G3 V c (((cfg3.win 6).blk t).view.emb (ix2 p q))
  rw [hemb]
  exact k3_pay1_point _ _ _ _ _ _ _ _ _ _ _ _ p q _ (fun k => rd3_0 V c t p k _ rfl) (fun k => rd3_1 V c t p k _ rfl)
    (rd3_2 V c t p _ rfl) (rd3_3 V c t) (rd3_4 V c t) (rd3_5 V c t)

/-! ## The blocks cover the array -/

/-- An index of the array is in point `t`'s block iff each coordinate is in the block's range on its axis. -/
theorem mem_blk3 (t : Fin cfg3.N) (i : (𝔸o).Idx) :
    i ∈ ((cfg3.win 6).blk t).view.set ↔ ∀ a : Fin 2, win3_6.index t a * (𝕊o).size a ≤ (i a).val ∧ (i a).val < win3_6.index t a * (𝕊o).size a + (𝕊o).size a := by
  show i ∈ ((View.whole 𝔞o).slice (win3_6.rect t)).set ↔ _
  rw [View.set_slice_whole, Rect.mem_set_unit]
  exact Iff.rfl

/-- Row `r` of the array is in the block of point `r / 2000`. -/
theorem covered3 (i : (𝔸o).Idx) : ∃ t : Fin cfg3.N, (cfg3.win 6).flush t = true ∧ i ∈ ((cfg3.win 6).blk t).view.set := by
  have hi0 : (i 0).val < 64000 := (i 0).isLt
  have hi1 : (i 1).val < 𝕟q := (i 1).isLt
  have hN : grid3.N = 32 := N_3
  have hlt : (i 0).val / 2000 < cfg3.N := by show _ < grid3.N; rw [hN]; omega
  obtain ⟨-, -, -, -, -, -, -, -, -, -, -, -, e0, e1⟩ := idx_facts3 ⟨(i 0).val / 2000, hlt⟩
  refine ⟨⟨(i 0).val / 2000, hlt⟩, flush3_6 _, ?_⟩
  rw [mem_blk3]
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, hlt⟩ (1 : Fin 2) * 𝕟q ≤ (i 1).val ∧ (i 1).val < win3_6.index ⟨(i 0).val / 2000, hlt⟩ (1 : Fin 2) * 𝕟q + 𝕟q
    rw [e1]; omega

/-! ## The array after the region -/

/-- THE OUTPUT ARRAY after the region's 32 points is the layer of the arrays as the region finds them. -/
theorem arrAt3_6 (c : Dev nD) : (dat3 (F := Ideal) V c).arrAt 6 cfg3.N = 𝔾 (V c 𝔞s) (V c 𝔞h) (V c 𝔞c) (V c 𝔞l) (V c 𝔞r) (V c 𝔞b) :=
  (dat3 V c).arrAt_eq_of_cover 6 (G3 V c) (fun t _ => flushed3_6_eq V c t) covered3

end Cert.KernelIdeal.Fr

end
-- ==== Proof.KI.Pay4.lean ====
/- The read-out kernel's payloads read at an index, at the ideal (extended-real) instance.
   The staged graph-id block is compared against the column number, giving a 6400 x 128 matrix of
   zeros and ones; contracting its row axis with the score block adds, to graph g's accumulator row,
   the scores of the block's nodes whose id is g; its column sums add their number to the count;
   the last step divides the accumulated sums by the count clamped at one from below. -/
import proofs.«422203_j1219770712268_1_alg».proof.Proof.Gen.KernelIdeal.Skeleton
import proofs.«422203_j1219770712268_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Cert.KernelIdeal Cert.KernelIdeal.Gen ValueIdx
open scoped BigOperators

/-! ## Two column forms of the layout operations -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The zero stores -/

theorem pay1_apply (i : S128x2.Idx) : k4_pay1 (F := Ideal) i = Cert.Spec.f0 := by
  unfold k4_pay1
  rw [shapeCast_self]
  rfl

theorem pay2_apply (i : S128x1.Idx) : k4_pay2 (F := Ideal) i = Cert.Spec.f0 := by
  unfold k4_pay2
  rw [shapeCast_self]
  rfl

/-! ## The matrix of zeros and ones -/

/-- The word of a comparison for equality, widened and read as a signed integer, is 1 or 0. -/
theorem sitofp_extui_cmpi_eq (w v : BitVec 32) :
    FloatOps.sitofp (F := Ideal) .f32 ((IntOp.cmpi .eq w v).setWidth 32) = if w = v then 1 else 0 := by
  show (((((IntOp.cmpi .eq w v).setWidth 32).toInt : ℤ) : ℝ) : EReal) = _
  by_cases h : w = v
  · subst h
    rw [if_pos rfl]
    have hc : IntOp.cmpi .eq w w = 1#1 := by
      show BitVec.ofBool (w == w) = 1#1
      rw [beq_self_eq_true]; rfl
    rw [hc]
    simp
  · rw [if_neg h]
    have hc : IntOp.cmpi .eq w v = 0#1 := by
      show BitVec.ofBool (w == v) = 0#1
      rw [beq_false_of_ne h]; rfl
    rw [hc]
    simp

/-- Entry (r, g) of the matrix: 1 when node r's id names graph g, else 0. -/
theorem pay3_apply (b : Vec Ideal S6400x1 .i32) (r : Fin 6400) (g : Fin 128) :
    k4_pay3 (F := Ideal) b (ix2 r g) = Cert.Spec.oneHot (b (ix2 r 0)) g := by
  unfold k4_pay3 Cert.Spec.oneHot
  rw [shapeCast_self]
  rw [sitofp_apply, extui_apply]
  show FloatOps.sitofp (F := Ideal) .f32 ((IntOp.cmpi .eq
    (broadcastTo S6400x128 b broadcasts_S6400x1_S6400x128 (ix2 r g))
    (iota .tc S6400x128 32 [1] iota_S6400x128_d1_w32 (ix2 r g))).setWidth 32) = _
  rw [broadcastTo_a1_ab_apply, iota_single_apply, sitofp_extui_cmpi_eq]

/-! ## The contraction's operand indices -/

theorem lhs_ro_0 (i : S128x2.Idx) (q : dot_S6400x128_S6400x2_S128x2_0_0_1_1_n_n.contr.Idx) :
    (dot_S6400x128_S6400x2_S128x2_0_0_1_1_n_n.lhsIdx i q 0).val = (q ⟨0, by decide⟩).val :=
  dot_S6400x128_S6400x2_S128x2_0_0_1_1_n_n.lhsIdx_val_of_single rfl i q
theorem lhs_ro_1 (i : S128x2.Idx) (q : dot_S6400x128_S6400x2_S128x2_0_0_1_1_n_n.contr.Idx) :
    (dot_S6400x128_S6400x2_S128x2_0_0_1_1_n_n.lhsIdx i q 1).val = (i 0).val := by
  unfold DotDims.lhsIdx
  rw [dif_neg (show ¬(1 : Fin S6400x128.rank) ∈ dot_S6400x128_S6400x2_S128x2_0_0_1_1_n_n.lhsBatch by decide), dif_pos (show (1 : Fin S6400x128.rank) ∈ dot_S6400x128_S6400x2_S128x2_0_0_1_1_n_n.lhsNonContracting by decide)]
  rfl
theorem rhs_ro_0 (i : S128x2.Idx) (q : dot_S6400x128_S6400x2_S128x2_0_0_1_1_n_n.contr.Idx) :
    (dot_S6400x128_S6400x2_S128x2_0_0_1_1_n_n.rhsIdx i q 0).val = (q ⟨0, by decide⟩).val :=
  dot_S6400x128_S6400x2_S128x2_0_0_1_1_n_n.rhsIdx_val_of_single rfl i q
theorem rhs_ro_1 (i : S128x2.Idx) (q : dot_S6400x128_S6400x2_S128x2_0_0_1_1_n_n.contr.Idx) :
    (dot_S6400x128_S6400x2_S128x2_0_0_1_1_n_n.rhsIdx i q 1).val = (i 1).val := by
  unfold DotDims.rhsIdx
  rw [dif_neg (show ¬(1 : Fin S6400x2.rank) ∈ dot_S6400x128_S6400x2_S128x2_0_0_1_1_n_n.rhsBatch by decide), dif_pos (show (1 : Fin S6400x2.rank) ∈ dot_S6400x128_S6400x2_S128x2_0_0_1_1_n_n.rhsNonContracting by decide)]
  rfl

/-! ## The accumulator, the count and the quotient -/

/-- Graph g's accumulator row gains the scores of the block's nodes whose id is g. -/
theorem pay4_apply (b : Vec Ideal S6400x1 .i32) (x : Vec Ideal S6400x2 .f32) (a : Vec Ideal S128x2 .f32)
    (g : Fin 128) (d : Fin 2) :
    k4_pay4 (F := Ideal) b x a (ix2 g d)
      = a (ix2 g d) + ∑ r : Fin 6400, Cert.Spec.oneHot (b (ix2 r 0)) g * x (ix2 r d) := by
  unfold k4_pay4
  rw [shapeCast_self, shapeCast_self, addf_apply]
  refine congrArg (a (ix2 g d) + ·) ?_
  simp only [matmul]
  rw [Ideal.matmul_constant_zero_apply,
    ← Equiv.sum_comp (contrEquiv1 dot_S6400x128_S6400x2_S128x2_0_0_1_1_n_n 6400 rfl rfl).symm]
  refine Finset.sum_congr rfl fun r _ => ?_
  have hr := contrEquiv1_symm_val dot_S6400x128_S6400x2_S128x2_0_0_1_1_n_n 6400 rfl rfl r
  have el : dot_S6400x128_S6400x2_S128x2_0_0_1_1_n_n.lhsIdx (ix2 g d) ((contrEquiv1 dot_S6400x128_S6400x2_S128x2_0_0_1_1_n_n 6400 rfl rfl).symm r)
      = ix2 r g := funext fun ax => Fin.ext (by
    match ax with
    | ⟨0, _⟩ => exact (lhs_ro_0 _ _).trans hr
    | ⟨1, _⟩ => exact lhs_ro_1 _ _)
  have er : dot_S6400x128_S6400x2_S128x2_0_0_1_1_n_n.rhsIdx (ix2 g d) ((contrEquiv1 dot_S6400x128_S6400x2_S128x2_0_0_1_1_n_n 6400 rfl rfl).symm r)
      = ix2 r d := funext fun ax => Fin.ext (by
    match ax with
    | ⟨0, _⟩ => exact (rhs_ro_0 _ _).trans hr
    | ⟨1, _⟩ => exact rhs_ro_1 _ _)
  rw [el, er, pay3_apply]

/-- Graph g's count gains the number of the block's nodes whose id is g. -/
theorem pay5_apply (b : Vec Ideal S6400x1 .i32) (k : Vec Ideal S128x1 .f32) (g : Fin 128) :
    k4_pay5 (F := Ideal) b k (ix2 g 0)
      = k (ix2 g 0) + ∑ r : Fin 6400, Cert.Spec.oneHot (b (ix2 r 0)) g := by
  unfold k4_pay5
  rw [shapeCast_self, addf_apply]
  refine congrArg (k (ix2 g 0) + ·) ?_
  rw [shapeCast_a_a1_apply]
  refine (Ideal.multiReduction_add_single (k4_pay3 (F := Ideal) b) 0x00000000#32 reduces_S6400x128_S128
    (.inl rfl) rfl (ix1 g)).trans ?_
  show ∑ r : Fin 6400, k4_pay3 (F := Ideal) b (reduces_S6400x128_S128.lift (ix1 g) r) = _
  refine Finset.sum_congr rfl fun r _ => ?_
  have e : reduces_S6400x128_S128.lift (ix1 g) r = ix2 r g := funext fun ax => Fin.ext (by
    match ax with
    | ⟨0, _⟩ => rfl
    | ⟨1, _⟩ => rfl)
  rw [e, pay3_apply]

/-- The read-out: the accumulated sums over the count clamped at one from below. -/
theorem pay6_apply (a : Vec Ideal S128x2 .f32) (k : Vec Ideal S128x1 .f32) (g : Fin 128) (d : Fin 2) :
    k4_pay6 (F := Ideal) a k (ix2 g d)
      = Ideal.div (a (ix2 g d)) (max (k (ix2 g 0)) Cert.Spec.f1) := by
  unfold k4_pay6
  rw [divf_apply, broadcastTo_a1_ab_apply, maximumf_apply, broadcast_apply]
  rfl

end Cert.KernelIdeal.Fr

end
-- ==== Proof.KI.SumSplit.lean ====
/- Ten blocks of 6400 make 64000: a sum over 64000 nodes is the sum, block by block, of the
   blocks' sums; and a sequence of partial sums that starts at the first block's sum and adds one
   block's sum at each step ends, after the tenth block, at the whole sum. Stated over any
   commutative additive monoid (the extended reals are one). -/
import Mathlib.Algebra.BigOperators.Fin
import Mathlib.Logic.Equiv.Fin.Basic

namespace Cert.KernelIdeal.Fr

open scoped BigOperators

/-- Position r of block t is a node. -/
theorem blk_lt {t r : ℕ} (ht : t < 10) (hr : r < 6400) : 6400 * t + r < 64000 := by omega

variable {M : Type*} [AddCommMonoid M]

/-- The sum over the nodes, block by block. -/
theorem sum_eq_sum_blocks (φ : Fin 64000 → M) :
    ∑ n : Fin 64000, φ n = ∑ t : Fin 10, ∑ r : Fin 6400, φ ⟨6400 * t.val + r.val, blk_lt t.isLt r.isLt⟩ := by
  have e : ∑ n : Fin 64000, φ n = ∑ p : Fin 10 × Fin 6400, φ (finProdFinEquiv p) :=
    (Equiv.sum_comp (finProdFinEquiv (m := 10) (n := 6400)) φ).symm
  rw [e, Fintype.sum_prod_type]
  refine Finset.sum_congr rfl fun t _ => Finset.sum_congr rfl fun r _ => congrArg φ (Fin.ext ?_)
  show r.val + 6400 * t.val = 6400 * t.val + r.val
  omega

/-- Partial sums over the blocks: the first is block 0's sum, each later one adds its block's sum;
    the one after block 9 is the sum over all nodes. (`N` is the number of blocks, known to be 10.) -/
theorem partial_sums_last {N : ℕ} (hN : N = 10) (φ : Fin 64000 → M) (S : (n : ℕ) → n < N → M)
    (h0 : ∀ h : 0 < N, S 0 h = ∑ r : Fin 6400, φ ⟨6400 * 0 + r.val, blk_lt (hN ▸ h) r.isLt⟩)
    (hs : ∀ (n : ℕ) (h : n + 1 < N), S (n + 1) h
      = S n (Nat.lt_of_succ_lt h) + ∑ r : Fin 6400, φ ⟨6400 * (n + 1) + r.val, blk_lt (hN ▸ h) r.isLt⟩) :
    S 9 (by omega) = ∑ n : Fin 64000, φ n := by
  subst hN
  have key : ∀ (n : ℕ) (h : n < 10), S n h
      = ∑ t ∈ Finset.range (n + 1), if ht : t < 10 then ∑ r : Fin 6400, φ ⟨6400 * t + r.val, blk_lt ht r.isLt⟩ else 0 := by
    intro n
    induction n with
    | zero => intro h; rw [h0 h, Finset.sum_range_one, dif_pos h]
    | succ n ih => intro h; rw [hs n h, ih (Nat.lt_of_succ_lt h), Finset.sum_range_succ _ (n + 1), dif_pos h]
  rw [key 9 (by omega), sum_eq_sum_blocks,
    ← Fin.sum_univ_eq_sum_range (fun t => if ht : t < 10 then ∑ r : Fin 6400, φ ⟨6400 * t + r.val, blk_lt ht r.isLt⟩ else 0) 10]
  exact Finset.sum_congr rfl fun t _ => dif_pos t.isLt

end Cert.KernelIdeal.Fr
-- ==== Proof.KI.ValR4.lean ====
import proofs.«422203_j1219770712268_1_alg».proof.Proof.KI.RegR4
import proofs.«422203_j1219770712268_1_alg».proof.Proof.KI.Pay4
import proofs.«422203_j1219770712268_1_alg».proof.Proof.KI.SumSplit
import proofs.«422203_j1219770712268_1_alg».proof.Proof.Spec
import Idealize.ShloMosaic.Lib.Pipeline.Value
import Idealize.ShloMosaic.Lib.ValueIdx
import Idealize.ShloMosaic.PureOps.Ideal.Laws

/-! # Region 4, the readout: its value over the extended reals

The readout's two accumulators are running sums over the rows staged so far. After the body at grid point `n` the
sum accumulator holds, at graph `g` and feature `d`, the sum over the first `6400 (n + 1)` nodes of the node's
feature `d` where the node's graph id is `g`; the count accumulator holds the number of such nodes. Both follow by
induction on the point from what one update adds and from where a window's block sits in its array. After the last
point all `64000` nodes are in, the body stores sums over `max(counts, 1)`, and that one block — the whole output
array — is written back: the array ends holding the pooled means. -/

set_option maxRecDepth 16384

noncomputable section

namespace Cert.KernelIdeal.Fr

open Idealize.ShloMosaic Idealize.ShloMosaic.TcCoe Idealize.SL.Sem
open Idealize.ShloMosaic.Pipeline (Dat)
open Cert.KernelIdeal.Gen ValueIdx
open scoped BigOperators

variable (V : (c : Dev nD) → (b : Ref sig .tc) → Buf (Elt Ideal) ((c : Thread nD τ).loc b))

/-! ## Where a window's block sits in its array -/

/-- The two inputs' blocks move down the rows with the point and stay in column block 0; the output's block never
    moves. Decided over the grid. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)

/-- The arrays the two input windows stage, at their literal types. -/
abbrev harr (c : Dev nD) : Vec Ideal S64000x2 .f32 := V c main_v75
abbrev barr (c : Dev nD) : Vec Ideal S64000x1 .i32 := V c main_v4
/-- Their blocks at point `t`, at their literal types. -/
abbrev hblk (c : Dev nD) (t : Fin cfg4.N) : Vec Ideal S6400x2 .f32 := iblk4 V c 0 t
abbrev bblk (c : Dev nD) (t : Fin cfg4.N) : Vec Ideal S6400x1 .i32 := iblk4 V c 1 t

/-- Row `r` of the feature block at point `t` is row `6400 t + r` of the feature array. -/
theorem hblk_apply (c : Dev nD) (t : Fin cfg4.N) (r : Fin 6400) (d : Fin 2) (hp : 6400 * t.val + r.val < 64000) :
    hblk V c t (ix2 r d) = harr V c (ix2 ⟨6400 * t.val + r.val, hp⟩ d) := by
  obtain ⟨e0, e1⟩ := idx4_0 t
  unfold hblk iblk4
  rw [View.read_apply]
  show V c main_v75 _ = V c main_v75 _
  congr 1
  funext a
  apply Fin.ext
  match a with
  | ⟨0, _⟩ => show win4_0.index t (0 : Fin 2) * 6400 + 1 * r.val = 6400 * t.val + r.val; rw [e0]; omega
  | ⟨1, _⟩ => show win4_0.index t (1 : Fin 2) * 2 + 1 * d.val = d.val; rw [e1]; omega

/-- Row `r` of the graph-id block at point `t` is row `6400 t + r` of the graph-id array. -/
theorem bblk_apply (c : Dev nD) (t : Fin cfg4.N) (r : Fin 6400) (hp : 6400 * t.val + r.val < 64000) :
    bblk V c t (ix2 r 0) = barr V c (ix2 ⟨6400 * t.val + r.val, hp⟩ 0) := by
  obtain ⟨e0, e1⟩ := idx4_1 t
  unfold bblk iblk4
  rw [View.read_apply]
  show V c main_v4 _ = V c main_v4 _
  congr 1
  funext a
  apply Fin.ext
  match a with
  | ⟨0, _⟩ => show win4_1.index t (0 : Fin 2) * 6400 + 1 * r.val = 6400 * t.val + r.val; rw [e0]; omega
  | ⟨1, _⟩ => show win4_1.index t (1 : Fin 2) * 1 + 1 * (0 : Fin 1).val = (0 : Fin 1).val; rw [e1]; rfl

/-! ## The running sums -/

/-- The point `9` is a point of the grid. -/
theorem nine_lt : 9 < cfg4.N := by rw [show cfg4.N = 10 from N_4]; decide

/-- Graph `g`'s feature `d` in the sum accumulator after the last point: every node's feature `d` where the node's
    graph id is `g`, summed. By induction on the point: the zero store, then each point's update adds its block's
    rows, which are rows `6400 t + r` of the arrays. -/
theorem acc_last (c : Dev nD) (g : Fin 128) (d : Fin 2) :
    (scAt4 V c 9 nine_lt).1 (ix2 g d)
      = ∑ n : Fin 64000, Cert.Spec.oneHot (barr V c (ix2 n 0)) g * harr V c (ix2 n d) := by
  refine partial_sums_last (N := cfg4.N) N_4 (fun n => Cert.Spec.oneHot (barr V c (ix2 n 0)) g * harr V c (ix2 n d))
    (fun n h => (scAt4 V c n h).1 (ix2 g d)) ?_ ?_
  · intro h
    show (scAt4 V c 0 h).1 (ix2 g d) = _
    rw [scAt4_zero]
    show k4_pay4 (F := Ideal) (bblk V c ⟨0, h⟩) (hblk V c ⟨0, h⟩) zacc4 (ix2 g d) = _
    refine (pay4_apply (bblk V c ⟨0, h⟩) (hblk V c ⟨0, h⟩) zacc4 g d).trans ?_
    rw [show (zacc4 (F := Ideal)) (ix2 g d) = 0 from (pay1_apply _).trans Ideal.ofBits_zero_f32, zero_add]
    refine Finset.sum_congr rfl fun r _ => ?_
    rw [bblk_apply V c ⟨0, h⟩ r (blk_lt (N_4 ▸ h) r.isLt), hblk_apply V c ⟨0, h⟩ r d (blk_lt (N_4 ▸ h) r.isLt)]
  · intro n h
    show (scAt4 V c (n + 1) h).1 (ix2 g d) = (scAt4 V c n (Nat.lt_of_succ_lt h)).1 (ix2 g d) + _
    rw [scAt4_succ]
    show k4_pay4 (F := Ideal) (bblk V c ⟨n + 1, h⟩) (hblk V c ⟨n + 1, h⟩) (scAt4 V c n (Nat.lt_of_succ_lt h)).1 (ix2 g d) = _
    refine (pay4_apply (bblk V c ⟨n + 1, h⟩) (hblk V c ⟨n + 1, h⟩) (scAt4 V c n (Nat.lt_of_succ_lt h)).1 g d).trans ?_
    refine congrArg ((scAt4 V c n (Nat.lt_of_succ_lt h)).1 (ix2 g d) + ·) ?_
    refine Finset.sum_congr rfl fun r _ => ?_
    rw [bblk_apply V c ⟨n + 1, h⟩ r (blk_lt (N_4 ▸ h) r.isLt), hblk_apply V c ⟨n + 1, h⟩ r d (blk_lt (N_4 ▸ h) r.isLt)]

/-- Graph `g`'s count after the last point: the number of nodes whose graph id is `g`. -/
theorem cnt_last (c : Dev nD) (g : Fin 128) :
    (scAt4 V c 9 nine_lt).2 (ix2 g 0) = ∑ n : Fin 64000, Cert.Spec.oneHot (barr V c (ix2 n 0)) g := by
  refine partial_sums_last (N := cfg4.N) N_4 (fun n => Cert.Spec.oneHot (barr V c (ix2 n 0)) g)
    (fun n h => (scAt4 V c n h).2 (ix2 g 0)) ?_ ?_
  · intro h
    show (scAt4 V c 0 h).2 (ix2 g 0) = _
    rw [scAt4_zero]
    show k4_pay5 (F := Ideal) (bblk V c ⟨0, h⟩) zcnt4 (ix2 g 0) = _
    refine (pay5_apply (bblk V c ⟨0, h⟩) zcnt4 g).trans ?_
    rw [show (zcnt4 (F := Ideal)) (ix2 g 0) = 0 from (pay2_apply _).trans Ideal.ofBits_zero_f32, zero_add]
    refine Finset.sum_congr rfl fun r _ => ?_
    rw [bblk_apply V c ⟨0, h⟩ r (blk_lt (N_4 ▸ h) r.isLt)]
  · intro n h
    show (scAt4 V c (n + 1) h).2 (ix2 g 0) = (scAt4 V c n (Nat.lt_of_succ_lt h)).2 (ix2 g 0) + _
    rw [scAt4_succ]
    show k4_pay5 (F := Ideal) (bblk V c ⟨n + 1, h⟩) (scAt4 V c n (Nat.lt_of_succ_lt h)).2 (ix2 g 0) = _
    refine (pay5_apply (bblk V c ⟨n + 1, h⟩) (scAt4 V c n (Nat.lt_of_succ_lt h)).2 g).trans ?_
    refine congrArg ((scAt4 V c n (Nat.lt_of_succ_lt h)).2 (ix2 g 0) + ·) ?_
    refine Finset.sum_congr rfl fun r _ => ?_
    rw [bblk_apply V c ⟨n + 1, h⟩ r (blk_lt (N_4 ▸ h) r.isLt)]

/-! ## The output block, its write-back, the array -/

/-- What the body leaves in the output window at the last point: the pooled means. -/
theorem after_last (c : Dev nD) (t : Fin cfg4.N) (h9 : t.val = 9) :
    (dat4 V c).after 2 t = Cert.Spec.pool (harr V c) (barr V c) := by
  obtain ⟨n, hn⟩ := t
  obtain rfl : n = 9 := h9
  rw [after4_2]
  funext i
  obtain ⟨g, d, rfl⟩ : ∃ (g : Fin 128) (d : Fin 2), i = ix2 g d := ⟨i 0, i 1, eq_ix2 i⟩
  show k4_pay6 (F := Ideal) (scAt4 V c 9 hn).1 (scAt4 V c 9 hn).2 (ix2 g d) = Cert.Spec.poolAt (harr V c) (barr V c) g d
  refine (pay6_apply (scAt4 V c 9 hn).1 (scAt4 V c 9 hn).2 g d).trans ?_
  rw [acc_last V c g d, cnt_last V c g]
  rfl

/-- The output window's block at any point is the whole array: read through it, or cut to the part a write-back
    moves, a function on the array's indices is itself. -/
theorem blk4_2_read (t : Fin cfg4.N) (G : Vec Ideal S128x2 .f32) :
    (cfg4.win 2).cut (grid4.coords t) G = ((cfg4.win 2).blk t).view.read (Elt Ideal) G := by
  obtain ⟨e0, e1⟩ := idx4_2 t
  funext j
  show G j = G (((cfg4.win 2).blk t).view.emb j)
  congr 1
  funext a
  apply Fin.ext
  match a with
  | ⟨0, _⟩ => show (j 0).val = win4_2.index t (0 : Fin 2) * 128 + 1 * (j 0).val; rw [e0]; omega
  | ⟨1, _⟩ => show (j 1).val = win4_2.index t (1 : Fin 2) * 2 + 1 * (j 1).val; rw [e1]; omega

/-- The one write-back, after the last point, writes the pooled means. -/
theorem flushed4_2_eq (c : Dev nD) (t : Fin cfg4.N) (hf : (cfg4.win 2).flush t = true) :
    (dat4 V c).flushed 2 t
      = ((cfg4.win 2).blk t).view.read (Elt Ideal) (Cert.Spec.pool (harr V c) (barr V c)) := by
  have hN : cfg4.N = 10 := N_4
  have h9 : t.val = 9 := by have := (flush4_2 t).mp hf; have := t.isLt; omega
  show (cfg4.win 2).cut (grid4.coords t) ((dat4 V c).after 2 t) = _
  rw [after_last V c t h9]
  exact blk4_2_read t _

/-- An index of the output array is in point `t`'s block iff each coordinate is in the block's range on its axis. -/
theorem mem_blk4_2 (t : Fin cfg4.N) (i : S128x2.Idx) :
    i ∈ ((cfg4.win 2).blk t).view.set
      ↔ ∀ a : Fin 2, win4_2.index t a * S128x2.size a ≤ (i a).val ∧ (i a).val < win4_2.index t a * S128x2.size a + S128x2.size a := by
  show i ∈ ((View.whole main_v76).slice (win4_2.rect t)).set ↔ _
  rw [View.set_slice_whole, Rect.mem_set_unit]
  exact Iff.rfl

/-- THE ARRAY after the region: the pooled means of the feature array over the graph-id array. -/
theorem arrAt4_2 (c : Dev nD) :
    (dat4 (F := Ideal) V c).arrAt 2 cfg4.N = Cert.Spec.pool (V c main_v75) (V c main_v4) :=
  (dat4 V c).arrAt_eq_of_cover 2 (Cert.Spec.pool (harr V c) (barr V c)) (flushed4_2_eq V c) fun i =>
    ⟨⟨9, nine_lt⟩, (flush4_2 ⟨9, nine_lt⟩).mpr rfl, by
      obtain ⟨e0, e1⟩ := idx4_2 ⟨9, nine_lt⟩
      rw [mem_blk4_2]
      intro a
      match a with
      | ⟨0, _⟩ =>
        show win4_2.index ⟨9, nine_lt⟩ (0 : Fin 2) * 128 ≤ (i 0).val ∧ (i 0).val < win4_2.index ⟨9, nine_lt⟩ (0 : Fin 2) * 128 + 128
        have h0 : (i 0).val < 128 := (i 0).isLt
        rw [e0]; omega
      | ⟨1, _⟩ =>
        show win4_2.index ⟨9, nine_lt⟩ (1 : Fin 2) * 2 ≤ (i 1).val ∧ (i 1).val < win4_2.index ⟨9, nine_lt⟩ (1 : Fin 2) * 2 + 2
        have h1 : (i 1).val < 2 := (i 1).isLt
        rw [e1]; omega⟩

end Cert.KernelIdeal.Fr

end
-- ==== Proof.SpecHost.lean ====
/- The whole computation as one function of the nine arguments, built from the layer and read-out of Spec and from the
   host-side stages both programs share: the source row of the edge list with negative entries wrapped, the destination
   row, the gather of the source nodes' features scattered (added) to the destination nodes, the in-degree as a
   scattered sum of ones, and the per-layer slices of the stacked weights. -/
import proofs.«422203_j1219770712268_1_alg».proof.Proof.Spec

noncomputable section

namespace Cert.Spec

open Idealize.ShloMosaic Cert.KernelIdeal ValueIdx

-- the kernel program's stated side conditions (shape relations of its slices, reshapes and broadcasts), which its
-- records and the stages below cite
variable [Cert.KernelIdeal.Facts]
open Cert.KernelIdeal.Facts₀ Cert.KernelIdeal.Facts

/-- Row 0 of the edge list (the sources), a negative entry wrapped by the number of nodes, as a column of indices. -/
def srcIdx (e : IVec S2x1024000 32) : IVec S1024000x1 32 :=
  let v1 : IVec S1024000 32 := shapeCast S1024000 (extractStridedSlice S1x1024000 ![0, 0] e slices_S2x1024000_S1x1024000_0_0) shapeCasts_S1x1024000_S1024000
  broadcastInDim S1024000x1 ![0] bcast_S1024000_S1024000x1_0
    (select (cmpi .slt v1 (broadcastInDim S1024000 ![] bcast_S_S1024000 (constantI S_ 32 0#32)))
      (addi v1 (broadcastInDim S1024000 ![] bcast_S_S1024000 (constantI S_ 32 64000#32))) v1)

/-- Row 1 of the edge list (the destinations), as a column of indices. -/
def dstIdx (e : IVec S2x1024000 32) : IVec S1024000x1 32 :=
  broadcastInDim S1024000x1 ![0] bcast_S1024000_S1024000x1_0
    (shapeCast S1024000 (extractStridedSlice S1x1024000 ![1, 0] e slices_S2x1024000_S1x1024000_1_0) shapeCasts_S1x1024000_S1024000)

/-- The neighbour sum: each edge's source row of h added into its destination row. -/
def agg (h : FVec Ideal S64000x64 .f32) (e : IVec S2x1024000 32) : FVec Ideal S64000x64 .f32 :=
  Host.scatterAdd (F := Ideal) scatter_S64000x64_S1024000x1_S1024000x64_1_0_0_1
    (broadcastInDim S64000x64 ![] bcast_S_S64000x64 (constant (F := Ideal) S_ .f32 0x00000000#32)) (dstIdx e)
    (Host.gather gather_S64000x64_S1024000x1_S1024000x64_1_0_n_n_0_1_164 h (srcIdx e))

/-- The in-degree of every node, as a column. -/
def cntA (e : IVec S2x1024000 32) : FVec Ideal S64000x1 .f32 :=
  broadcastInDim S64000x1 ![0] bcast_S64000_S64000x1_0
    (Host.scatterAdd (F := Ideal) scatter_S64000_S1024000x1_S1024000_n_0_0_1
      (broadcastInDim S64000 ![] bcast_S_S64000 (constant (F := Ideal) S_ .f32 0x00000000#32)) (dstIdx e)
      (broadcastInDim S1024000 ![] bcast_S_S1024000 (constant (F := Ideal) S_ .f32 0x3F800000#32)))

/-- Layer 0, 1, 2's slice of a stacked weight. -/
def w0 (W : FVec Ideal S3x64x64 .f32) : FVec Ideal S64x64 .f32 := shapeCast S64x64 (extractStridedSlice S1x64x64 ![0, 0, 0] W slices_S3x64x64_S1x64x64_0_0_0) shapeCasts_S1x64x64_S64x64
def w1 (W : FVec Ideal S3x64x64 .f32) : FVec Ideal S64x64 .f32 := shapeCast S64x64 (extractStridedSlice S1x64x64 ![1, 0, 0] W slices_S3x64x64_S1x64x64_1_0_0) shapeCasts_S1x64x64_S64x64
def w2 (W : FVec Ideal S3x64x64 .f32) : FVec Ideal S64x64 .f32 := shapeCast S64x64 (extractStridedSlice S1x64x64 ![2, 0, 0] W slices_S3x64x64_S1x64x64_2_0_0) shapeCasts_S1x64x64_S64x64
/-- Layer 0, 1, 2's row of the stacked bias. -/
def b0 (b : FVec Ideal S3x64 .f32) : FVec Ideal S1x64 .f32 := shapeCast S1x64 (shapeCast S64 (extractStridedSlice S1x64 ![0, 0] b slices_S3x64_S1x64_0_0) shapeCasts_S1x64_S64) shapeCasts_S64_S1x64
def b1 (b : FVec Ideal S3x64 .f32) : FVec Ideal S1x64 .f32 := shapeCast S1x64 (shapeCast S64 (extractStridedSlice S1x64 ![1, 0] b slices_S3x64_S1x64_1_0) shapeCasts_S1x64_S64) shapeCasts_S64_S1x64
def b2 (b : FVec Ideal S3x64 .f32) : FVec Ideal S1x64 .f32 := shapeCast S1x64 (shapeCast S64 (extractStridedSlice S1x64 ![2, 0] b slices_S3x64_S1x64_2_0) shapeCasts_S1x64_S64) shapeCasts_S64_S1x64
/-- The output layer's bias as a row. -/
def bo (b : FVec Ideal S2 .f32) : FVec Ideal S1x2 .f32 := shapeCast S1x2 b shapeCasts_S2_S1x2

/-- The node features after each hidden layer. -/
def H1 (x : FVec Ideal S64000x64 .f32) (e : IVec S2x1024000 32) (Wl Wr : FVec Ideal S3x64x64 .f32) (b : FVec Ideal S3x64 .f32) : FVec Ideal S64000x64 .f32 :=
  lay64 (agg x e) x (cntA e) (w0 Wl) (w0 Wr) (b0 b)
def H2 (x : FVec Ideal S64000x64 .f32) (e : IVec S2x1024000 32) (Wl Wr : FVec Ideal S3x64x64 .f32) (b : FVec Ideal S3x64 .f32) : FVec Ideal S64000x64 .f32 :=
  lay64 (agg (H1 x e Wl Wr b) e) (H1 x e Wl Wr b) (cntA e) (w1 Wl) (w1 Wr) (b1 b)
def H3 (x : FVec Ideal S64000x64 .f32) (e : IVec S2x1024000 32) (Wl Wr : FVec Ideal S3x64x64 .f32) (b : FVec Ideal S3x64 .f32) : FVec Ideal S64000x64 .f32 :=
  lay64 (agg (H2 x e Wl Wr b) e) (H2 x e Wl Wr b) (cntA e) (w2 Wl) (w2 Wr) (b2 b)
/-- The node scores after the output layer. -/
def H4 (x : FVec Ideal S64000x64 .f32) (e : IVec S2x1024000 32) (Wl Wr : FVec Ideal S3x64x64 .f32) (b : FVec Ideal S3x64 .f32)
    (Wlo Wro : FVec Ideal S2x64 .f32) (bout : FVec Ideal S2 .f32) : FVec Ideal S64000x2 .f32 :=
  lay2 (agg (H3 x e Wl Wr b) e) (H3 x e Wl Wr b) (cntA e) Wlo Wro (bo bout)
/-- The result: the graph-wise mean of the node scores. -/
def OUT (x : FVec Ideal S64000x64 .f32) (e : IVec S2x1024000 32) (batch : IVec S64000 32) (Wl Wr : FVec Ideal S3x64x64 .f32) (b : FVec Ideal S3x64 .f32)
    (Wlo Wro : FVec Ideal S2x64 .f32) (bout : FVec Ideal S2 .f32) : FVec Ideal S128x2 .f32 :=
  pool (H4 x e Wl Wr b Wlo Wro bout) (broadcastInDim S64000x1 ![0] bcast_S64000_S64000x1_0 batch)

end Cert.Spec

end
-- ==== Proof.KI.Value.lean ====
/- The idealized kernel program's result as a function of its arguments. Reading the run's last boundary back through
   the items: a host stretch's buffers are its operations' terms of the buffers before it; a layer region's output array
   is the layer formula of its six input arrays; the read-out region's output is the graph-wise mean. The edge list's two
   rows, the in-degree column and the graph ids are computed once, in the first stretch, and are read again, unchanged,
   by every later item. Composed, the result buffer holds Spec.OUT of the nine arguments. -/
import proofs.«422203_j1219770712268_1_alg».proof.Proof.KI.Frame
import proofs.«422203_j1219770712268_1_alg».proof.Proof.KI.ValA0
import proofs.«422203_j1219770712268_1_alg».proof.Proof.KI.ValA1
import proofs.«422203_j1219770712268_1_alg».proof.Proof.KI.ValA2
import proofs.«422203_j1219770712268_1_alg».proof.Proof.KI.ValA3
import proofs.«422203_j1219770712268_1_alg».proof.Proof.KI.ValR4
import proofs.«422203_j1219770712268_1_alg».proof.Proof.SpecHost
import Idealize.ShloMosaic.Lib.StableHlo.Run

set_option maxRecDepth 16384

noncomputable section

namespace Cert.KernelIdeal.Fr

open Idealize.ShloMosaic Idealize.ShloMosaic.TcCoe Idealize.SL Idealize.SL.Sem Idealize.ShloMosaic.StableHlo
open Cert.KernelIdeal Cert.KernelIdeal.Gen
open Cert.Spec (agg cntA w0 w1 w2 b0 b1 b2 bo H1 H2 H3 H4 OUT lay64 lay2 pool)

/-- A row of the edge list as a vector of index words. -/
def row0 (e : IVec S2x1024000 32) : IVec S1024000 32 :=
  shapeCast S1024000 (extractStridedSlice S1x1024000 ![0, 0] e Facts₀.slices_S2x1024000_S1x1024000_0_0) Facts₀.shapeCasts_S1x1024000_S1024000
def row1 (e : IVec S2x1024000 32) : IVec S1024000 32 :=
  shapeCast S1024000 (extractStridedSlice S1x1024000 ![1, 0] e Facts₀.slices_S2x1024000_S1x1024000_1_0) Facts₀.shapeCasts_S1x1024000_S1024000

/-- The neighbour sum from the two rows: the form every stretch computes it in. -/
def aggOf (h : FVec Ideal S64000x64 .f32) (v1 v3 : IVec S1024000 32) : FVec Ideal S64000x64 .f32 :=
  Host.scatterAdd (F := Ideal) scatter_S64000x64_S1024000x1_S1024000x64_1_0_0_1
    (broadcastInDim S64000x64 ![] Facts₀.bcast_S_S64000x64 (constant (F := Ideal) S_ .f32 0x00000000#32))
    (broadcastInDim S1024000x1 ![0] Facts₀.bcast_S1024000_S1024000x1_0 v3)
    (Host.gather gather_S64000x64_S1024000x1_S1024000x64_1_0_n_n_0_1_164 h
      (broadcastInDim S1024000x1 ![0] Facts₀.bcast_S1024000_S1024000x1_0
        (select (cmpi .slt v1 (broadcastInDim S1024000 ![] Facts₀.bcast_S_S1024000 (constantI S_ 32 0#32)))
          (addi v1 (broadcastInDim S1024000 ![] Facts₀.bcast_S_S1024000 (constantI S_ 32 64000#32))) v1)))

theorem agg_eq (h : FVec Ideal S64000x64 .f32) (e : IVec S2x1024000 32) : agg h e = aggOf h (row0 e) (row1 e) := rfl

variable (m : (ℓ : Loc nD τ sig) → Buf (Elt Ideal) ℓ) (c : Dev nD)

/-- The nine arguments' launch contents on core c. -/
abbrev aX : FVec Ideal S64000x64 .f32 := m ((c : Thread nD τ).loc main_arg0)
abbrev aE : IVec S2x1024000 32 := m ((c : Thread nD τ).loc main_arg1)
abbrev aG : IVec S64000 32 := m ((c : Thread nD τ).loc main_arg2)
abbrev aWl : FVec Ideal S3x64x64 .f32 := m ((c : Thread nD τ).loc main_arg3)
abbrev aWr : FVec Ideal S3x64x64 .f32 := m ((c : Thread nD τ).loc main_arg4)
abbrev aB : FVec Ideal S3x64 .f32 := m ((c : Thread nD τ).loc main_arg5)
abbrev aWlo : FVec Ideal S2x64 .f32 := m ((c : Thread nD τ).loc main_arg6)
abbrev aWro : FVec Ideal S2x64 .f32 := m ((c : Thread nD τ).loc main_arg7)
abbrev aBo : FVec Ideal S2 .f32 := m ((c : Thread nD τ).loc main_arg8)

/-! ## The first stretch -/

set_option maxHeartbeats 4000000 in
theorem V1_v1 : (V1 m c main_v1 : IVec S1024000 32) = row0 (aE m c) := by
  show StableHlo.after hostOps0 (W0 m c) (Proc.devRef .tc main_v1) = _
  after_results_simp <;> rfl

set_option maxHeartbeats 4000000 in
theorem V1_v3 : (V1 m c main_v3 : IVec S1024000 32) = row1 (aE m c) := by
  show StableHlo.after hostOps0 (W0 m c) (Proc.devRef .tc main_v3) = _
  after_results_simp <;> rfl

set_option maxHeartbeats 4000000 in
theorem V1_v4 : (V1 m c main_v4 : IVec S64000x1 32) = broadcastInDim S64000x1 ![0] Facts₀.bcast_S64000_S64000x1_0 (aG m c) := by
  show StableHlo.after hostOps0 (W0 m c) (Proc.devRef .tc main_v4) = _
  after_results_simp <;> rfl

set_option maxHeartbeats 4000000 in
theorem V1_v9 : (V1 m c main_v9 : FVec Ideal S64000x1 .f32) = cntA (aE m c) := by
  show StableHlo.after hostOps0 (W0 m c) (Proc.devRef .tc main_v9) = _
  after_results_simp <;> rfl

set_option maxHeartbeats 4000000 in
theorem V1_v19 : (V1 m c main_v19 : FVec Ideal S64000x64 .f32) = agg (aX m c) (aE m c) := by
  show StableHlo.after hostOps0 (W0 m c) (Proc.devRef .tc main_v19) = _
  after_results_simp <;> rfl

set_option maxHeartbeats 4000000 in
theorem V1_v21 : (V1 m c main_v21 : FVec Ideal S64x64 .f32) = w0 (aWl m c) := by
  show StableHlo.after hostOps0 (W0 m c) (Proc.devRef .tc main_v21) = _
  after_results_simp <;> rfl

set_option maxHeartbeats 4000000 in
theorem V1_v23 : (V1 m c main_v23 : FVec Ideal S64x64 .f32) = w0 (aWr m c) := by
  show StableHlo.after hostOps0 (W0 m c) (Proc.devRef .tc main_v23) = _
  after_results_simp <;> rfl

set_option maxHeartbeats 4000000 in
theorem V1_v26 : (V1 m c main_v26 : FVec Ideal S1x64 .f32) = b0 (aB m c) := by
  show StableHlo.after hostOps0 (W0 m c) (Proc.devRef .tc main_v26) = _
  after_results_simp <;> rfl

/-- An argument no stretch writes is still at its launch contents when region 0 is entered. -/
theorem V1_arg0 : (V1 m c main_arg0 : FVec Ideal S64000x64 .f32) = aX m c := keepH0 m c main_arg0 (by decide)

/-! ## The later stretches, over the buffers each is entered with -/

set_option maxHeartbeats 4000000 in
theorem V3_v37 : (V3 m c main_v37 : FVec Ideal S64000x64 .f32) = aggOf (V2 m c main_v27) (V2 m c main_v1) (V2 m c main_v3) := by
  show StableHlo.after hostOps1 (W2 m c) (Proc.devRef .tc main_v37) = _
  after_results_simp <;> rfl

set_option maxHeartbeats 4000000 in
theorem V3_v39 : (V3 m c main_v39 : FVec Ideal S64x64 .f32) = w1 (V2 m c main_arg3) := by
  show StableHlo.after hostOps1 (W2 m c) (Proc.devRef .tc main_v39) = _
  after_results_simp <;> rfl

set_option maxHeartbeats 4000000 in
theorem V3_v41 : (V3 m c main_v41 : FVec Ideal S64x64 .f32) = w1 (V2 m c main_arg4) := by
  show StableHlo.after hostOps1 (W2 m c) (Proc.devRef .tc main_v41) = _
  after_results_simp <;> rfl

set_option maxHeartbeats 4000000 in
theorem V3_v44 : (V3 m c main_v44 : FVec Ideal S1x64 .f32) = b1 (V2 m c main_arg5) := by
  show StableHlo.after hostOps1 (W2 m c) (Proc.devRef .tc main_v44) = _
  after_results_simp <;> rfl

set_option maxHeartbeats 4000000 in
theorem V5_v55 : (V5 m c main_v55 : FVec Ideal S64000x64 .f32) = aggOf (V4 m c main_v45) (V4 m c main_v1) (V4 m c main_v3) := by
  show StableHlo.after hostOps2 (W4 m c) (Proc.devRef .tc main_v55) = _
  after_results_simp <;> rfl

set_option maxHeartbeats 4000000 in
theorem V5_v57 : (V5 m c main_v57 : FVec Ideal S64x64 .f32) = w2 (V4 m c main_arg3) := by
  show StableHlo.after hostOps2 (W4 m c) (Proc.devRef .tc main_v57) = _
  after_results_simp <;> rfl

set_option maxHeartbeats 4000000 in
theorem V5_v59 : (V5 m c main_v59 : FVec Ideal S64x64 .f32) = w2 (V4 m c main_arg4) := by
  show StableHlo.after hostOps2 (W4 m c) (Proc.devRef .tc main_v59) = _
  after_results_simp <;> rfl

set_option maxHeartbeats 4000000 in
theorem V5_v62 : (V5 m c main_v62 : FVec Ideal S1x64 .f32) = b2 (V4 m c main_arg5) := by
  show StableHlo.after hostOps2 (W4 m c) (Proc.devRef .tc main_v62) = _
  after_results_simp <;> rfl

set_option maxHeartbeats 4000000 in
theorem V7_v73 : (V7 m c main_v73 : FVec Ideal S64000x64 .f32) = aggOf (V6 m c main_v63) (V6 m c main_v1) (V6 m c main_v3) := by
  show StableHlo.after hostOps3 (W6 m c) (Proc.devRef .tc main_v73) = _
  after_results_simp <;> rfl

set_option maxHeartbeats 4000000 in
theorem V7_v74 : (V7 m c main_v74 : FVec Ideal S1x2 .f32) = bo (V6 m c main_arg8) := by
  show StableHlo.after hostOps3 (W6 m c) (Proc.devRef .tc main_v74) = _
  after_results_simp <;> rfl

/-! ## What is computed once and read again: unchanged up to each later boundary -/

theorem V2_of1 (b : Ref sig .tc) (r0 : b ≠ main_v27) : V2 m c b = V1 m c b := keepR0 m c b r0
theorem V3_of1 (b : Ref sig .tc) (r0 : b ≠ main_v27) (h1 : b ∉ Gen.hostOps1_W) : V3 m c b = V1 m c b := (keepH1 m c b h1).trans (keepR0 m c b r0)
theorem V4_of1 (b : Ref sig .tc) (r0 : b ≠ main_v27) (h1 : b ∉ Gen.hostOps1_W) (r1 : b ≠ main_v45) : V4 m c b = V1 m c b :=
  (keepR1 m c b r1).trans (V3_of1 m c b r0 h1)
theorem V5_of1 (b : Ref sig .tc) (r0 : b ≠ main_v27) (h1 : b ∉ Gen.hostOps1_W) (r1 : b ≠ main_v45) (h2 : b ∉ Gen.hostOps2_W) : V5 m c b = V1 m c b :=
  (keepH2 m c b h2).trans (V4_of1 m c b r0 h1 r1)
theorem V6_of1 (b : Ref sig .tc) (r0 : b ≠ main_v27) (h1 : b ∉ Gen.hostOps1_W) (r1 : b ≠ main_v45) (h2 : b ∉ Gen.hostOps2_W) (r2 : b ≠ main_v63) : V6 m c b = V1 m c b :=
  (keepR2 m c b r2).trans (V5_of1 m c b r0 h1 r1 h2)
theorem V7_of1 (b : Ref sig .tc) (r0 : b ≠ main_v27) (h1 : b ∉ Gen.hostOps1_W) (r1 : b ≠ main_v45) (h2 : b ∉ Gen.hostOps2_W) (r2 : b ≠ main_v63) (h3 : b ∉ Gen.hostOps3_W) : V7 m c b = V1 m c b :=
  (keepH3 m c b h3).trans (V6_of1 m c b r0 h1 r1 h2 r2)
theorem V8_of1 (b : Ref sig .tc) (r0 : b ≠ main_v27) (h1 : b ∉ Gen.hostOps1_W) (r1 : b ≠ main_v45) (h2 : b ∉ Gen.hostOps2_W) (r2 : b ≠ main_v63) (h3 : b ∉ Gen.hostOps3_W) (r3 : b ≠ main_v75) : V8 m c b = V1 m c b :=
  (keepR3 m c b r3).trans (V7_of1 m c b r0 h1 r1 h2 r2 h3)
/-- An argument at the first stretch's end is at its launch contents. -/
theorem V1_arg (b : Ref sig .tc) (h0 : b ∉ Gen.hostOps0_W) : V1 m c b = m ((c : Thread nD τ).loc b) := keepH0 m c b h0

/-! ## The layers -/

/-- After region 0 its output array holds the first hidden layer. -/
theorem V2_v27 : (V2 m c main_v27 : FVec Ideal S64000x64 .f32) = H1 (aX m c) (aE m c) (aWl m c) (aWr m c) (aB m c) := by
  refine (W2_arr m c 6).trans ((arrAt0_6 (V1 m) c).trans ?_)
  rw [V1_v19, V1_arg0, V1_v9, V1_v21, V1_v23, V1_v26]; rfl

/-- Region 1 is entered with the first layer's output and its neighbour sum. -/
theorem V3_v27 : (V3 m c main_v27 : FVec Ideal S64000x64 .f32) = H1 (aX m c) (aE m c) (aWl m c) (aWr m c) (aB m c) :=
  (keepH1 m c main_v27 (by decide)).trans (V2_v27 m c)
theorem V3_v37' : (V3 m c main_v37 : FVec Ideal S64000x64 .f32) = agg (H1 (aX m c) (aE m c) (aWl m c) (aWr m c) (aB m c)) (aE m c) := by
  rw [V3_v37, V2_v27, V2_of1 m c main_v1 (by decide), V2_of1 m c main_v3 (by decide), V1_v1, V1_v3, agg_eq]

theorem V4_v45 : (V4 m c main_v45 : FVec Ideal S64000x64 .f32) = H2 (aX m c) (aE m c) (aWl m c) (aWr m c) (aB m c) := by
  refine (W4_arr m c 6).trans ((arrAt1_6 (V3 m) c).trans ?_)
  rw [V3_v37', V3_v27, V3_of1 m c main_v9 (by decide) (by decide), V1_v9, V3_v39, V3_v41, V3_v44,
    V2_of1 m c main_arg3 (by decide), V2_of1 m c main_arg4 (by decide), V2_of1 m c main_arg5 (by decide),
    V1_arg m c main_arg3 (by decide), V1_arg m c main_arg4 (by decide), V1_arg m c main_arg5 (by decide)]; rfl

theorem V5_v45 : (V5 m c main_v45 : FVec Ideal S64000x64 .f32) = H2 (aX m c) (aE m c) (aWl m c) (aWr m c) (aB m c) :=
  (keepH2 m c main_v45 (by decide)).trans (V4_v45 m c)
theorem V5_v55' : (V5 m c main_v55 : FVec Ideal S64000x64 .f32) = agg (H2 (aX m c) (aE m c) (aWl m c) (aWr m c) (aB m c)) (aE m c) := by
  rw [V5_v55, V4_v45, V4_of1 m c main_v1 (by decide) (by decide) (by decide), V4_of1 m c main_v3 (by decide) (by decide) (by decide), V1_v1, V1_v3, agg_eq]

theorem V6_v63 : (V6 m c main_v63 : FVec Ideal S64000x64 .f32) = H3 (aX m c) (aE m c) (aWl m c) (aWr m c) (aB m c) := by
  refine (W6_arr m c 6).trans ((arrAt2_6 (V5 m) c).trans ?_)
  rw [V5_v55', V5_v45, V5_of1 m c main_v9 (by decide) (by decide) (by decide) (by decide), V1_v9, V5_v57, V5_v59, V5_v62,
    V4_of1 m c main_arg3 (by decide) (by decide) (by decide), V4_of1 m c main_arg4 (by decide) (by decide) (by decide), V4_of1 m c main_arg5 (by decide) (by decide) (by decide),
    V1_arg m c main_arg3 (by decide), V1_arg m c main_arg4 (by decide), V1_arg m c main_arg5 (by decide)]; rfl

theorem V7_v63 : (V7 m c main_v63 : FVec Ideal S64000x64 .f32) = H3 (aX m c) (aE m c) (aWl m c) (aWr m c) (aB m c) :=
  (keepH3 m c main_v63 (by decide)).trans (V6_v63 m c)
theorem V7_v73' : (V7 m c main_v73 : FVec Ideal S64000x64 .f32) = agg (H3 (aX m c) (aE m c) (aWl m c) (aWr m c) (aB m c)) (aE m c) := by
  rw [V7_v73, V6_v63, V6_of1 m c main_v1 (by decide) (by decide) (by decide) (by decide) (by decide), V6_of1 m c main_v3 (by decide) (by decide) (by decide) (by decide) (by decide), V1_v1, V1_v3, agg_eq]

/-- After region 3 its output array holds the node scores. -/
theorem V8_v75 : (V8 m c main_v75 : FVec Ideal S64000x2 .f32) = H4 (aX m c) (aE m c) (aWl m c) (aWr m c) (aB m c) (aWlo m c) (aWro m c) (aBo m c) := by
  refine (W8_arr m c 6).trans ((arrAt3_6 (V7 m) c).trans ?_)
  rw [V7_v73', V7_v63, V7_of1 m c main_v9 (by decide) (by decide) (by decide) (by decide) (by decide) (by decide), V1_v9, V7_v74,
    V7_of1 m c main_arg6 (by decide) (by decide) (by decide) (by decide) (by decide) (by decide), V7_of1 m c main_arg7 (by decide) (by decide) (by decide) (by decide) (by decide) (by decide),
    V6_of1 m c main_arg8 (by decide) (by decide) (by decide) (by decide) (by decide),
    V1_arg m c main_arg6 (by decide), V1_arg m c main_arg7 (by decide), V1_arg m c main_arg8 (by decide)]; rfl

/-- The result buffer at the last boundary: the graph-wise mean of the node scores. -/
theorem W9_v76 : (W9 m c (Proc.devRef .tc main_v76) : FVec Ideal S128x2 .f32)
    = OUT (aX m c) (aE m c) (aG m c) (aWl m c) (aWr m c) (aB m c) (aWlo m c) (aWro m c) (aBo m c) := by
  refine (W9_arr m c 2).trans ((arrAt4_2 (V8 m) c).trans ?_)
  rw [V8_v75, V8_of1 m c main_v4 (by decide) (by decide) (by decide) (by decide) (by decide) (by decide) (by decide), V1_v4]; rfl

/-- The run with its result named: every weakly fair execution terminates, nothing faulting, with the result buffer at
    Spec.OUT of the arguments' launch contents and the arguments unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v76) = OUT (aX m c) (aE m c) (aG m c) (aWl m c) (aWr m c) (aB m c) (aWlo m c) (aWro m c) (aBo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v76 (by decide))).trans (W9_v76 m c),
     (h c _ (mem_uc main_arg0 (by decide))).trans (keep_all m c main_arg0 (by decide) (by decide) (by decide) (by decide) (by decide) (by decide) (by decide) (by decide) (by decide)),
     (h c _ (mem_uc main_arg1 (by decide))).trans (keep_all m c main_arg1 (by decide) (by decide) (by decide) (by decide) (by decide) (by decide) (by decide) (by decide) (by decide)),
     (h c _ (mem_uc main_arg2 (by decide))).trans (keep_all m c main_arg2 (by decide) (by decide) (by decide) (by decide) (by decide) (by decide) (by decide) (by decide) (by decide)),
     (h c _ (mem_uc main_arg3 (by decide))).trans (keep_all m c main_arg3 (by decide) (by decide) (by decide) (by decide) (by decide) (by decide) (by decide) (by decide) (by decide)),
     (h c _ (mem_uc main_arg4 (by decide))).trans (keep_all m c main_arg4 (by decide) (by decide) (by decide) (by decide) (by decide) (by decide) (by decide) (by decide) (by decide)),
     (h c _ (mem_uc main_arg5 (by decide))).trans (keep_all m c main_arg5 (by decide) (by decide) (by decide) (by decide) (by decide) (by decide) (by decide) (by decide) (by decide)),
     (h c _ (mem_uc main_arg6 (by decide))).trans (keep_all m c main_arg6 (by decide) (by decide) (by decide) (by decide) (by decide) (by decide) (by decide) (by decide) (by decide)),
     (h c _ (mem_uc main_arg7 (by decide))).trans (keep_all m c main_arg7 (by decide) (by decide) (by decide) (by decide) (by decide) (by decide) (by decide) (by decide) (by decide)),
     (h c _ (mem_uc main_arg8 (by decide))).trans (keep_all m c main_arg8 (by decide) (by decide) (by decide) (by decide) (by decide) (by decide) (by decide) (by decide) (by decide))⟩)
    (run_all m ρ)

end Cert.KernelIdeal.Fr

end
-- ==== Proof.Ref.Core.lean ====
/- The reference spells a layer's neighbour mean with a guard: where the in-degree is positive the neighbour sum over
   max(in-degree, 1), elsewhere zero. Where the in-degree is not positive the neighbour sum is itself zero (no edge ends
   there), and 0 / max(c, 1) = 0, so the guard changes nothing and the layer is the specification's. -/
import proofs.«422203_j1219770712268_1_alg».proof.Proof.Spec
import Idealize.ShloMosaic.PureOps.Ideal.Laws

noncomputable section

namespace Cert.RefValue

open Idealize.ShloMosaic Cert.KernelIdeal ValueIdx Cert.Spec

/-- The guarded quotient is the quotient, for a numerator that vanishes where the guard fails. -/
theorem guarded_div (s c : EReal) (hs : ¬ (0 < c) → s = 0) :
    Scalar.select (Ideal.cmp .ogt c 0) (Ideal.div s (max c 1)) 0 = Ideal.div s (max c 1) := by
  by_cases hc : 0 < c
  · have e : Ideal.cmp .ogt c 0 = 1#1 := by simp [Ideal.cmp, hc]
    rw [e, select_one]
  · have e : Ideal.cmp .ogt c 0 = 0#1 := by simp [Ideal.cmp, hc]
    rw [e, select_zero, hs hc]
    have hne : max c (1 : EReal) ≠ 0 := ne_of_gt (lt_of_lt_of_le zero_lt_one (le_max_right c 1))
    rw [Ideal.div, if_neg hne, zero_mul]

/-- A hidden layer as the reference spells it, at node n and feature j, is the specification's. -/
theorem lay64_of_guarded (h0 : f0 = 0) (h1 : f1 = 1)
    (s h : FVec Ideal S64000x64 .f32) (cnt : FVec Ideal S64000x1 .f32) (Wl Wr : FVec Ideal S64x64 .f32)
    (b : FVec Ideal S1x64 .f32) (hz : ∀ (n : Fin 64000) (k : Fin 64), ¬ (0 < cnt (ix2 n 0)) → s (ix2 n k) = 0)
    (n : Fin 64000) (j : Fin 64) :
    max (((∑ k : Fin 64, Scalar.select (Ideal.cmp .ogt (cnt (ix2 n 0)) f0)
              (Ideal.div (s (ix2 n k)) (max (cnt (ix2 n 0)) f1)) f0 * Wl (ix2 j k))
          + ∑ k : Fin 64, h (ix2 n k) * Wr (ix2 j k)) + b (ix2 0 j)) f0
      = lay64 s h cnt Wl Wr b (ix2 n j) := by
  show _ = max (layAt s h cnt Wl Wr b n j) f0
  unfold layAt
  rw [h0, h1]
  simp only [guarded_div _ _ (hz n _)]

/-- The output layer as the reference spells it, at node n and feature j, is the specification's. -/
theorem lay2_of_guarded (h0 : f0 = 0) (h1 : f1 = 1)
    (s h : FVec Ideal S64000x64 .f32) (cnt : FVec Ideal S64000x1 .f32) (Wl Wr : FVec Ideal S2x64 .f32)
    (b : FVec Ideal S1x2 .f32) (hz : ∀ (n : Fin 64000) (k : Fin 64), ¬ (0 < cnt (ix2 n 0)) → s (ix2 n k) = 0)
    (n : Fin 64000) (j : Fin 2) :
    ((∑ k : Fin 64, Scalar.select (Ideal.cmp .ogt (cnt (ix2 n 0)) f0)
              (Ideal.div (s (ix2 n k)) (max (cnt (ix2 n 0)) f1)) f0 * Wl (ix2 j k))
          + ∑ k : Fin 64, h (ix2 n k) * Wr (ix2 j k)) + b (ix2 0 j)
      = lay2 s h cnt Wl Wr b (ix2 n j) := by
  show _ = lay2At s h cnt Wl Wr b n j
  unfold lay2At
  rw [h0, h1]
  simp only [guarded_div _ _ (hz n _)]

end Cert.RefValue

end
-- ==== Proof.ScatterFacts.lean ====
/- The host's accumulating scatter at the ideal instance, opened at an index, for the four scatters of the reference
   program: the in-degree (ones added along a column of destination nodes), the neighbour sum (feature rows added
   along the same column), and the read-out's per-graph sums and counts (node rows, and ones, added along the column
   of graph ids). Each result element is the operand element plus the sum, over the updates, of those whose start
   index (the column's word, read signed, not clamped) names that element's row; an update whose word names no row
   contributes nowhere. -/
import proofs.«422203_j1219770712268_1_alg».proof.ReferenceIdeal
import proofs.«422203_j1219770712268_1_alg».proof.Proof.Spec
import Idealize.ShloMosaic.PureOps.Ideal
import Idealize.ShloMosaic.PureOps.Ideal.Laws
import Idealize.ShloMosaic.Lib.ValueIdx

noncomputable section

open scoped BigOperators

namespace Cert.ScatterFacts

open Idealize.ShloMosaic ValueIdx

/-! ## Where an update lands, for any dimension numbers -/

/-- An update lands on operand index `i` exactly when, on every operand axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      simp only []
      omega
    · intro hi
      funext a
      apply Fin.ext
      have := hi a
      simp only []
      omega
  · next h =>
    constructor
    · intro h'; cases h'
    · intro hi
      exfalso
      apply h
      intro a
      have := hi a
      have := (i a).isLt
      constructor <;> omega

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-! ## A column of start indices into a rank-1 operand -/

/-- The dimension numbers of a scatter of `E` scalar updates into an operand `[N]` along a column `[E, 1]` of start
    indices: no window axes, the operand's axis inserted and start-indexed, the index vector on axis 1. -/
abbrev colDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Col1
variable {N E w : Nat} (wf : ScatterDims.WF ⟨1, ![N]⟩ ⟨2, ![E, 1]⟩ ⟨1, ![E]⟩ [] [0] [0] 1)

/-- Update `e` starts at the word in row `e` of the column, read signed. -/
theorem start1 (e : Fin E) (idx : IVec ⟨2, ![E, 1]⟩ w) (a : Fin 1) :
    (colDims1 N E wf).start (ix1 e) idx a = (idx (ix2 e 0)).toInt := by
  obtain rfl : a = 0 := Subsingleton.elim _ _
  unfold ScatterDims.start
  rw [dif_pos (show (0 : Fin 1) ∈ (colDims1 N E wf).scatterDimsToOperandDims from List.mem_singleton.mpr rfl)]
  congr 2
  funext b
  match b with
  | ⟨0, _⟩ => rfl
  | ⟨1, _⟩ => rfl

/-- There is no window: the one operand axis is inserted. -/
theorem window1 (e : Fin E) (a : Fin 1) : (colDims1 N E wf).window (ix1 e) a = 0 := by
  obtain rfl : a = 0 := Subsingleton.elim _ _
  unfold ScatterDims.window
  rw [dif_neg]
  simp [ScatterDims.sKept, Shape.kept]

/-- Update `e` lands on element `n` exactly when its word, read signed, is `n`. -/
theorem lands1 (e : Fin E) (idx : IVec ⟨2, ![E, 1]⟩ w) (n : Fin N) :
    (colDims1 N E wf).resultIdx? (ix1 e) idx = some (ix1 n) ↔ (idx (ix2 e 0)).toInt = (n.val : ℤ) := by
  rw [resultIdx?_eq_some_iff]
  constructor
  · intro h
    have := h 0
    rw [start1, window1, Nat.cast_zero, add_zero] at this
    exact this
  · intro h a
    obtain rfl : a = 0 := Subsingleton.elim _ _
    rw [start1, window1, Nat.cast_zero, add_zero]
    exact h

/-- The scatter at element `n`: the operand there plus the updates whose word is `n`. -/
theorem scatterAdd1_apply {φ : FTy} (x : FVec Ideal ⟨1, ![N]⟩ φ) (idx : IVec ⟨2, ![E, 1]⟩ w)
    (upd : FVec Ideal ⟨1, ![E]⟩ φ) (n : Fin N) :
    Host.scatterAdd (F := Ideal) (colDims1 N E wf) x idx upd (ix1 n)
      = x (ix1 n) + ∑ e : Fin E, if (idx (ix2 e 0)).toInt = (n.val : ℤ) then upd (ix1 e) else 0 := by
  unfold Host.scatterAdd
  rw [Ideal.hostScatterAdd_def]
  unfold Ideal.hostScatterAdd
  rw [Finset.sum_filter, sum_idx1]
  simp only [lands1]

end Col1

/-! ## A column of start indices into the rows of a rank-2 operand -/

/-- The dimension numbers of a scatter of `E` rows `[E, K]` into an operand `[N, K]` along a column `[E, 1]` of start
    indices: the updates' axis 1 the window, the operand's axis 0 inserted and start-indexed, the index vector on axis 1. -/
abbrev colDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Col2
variable {N K E w : Nat} (wf : ScatterDims.WF ⟨2, ![N, K]⟩ ⟨2, ![E, 1]⟩ ⟨2, ![E, K]⟩ [1] [0] [0] 1)

/-- On the row axis update `(e, k)` starts at the word in row `e` of the column, read signed. -/
theorem start2_0 (e : Fin E) (k : Fin K) (idx : IVec ⟨2, ![E, 1]⟩ w) :
    (colDims2 N K E wf).start (ix2 e k) idx 0 = (idx (ix2 e 0)).toInt := by
  unfold ScatterDims.start
  rw [dif_pos (show (0 : Fin 2) ∈ (colDims2 N K E wf).scatterDimsToOperandDims from List.mem_singleton.mpr rfl)]
  congr 2
  funext b
  match b with
  | ⟨0, _⟩ => rfl
  | ⟨1, _⟩ => rfl

/-- On the feature axis it starts at 0: the start index does not name that axis. -/
theorem start2_1 (e : Fin E) (k : Fin K) (idx : IVec ⟨2, ![E, 1]⟩ w) :
    (colDims2 N K E wf).start (ix2 e k) idx 1 = 0 := by
  unfold ScatterDims.start
  rw [dif_neg]
  show (1 : Fin 2) ∉ [(0 : Fin 2)]
  decide

/-- The row axis is inserted: no window coordinate there. -/
theorem window2_0 (e : Fin E) (k : Fin K) : (colDims2 N K E wf).window (ix2 e k) 0 = 0 := by
  unfold ScatterDims.window
  rw [dif_neg]
  simp [ScatterDims.sKept, Shape.kept]

/-- The feature axis is the window: the update's own feature coordinate. -/
theorem window2_1 (e : Fin E) (k : Fin K) : (colDims2 N K E wf).window (ix2 e k) 1 = k.val := by
  unfold ScatterDims.window
  rw [dif_pos (by simp [ScatterDims.sKept, Shape.kept])]
  rfl

/-- Update `(e, k')` lands on element `(n, k)` exactly when row `e`'s word, read signed, is `n`, and `k' = k`. -/
theorem lands2 (e : Fin E) (k' : Fin K) (idx : IVec ⟨2, ![E, 1]⟩ w) (n : Fin N) (k : Fin K) :
    (colDims2 N K E wf).resultIdx? (ix2 e k') idx = some (ix2 n k)
      ↔ (idx (ix2 e 0)).toInt = (n.val : ℤ) ∧ k' = k := by
  rw [resultIdx?_eq_some_iff]
  constructor
  · intro h
    have h0 := h 0
    have h1 := h 1
    rw [start2_0, window2_0, Nat.cast_zero, add_zero] at h0
    rw [start2_1, window2_1, zero_add] at h1
    exact ⟨h0, Fin.ext (by exact_mod_cast h1)⟩
  · rintro ⟨h0, rfl⟩ a
    match a with
    | ⟨0, _⟩ =>
      show (colDims2 N K E wf).start (ix2 e k') idx 0 + (((colDims2 N K E wf).window (ix2 e k') 0 : ℕ) : ℤ) = _
      rw [start2_0, window2_0, Nat.cast_zero, add_zero]
      exact h0
    | ⟨1, _⟩ =>
      show (colDims2 N K E wf).start (ix2 e k') idx 1 + (((colDims2 N K E wf).window (ix2 e k') 1 : ℕ) : ℤ) = _
      rw [start2_1, window2_1, zero_add]

/-- The scatter at element `(n, k)`: the operand there plus feature `k` of the update rows whose word is `n`. -/
theorem scatterAdd2_apply {φ : FTy} (x : FVec Ideal ⟨2, ![N, K]⟩ φ) (idx : IVec ⟨2, ![E, 1]⟩ w)
    (upd : FVec Ideal ⟨2, ![E, K]⟩ φ) (n : Fin N) (k : Fin K) :
    Host.scatterAdd (F := Ideal) (colDims2 N K E wf) x idx upd (ix2 n k)
      = x (ix2 n k) + ∑ e : Fin E, if (idx (ix2 e 0)).toInt = (n.val : ℤ) then upd (ix2 e k) else 0 := by
  unfold Host.scatterAdd
  rw [Ideal.hostScatterAdd_def]
  unfold Ideal.hostScatterAdd
  rw [Finset.sum_filter, sum_idx2]
  simp only [lands2]
  congr 1
  refine Finset.sum_congr rfl fun e _ => ?_
  by_cases h : (idx (ix2 e 0)).toInt = (n.val : ℤ)
  · simp only [h, true_and, if_true]
    rw [Finset.sum_ite_eq' Finset.univ k (fun k' => upd (ix2 e k'))]
    simp
  · simp only [h, false_and, if_false]
    exact Finset.sum_const_zero

end Col2

/-! ## A graph id as a word -/

/-- A 32-bit word read signed is the natural `g`, below 2³¹, exactly when it is `g`'s word. -/
theorem toInt_eq_iff (v : BitVec 32) (g : ℕ) (hg : g < 2 ^ 31) : v.toInt = (g : ℤ) ↔ v = BitVec.ofNat 32 g := by
  have hmod : g % 2 ^ 32 = g := Nat.mod_eq_of_lt (by omega)
  have hg' : (BitVec.ofNat 32 g).toInt = (g : ℤ) := by
    rw [BitVec.toInt_eq_toNat_of_lt (by rw [BitVec.toNat_ofNat, hmod]; omega), BitVec.toNat_ofNat, hmod]
  rw [← hg', BitVec.toInt_inj]

/-! ## The two float words -/

/-- The word 0x3F800000 is the real number 1. -/
theorem f1_eq : Cert.Spec.f1 = 1 := by
  show Ideal.ofBits .f32 0x3F800000#32 = 1
  simp [Ideal.ofBits, Ideal.ieee, -EReal.coe_mul]; norm_num

/-- The word 0 is the real number 0. -/
theorem f0_eq : Cert.Spec.f0 = 0 := Ideal.ofBits_zero_f32

/-! ## The reference program's four scatters -/

section Records
variable [Cert.ReferenceIdeal.Facts₀]
open Cert.ReferenceIdeal.Facts₀

/-- A node no edge points to has neighbour sum 0. If some update row `e` landed on node `n` in the neighbour sum, the
    same `e` lands on `n` in the in-degree, whose value, a sum of ones and zeros with a one at `e`, would be at
    least 1. -/
theorem agg_eq_zero_of_deg (idx : IVec Cert.ReferenceIdeal.S1024000x1 32)
    (upd : FVec Ideal Cert.ReferenceIdeal.S1024000x64 .f32) (n : Fin 64000) (k : Fin 64)
    (h : ¬ ((0 : EReal) < Host.scatterAdd (F := Ideal) (φ := .f32)
      Cert.ReferenceIdeal.scatter_S64000_S1024000x1_S1024000_n_0_0_1 (fun _ => (0 : EReal)) idx
      (fun _ => (1 : EReal)) (ix1 n))) :
    Host.scatterAdd (F := Ideal) Cert.ReferenceIdeal.scatter_S64000x64_S1024000x1_S1024000x64_1_0_0_1
      (fun _ => (0 : EReal)) idx upd (ix2 n k) = 0 := by
  have hdeg := scatterAdd1_apply (N := 64000) (E := 1024000) (φ := .f32)
    scatter_S64000_S1024000x1_S1024000_n_0_0_1_wf (fun _ => (0 : EReal)) idx (fun _ => (1 : EReal)) n
  have hnone : ∀ e : Fin 1024000, (idx (ix2 e 0)).toInt ≠ (n.val : ℤ) := by
    intro e he
    apply h
    refine lt_of_lt_of_le zero_lt_one (le_of_le_of_eq ?_ hdeg.symm)
    show (1 : EReal) ≤ 0 + ∑ e : Fin 1024000, if (idx (ix2 e 0)).toInt = (n.val : ℤ) then (1 : EReal) else 0
    rw [zero_add]
    refine le_of_eq_of_le (if_pos he).symm
      (Finset.single_le_sum (f := fun e : Fin 1024000 => if (idx (ix2 e 0)).toInt = (n.val : ℤ) then (1 : EReal) else 0)
        (fun i _ => ?_) (Finset.mem_univ e))
    show (0 : EReal) ≤ if (idx (ix2 i 0)).toInt = (n.val : ℤ) then (1 : EReal) else 0
    split_ifs
    · exact zero_le_one
    · exact le_rfl
  refine (scatterAdd2_apply (N := 64000) (K := 64) (E := 1024000)
    scatter_S64000x64_S1024000x1_S1024000x64_1_0_0_1_wf (fun _ => (0 : EReal)) idx upd n k).trans ?_
  show (0 : EReal) + _ = 0
  rw [zero_add]
  exact Finset.sum_eq_zero fun e _ => if_neg (hnone e)

/-- The read-out's sums: graph `g`'s feature `d` is the sum of feature `d` over the nodes whose graph-id word is `g`. -/
theorem pool_sum (bidx : IVec Cert.ReferenceIdeal.S64000x1 32) (h : FVec Ideal Cert.ReferenceIdeal.S64000x2 .f32)
    (g : Fin 128) (d : Fin 2) :
    Host.scatterAdd (F := Ideal) Cert.ReferenceIdeal.scatter_S128x2_S64000x1_S64000x2_1_0_0_1
      (fun _ => (0 : EReal)) bidx h (ix2 g d)
      = ∑ n : Fin 64000, Cert.Spec.oneHot (bidx (ix2 n 0)) g * h (ix2 n d) := by
  refine (scatterAdd2_apply (N := 128) (K := 2) (E := 64000)
    scatter_S128x2_S64000x1_S64000x2_1_0_0_1_wf (fun _ => (0 : EReal)) bidx h g d).trans ?_
  show (0 : EReal) + _ = _
  rw [zero_add]
  refine Finset.sum_congr rfl fun n _ => ?_
  unfold Cert.Spec.oneHot
  simp only [toInt_eq_iff _ g.val (by have := g.isLt; omega)]
  split_ifs
  · rw [one_mul]
  · rw [zero_mul]

/-- The read-out's counts: the number of nodes whose graph-id word is `g`. -/
theorem pool_cnt (bidx : IVec Cert.ReferenceIdeal.S64000x1 32) (g : Fin 128) :
    Host.scatterAdd (F := Ideal) (φ := .f32) Cert.ReferenceIdeal.scatter_S128_S64000x1_S64000_n_0_0_1
      (fun _ => (0 : EReal)) bidx (fun _ => (1 : EReal)) (ix1 g)
      = ∑ n : Fin 64000, Cert.Spec.oneHot (bidx (ix2 n 0)) g := by
  refine (scatterAdd1_apply (N := 128) (E := 64000) (φ := .f32)
    scatter_S128_S64000x1_S64000_n_0_0_1_wf (fun _ => (0 : EReal)) bidx (fun _ => (1 : EReal)) g).trans ?_
  show (0 : EReal) + _ = _
  rw [zero_add]
  refine Finset.sum_congr rfl fun n _ => ?_
  unfold Cert.Spec.oneHot
  simp only [toInt_eq_iff _ g.val (by have := g.isLt; omega)]

end Records

end Cert.ScatterFacts

end
-- ==== Proof.Ref.Deg.lean ====
/- A node that no edge ends at has neighbour sum zero: the in-degree column read at a node is the scattered sum of ones
   there, and where that sum is not positive no edge's row was added to the node's neighbour sum. -/
import proofs.«422203_j1219770712268_1_alg».proof.Proof.SpecHost
import proofs.«422203_j1219770712268_1_alg».proof.Proof.ScatterFacts
import proofs.«422203_j1219770712268_1_alg».proof.Proof.Gen.KernelIdeal
import proofs.«422203_j1219770712268_1_alg».proof.Proof.Gen.ReferenceIdeal
import Idealize.ShloMosaic.Lib.Pipeline.Value

noncomputable section

namespace Cert.RefValue

open Idealize.ShloMosaic Cert.KernelIdeal ValueIdx Cert.Spec
open Cert.KernelIdeal.Facts₀ Cert.KernelIdeal.Facts

/-- The zero arrays the two scatters start from and the array of ones the in-degree adds up, as constant functions. -/
theorem zeros64_eq : (broadcastInDim S64000x64 ![] bcast_S_S64000x64 (constant (F := Ideal) S_ .f32 0x00000000#32) : FVec Ideal S64000x64 .f32) = fun _ => (0 : EReal) :=
  funext fun i => (broadcastInDim_apply _ bcast_S_S64000x64 _ i ix0 (fun a => a.elim0)).trans Cert.ScatterFacts.f0_eq

theorem zeros1_eq : (broadcastInDim S64000 ![] bcast_S_S64000 (constant (F := Ideal) S_ .f32 0x00000000#32) : FVec Ideal S64000 .f32) = fun _ => (0 : EReal) :=
  funext fun i => (broadcastInDim_apply _ bcast_S_S64000 _ i ix0 (fun a => a.elim0)).trans Cert.ScatterFacts.f0_eq

theorem onesE_eq : (broadcastInDim S1024000 ![] bcast_S_S1024000 (constant (F := Ideal) S_ .f32 0x3F800000#32) : FVec Ideal S1024000 .f32) = fun _ => (1 : EReal) :=
  funext fun i => (broadcastInDim_apply _ bcast_S_S1024000 _ i ix0 (fun a => a.elim0)).trans Cert.ScatterFacts.f1_eq

/-- The in-degree column at node n is the scattered sum of ones at n. -/
theorem cntA_apply (e : IVec S2x1024000 32) (n : Fin 64000) :
    cntA e (ix2 n 0) = Host.scatterAdd (F := Ideal) (φ := .f32) scatter_S64000_S1024000x1_S1024000_n_0_0_1 ((fun _ => (0 : EReal)) : FVec Ideal S64000 .f32) (dstIdx e) ((fun _ => (1 : EReal)) : FVec Ideal S1024000 .f32) (ix1 n) := by
  unfold cntA
  rw [zeros1_eq, onesE_eq]
  exact broadcastInDim_apply _ bcast_S64000_S64000x1_0 _ (ix2 n 0) (ix1 n) (fun a => match a with
    | ⟨0, _⟩ => by show n.val = if (64000 : Nat) = 1 then 0 else n.val; rw [if_neg (by decide)])

/-- A node no edge ends at has neighbour sum zero. -/
theorem agg_zero_of_cnt (h : FVec Ideal S64000x64 .f32) (e : IVec S2x1024000 32) (n : Fin 64000) (k : Fin 64)
    (hc : ¬ (0 < cntA e (ix2 n 0))) : agg h e (ix2 n k) = 0 := by
  rw [cntA_apply] at hc
  unfold agg
  rw [zeros64_eq]
  exact Cert.ScatterFacts.agg_eq_zero_of_deg (dstIdx e) _ n k hc

end Cert.RefValue

end
-- ==== Proof.Ref.L1.lean ====
/- One hidden layer of the reference, read index by index: its stages are the specification's neighbour sum, in-degree,
   weight slices and bias row, its two contractions are the specification's two sums, and its guarded mean is the
   unguarded one because a node of in-degree zero has neighbour sum zero. -/
import proofs.«422203_j1219770712268_1_alg».proof.Proof.RefReadP
import proofs.«422203_j1219770712268_1_alg».proof.Proof.SpecHost
import proofs.«422203_j1219770712268_1_alg».proof.Proof.Ref.Core
import proofs.«422203_j1219770712268_1_alg».proof.Proof.Ref.Deg

noncomputable section

namespace Cert.RefValue.L1

open Idealize.ShloMosaic Cert.KernelIdeal ValueIdx Cert.Spec Cert.ReferenceIdeal.ReadP Cert.RefValue

variable (x : FVec Ideal S64000x64 .f32) (e : IVec S2x1024000 32) (Wl Wr : FVec Ideal S3x64x64 .f32)
  (b : FVec Ideal S3x64 .f32)

/-- The node features this layer starts from. -/
local notation "hin" => x
/-- The reference's stages of this layer: neighbour sum, in-degree column, guarded mean, the two contractions, the
    broadcast bias, the layer's result; the layer's weights and bias vector. -/
local notation "sAgg" => val_main_v19 (F := Ideal) x e
local notation "sCnt" => val_main_v24 (F := Ideal) e
local notation "sGuard" => val_main_v31 (F := Ideal) x e
local notation "sLeft" => val_main_v33 (F := Ideal) x e Wl
local notation "sRight" => val_main_v35 (F := Ideal) x Wr
local notation "sBias" => val_main_v38 (F := Ideal) b
local notation "sOut" => val_main_v40 (F := Ideal) x e Wl Wr b
local notation "sWl" => val_main_v1 (F := Ideal) Wl
local notation "sWr" => val_main_v3 (F := Ideal) Wr
local notation "sB" => val_main_v5 (F := Ideal) b

/-! The reference's host stages that are the specification's, array for array: the same operations with the same
    dimension numbers. -/
theorem agg_ref : sAgg = agg hin e := rfl
theorem cnt_ref : sCnt = cntA e := rfl
theorem wl_ref : sWl = w0 Wl := rfl
theorem wr_ref : sWr = w0 Wr := rfl

/-- The bias row at column j is the bias vector at j. -/
theorem b_ref (j : Fin 64) : sB (ix1 j) = b0 b (ix2 0 j) := by
  unfold b0
  refine Eq.symm (shapeCast_apply _ _ (ix2 0 j) (ix1 j) ?_)
  rewrite [Shape.rowMajor_val_one, Shape.rowMajor_val_two]
  show j.val = 0 * 64 + j.val
  omega

/-! Where each stage reads its operands, at node n, feature j and contracted position k. -/
theorem e_lidxL (n : Fin 64000) (j k : Fin 64) : lidx_main_v33 (ix2 n j) k = ix2 n k :=
  funext fun a => Fin.ext (by match a with | ⟨0, _⟩ => rfl | ⟨1, _⟩ => rfl)
theorem e_ridxL (n : Fin 64000) (j k : Fin 64) : ridx_main_v33 (ix2 n j) k = ix2 k j :=
  funext fun a => Fin.ext (by match a with | ⟨0, _⟩ => rfl | ⟨1, _⟩ => rfl)
theorem e_lidxR (n : Fin 64000) (j k : Fin 64) : lidx_main_v35 (ix2 n j) k = ix2 n k :=
  funext fun a => Fin.ext (by match a with | ⟨0, _⟩ => rfl | ⟨1, _⟩ => rfl)
theorem e_ridxR (n : Fin 64000) (j k : Fin 64) : ridx_main_v35 (ix2 n j) k = ix2 k j :=
  funext fun a => Fin.ext (by match a with | ⟨0, _⟩ => rfl | ⟨1, _⟩ => rfl)
theorem e_trL (j k : Fin 64) : idx_main_v32 (ix2 k j) = ix2 j k :=
  funext fun a => Fin.ext (by match a with | ⟨0, _⟩ => rfl | ⟨1, _⟩ => rfl)
theorem e_trR (j k : Fin 64) : idx_main_v34 (ix2 k j) = ix2 j k :=
  funext fun a => Fin.ext (by match a with | ⟨0, _⟩ => rfl | ⟨1, _⟩ => rfl)
theorem e_cond (n : Fin 64000) (k : Fin 64) : idx_main_call0_v0 (ix2 n k) = ix2 n 0 :=
  funext fun a => Fin.ext (by match a with | ⟨0, _⟩ => rfl | ⟨1, _⟩ => rfl)
theorem e_den (n : Fin 64000) (k : Fin 64) : idx_main_v29 (ix2 n k) = ix2 n 0 :=
  funext fun a => Fin.ext (by match a with | ⟨0, _⟩ => rfl | ⟨1, _⟩ => rfl)
theorem e_bias (n : Fin 64000) (j : Fin 64) : idx_main_v37 (idx_main_v38 (ix2 n j)) = ix1 j :=
  funext fun a => Fin.ext (by match a with | ⟨0, _⟩ => rfl)

/-- The guarded neighbour mean at node n, feature k. -/
theorem guard_at (n : Fin 64000) (k : Fin 64) :
    sGuard (ix2 n k)
      = Scalar.select (Ideal.cmp .ogt (cntA e (ix2 n 0)) f0)
          (Ideal.div (agg hin e (ix2 n k)) (max (cntA e (ix2 n 0)) f1)) f0 := by
  rw [val_main_v31_apply, val_main_call0_v0_apply, val_main_v26_apply, val_main_v25_apply, val_main_cst_3_apply,
    val_main_v30_apply, val_main_v29_apply, val_main_v28_apply, val_main_v27_apply, val_main_cst_4_apply,
    val_main_call0_v1_apply, val_main_cst_5_apply, e_cond, e_den, agg_ref, cnt_ref]
  rfl

/-- The neighbour mean contracted with the first weight. -/
theorem left_at (n : Fin 64000) (j : Fin 64) :
    sLeft (ix2 n j)
      = ∑ k : Fin 64, Scalar.select (Ideal.cmp .ogt (cntA e (ix2 n 0)) f0)
          (Ideal.div (agg hin e (ix2 n k)) (max (cntA e (ix2 n 0)) f1)) f0 * w0 Wl (ix2 j k) := by
  rw [val_main_v33_apply]
  refine Finset.sum_congr rfl fun k _ => ?_
  rw [e_lidxL, e_ridxL, guard_at, val_main_v32_apply, e_trL, wl_ref]

/-- The node's own features contracted with the second weight. -/
theorem right_at (n : Fin 64000) (j : Fin 64) :
    sRight (ix2 n j) = ∑ k : Fin 64, hin (ix2 n k) * w0 Wr (ix2 j k) := by
  rw [val_main_v35_apply]
  refine Finset.sum_congr rfl fun k _ => ?_
  rw [e_lidxR, e_ridxR, val_main_v34_apply, e_trR, wr_ref]

/-- The bias, broadcast over the nodes. -/
theorem bias_at (n : Fin 64000) (j : Fin 64) : sBias (ix2 n j) = b0 b (ix2 0 j) := by
  rw [val_main_v38_apply, val_main_v37_apply, e_bias, b_ref]

/-- The node features after this layer are the specification's layer of the features before it. -/
theorem layer_ref : sOut = lay64 (agg hin e) hin (cntA e) (w0 Wl) (w0 Wr) (b0 b) := by
  funext i
  obtain ⟨n, j, rfl⟩ : ∃ (n : Fin 64000) (j : Fin 64), i = ix2 n j := ⟨i 0, i 1, eq_ix2 i⟩
  rw [val_main_v40_apply, val_main_v39_apply, val_main_v36_apply, left_at, right_at, bias_at,
    val_main_call1_v0_apply, val_main_call1_cst_apply]
  exact lay64_of_guarded Cert.ScatterFacts.f0_eq Cert.ScatterFacts.f1_eq (agg hin e) hin (cntA e)
    (w0 Wl) (w0 Wr) (b0 b) (agg_zero_of_cnt hin e) n j

end Cert.RefValue.L1

end
-- ==== Proof.Ref.L2.lean ====
/- One hidden layer of the reference, read index by index: its stages are the specification's neighbour sum, in-degree,
   weight slices and bias row, its two contractions are the specification's two sums, and its guarded mean is the
   unguarded one because a node of in-degree zero has neighbour sum zero. -/
import proofs.«422203_j1219770712268_1_alg».proof.Proof.RefReadP
import proofs.«422203_j1219770712268_1_alg».proof.Proof.SpecHost
import proofs.«422203_j1219770712268_1_alg».proof.Proof.Ref.Core
import proofs.«422203_j1219770712268_1_alg».proof.Proof.Ref.Deg

noncomputable section

namespace Cert.RefValue.L2

open Idealize.ShloMosaic Cert.KernelIdeal ValueIdx Cert.Spec Cert.ReferenceIdeal.ReadP Cert.RefValue

variable (x : FVec Ideal S64000x64 .f32) (e : IVec S2x1024000 32) (Wl Wr : FVec Ideal S3x64x64 .f32)
  (b : FVec Ideal S3x64 .f32)

/-- The node features this layer starts from. -/
local notation "hin" => (val_main_v40 (F := Ideal) x e Wl Wr b)
/-- The reference's stages of this layer: neighbour sum, in-degree column, guarded mean, the two contractions, the
    broadcast bias, the layer's result; the layer's weights and bias vector. -/
local notation "sAgg" => val_main_v60 (F := Ideal) x e Wl Wr b
local notation "sCnt" => val_main_v65 (F := Ideal) e
local notation "sGuard" => val_main_v72 (F := Ideal) x e Wl Wr b
local notation "sLeft" => val_main_v74 (F := Ideal) x e Wl Wr b
local notation "sRight" => val_main_v76 (F := Ideal) x e Wl Wr b
local notation "sBias" => val_main_v79 (F := Ideal) b
local notation "sOut" => val_main_v81 (F := Ideal) x e Wl Wr b
local notation "sWl" => val_main_v42 (F := Ideal) Wl
local notation "sWr" => val_main_v44 (F := Ideal) Wr
local notation "sB" => val_main_v46 (F := Ideal) b

/-! The reference's host stages that are the specification's, array for array: the same operations with the same
    dimension numbers. -/
theorem agg_ref : sAgg = agg hin e := rfl
theorem cnt_ref : sCnt = cntA e := rfl
theorem wl_ref : sWl = w1 Wl := rfl
theorem wr_ref : sWr = w1 Wr := rfl

/-- The bias row at column j is the bias vector at j. -/
theorem b_ref (j : Fin 64) : sB (ix1 j) = b1 b (ix2 0 j) := by
  unfold b1
  refine Eq.symm (shapeCast_apply _ _ (ix2 0 j) (ix1 j) ?_)
  rewrite [Shape.rowMajor_val_one, Shape.rowMajor_val_two]
  show j.val = 0 * 64 + j.val
  omega

/-! Where each stage reads its operands, at node n, feature j and contracted position k. -/
theorem e_lidxL (n : Fin 64000) (j k : Fin 64) : lidx_main_v74 (ix2 n j) k = ix2 n k :=
  funext fun a => Fin.ext (by match a with | ⟨0, _⟩ => rfl | ⟨1, _⟩ => rfl)
theorem e_ridxL (n : Fin 64000) (j k : Fin 64) : ridx_main_v74 (ix2 n j) k = ix2 k j :=
  funext fun a => Fin.ext (by match a with | ⟨0, _⟩ => rfl | ⟨1, _⟩ => rfl)
theorem e_lidxR (n : Fin 64000) (j k : Fin 64) : lidx_main_v76 (ix2 n j) k = ix2 n k :=
  funext fun a => Fin.ext (by match a with | ⟨0, _⟩ => rfl | ⟨1, _⟩ => rfl)
theorem e_ridxR (n : Fin 64000) (j k : Fin 64) : ridx_main_v76 (ix2 n j) k = ix2 k j :=
  funext fun a => Fin.ext (by match a with | ⟨0, _⟩ => rfl | ⟨1, _⟩ => rfl)
theorem e_trL (j k : Fin 64) : idx_main_v73 (ix2 k j) = ix2 j k :=
  funext fun a => Fin.ext (by match a with | ⟨0, _⟩ => rfl | ⟨1, _⟩ => rfl)
theorem e_trR (j k : Fin 64) : idx_main_v75 (ix2 k j) = ix2 j k :=
  funext fun a => Fin.ext (by match a with | ⟨0, _⟩ => rfl | ⟨1, _⟩ => rfl)
theorem e_cond (n : Fin 64000) (k : Fin 64) : idx_main_call2_v0 (ix2 n k) = ix2 n 0 :=
  funext fun a => Fin.ext (by match a with | ⟨0, _⟩ => rfl | ⟨1, _⟩ => rfl)
theorem e_den (n : Fin 64000) (k : Fin 64) : idx_main_v70 (ix2 n k) = ix2 n 0 :=
  funext fun a => Fin.ext (by match a with | ⟨0, _⟩ => rfl | ⟨1, _⟩ => rfl)
theorem e_bias (n : Fin 64000) (j : Fin 64) : idx_main_v78 (idx_main_v79 (ix2 n j)) = ix1 j :=
  funext fun a => Fin.ext (by match a with | ⟨0, _⟩ => rfl)

/-- The guarded neighbour mean at node n, feature k. -/
theorem guard_at (n : Fin 64000) (k : Fin 64) :
    sGuard (ix2 n k)
      = Scalar.select (Ideal.cmp .ogt (cntA e (ix2 n 0)) f0)
          (Ideal.div (agg hin e (ix2 n k)) (max (cntA e (ix2 n 0)) f1)) f0 := by
  rw [val_main_v72_apply, val_main_call2_v0_apply, val_main_v67_apply, val_main_v66_apply, val_main_cst_11_apply,
    val_main_v71_apply, val_main_v70_apply, val_main_v69_apply, val_main_v68_apply, val_main_cst_12_apply,
    val_main_call2_v1_apply, val_main_cst_13_apply, e_cond, e_den, agg_ref, cnt_ref]
  rfl

/-- The neighbour mean contracted with the first weight. -/
theorem left_at (n : Fin 64000) (j : Fin 64) :
    sLeft (ix2 n j)
      = ∑ k : Fin 64, Scalar.select (Ideal.cmp .ogt (cntA e (ix2 n 0)) f0)
          (Ideal.div (agg hin e (ix2 n k)) (max (cntA e (ix2 n 0)) f1)) f0 * w1 Wl (ix2 j k) := by
  rw [val_main_v74_apply]
  refine Finset.sum_congr rfl fun k _ => ?_
  rw [e_lidxL, e_ridxL, guard_at, val_main_v73_apply, e_trL, wl_ref]

/-- The node's own features contracted with the second weight. -/
theorem right_at (n : Fin 64000) (j : Fin 64) :
    sRight (ix2 n j) = ∑ k : Fin 64, hin (ix2 n k) * w1 Wr (ix2 j k) := by
  rw [val_main_v76_apply]
  refine Finset.sum_congr rfl fun k _ => ?_
  rw [e_lidxR, e_ridxR, val_main_v75_apply, e_trR, wr_ref]

/-- The bias, broadcast over the nodes. -/
theorem bias_at (n : Fin 64000) (j : Fin 64) : sBias (ix2 n j) = b1 b (ix2 0 j) := by
  rw [val_main_v79_apply, val_main_v78_apply, e_bias, b_ref]

/-- The node features after this layer are the specification's layer of the features before it. -/
theorem layer_ref : sOut = lay64 (agg hin e) hin (cntA e) (w1 Wl) (w1 Wr) (b1 b) := by
  funext i
  obtain ⟨n, j, rfl⟩ : ∃ (n : Fin 64000) (j : Fin 64), i = ix2 n j := ⟨i 0, i 1, eq_ix2 i⟩
  rw [val_main_v81_apply, val_main_v80_apply, val_main_v77_apply, left_at, right_at, bias_at,
    val_main_call3_v0_apply, val_main_call3_cst_apply]
  exact lay64_of_guarded Cert.ScatterFacts.f0_eq Cert.ScatterFacts.f1_eq (agg hin e) hin (cntA e)
    (w1 Wl) (w1 Wr) (b1 b) (agg_zero_of_cnt hin e) n j

end Cert.RefValue.L2

end
-- ==== Proof.Ref.L3.lean ====
/- One hidden layer of the reference, read index by index: its stages are the specification's neighbour sum, in-degree,
   weight slices and bias row, its two contractions are the specification's two sums, and its guarded mean is the
   unguarded one because a node of in-degree zero has neighbour sum zero. -/
import proofs.«422203_j1219770712268_1_alg».proof.Proof.RefReadP
import proofs.«422203_j1219770712268_1_alg».proof.Proof.SpecHost
import proofs.«422203_j1219770712268_1_alg».proof.Proof.Ref.Core
import proofs.«422203_j1219770712268_1_alg».proof.Proof.Ref.Deg

noncomputable section

namespace Cert.RefValue.L3

open Idealize.ShloMosaic Cert.KernelIdeal ValueIdx Cert.Spec Cert.ReferenceIdeal.ReadP Cert.RefValue

variable (x : FVec Ideal S64000x64 .f32) (e : IVec S2x1024000 32) (Wl Wr : FVec Ideal S3x64x64 .f32)
  (b : FVec Ideal S3x64 .f32)

/-- The node features this layer starts from. -/
local notation "hin" => (val_main_v81 (F := Ideal) x e Wl Wr b)
/-- The reference's stages of this layer: neighbour sum, in-degree column, guarded mean, the two contractions, the
    broadcast bias, the layer's result; the layer's weights and bias vector. -/
local notation "sAgg" => val_main_v101 (F := Ideal) x e Wl Wr b
local notation "sCnt" => val_main_v106 (F := Ideal) e
local notation "sGuard" => val_main_v113 (F := Ideal) x e Wl Wr b
local notation "sLeft" => val_main_v115 (F := Ideal) x e Wl Wr b
local notation "sRight" => val_main_v117 (F := Ideal) x e Wl Wr b
local notation "sBias" => val_main_v120 (F := Ideal) b
local notation "sOut" => val_main_v122 (F := Ideal) x e Wl Wr b
local notation "sWl" => val_main_v83 (F := Ideal) Wl
local notation "sWr" => val_main_v85 (F := Ideal) Wr
local notation "sB" => val_main_v87 (F := Ideal) b

/-! The reference's host stages that are the specification's, array for array: the same operations with the same
    dimension numbers. -/
theorem agg_ref : sAgg = agg hin e := rfl
theorem cnt_ref : sCnt = cntA e := rfl
theorem wl_ref : sWl = w2 Wl := rfl
theorem wr_ref : sWr = w2 Wr := rfl

/-- The bias row at column j is the bias vector at j. -/
theorem b_ref (j : Fin 64) : sB (ix1 j) = b2 b (ix2 0 j) := by
  unfold b2
  refine Eq.symm (shapeCast_apply _ _ (ix2 0 j) (ix1 j) ?_)
  rewrite [Shape.rowMajor_val_one, Shape.rowMajor_val_two]
  show j.val = 0 * 64 + j.val
  omega

/-! Where each stage reads its operands, at node n, feature j and contracted position k. -/
theorem e_lidxL (n : Fin 64000) (j k : Fin 64) : lidx_main_v115 (ix2 n j) k = ix2 n k :=
  funext fun a => Fin.ext (by match a with | ⟨0, _⟩ => rfl | ⟨1, _⟩ => rfl)
theorem e_ridxL (n : Fin 64000) (j k : Fin 64) : ridx_main_v115 (ix2 n j) k = ix2 k j :=
  funext fun a => Fin.ext (by match a with | ⟨0, _⟩ => rfl | ⟨1, _⟩ => rfl)
theorem e_lidxR (n : Fin 64000) (j k : Fin 64) : lidx_main_v117 (ix2 n j) k = ix2 n k :=
  funext fun a => Fin.ext (by match a with | ⟨0, _⟩ => rfl | ⟨1, _⟩ => rfl)
theorem e_ridxR (n : Fin 64000) (j k : Fin 64) : ridx_main_v117 (ix2 n j) k = ix2 k j :=
  funext fun a => Fin.ext (by match a with | ⟨0, _⟩ => rfl | ⟨1, _⟩ => rfl)
theorem e_trL (j k : Fin 64) : idx_main_v114 (ix2 k j) = ix2 j k :=
  funext fun a => Fin.ext (by match a with | ⟨0, _⟩ => rfl | ⟨1, _⟩ => rfl)
theorem e_trR (j k : Fin 64) : idx_main_v116 (ix2 k j) = ix2 j k :=
  funext fun a => Fin.ext (by match a with | ⟨0, _⟩ => rfl | ⟨1, _⟩ => rfl)
theorem e_cond (n : Fin 64000) (k : Fin 64) : idx_main_call4_v0 (ix2 n k) = ix2 n 0 :=
  funext fun a => Fin.ext (by match a with | ⟨0, _⟩ => rfl | ⟨1, _⟩ => rfl)
theorem e_den (n : Fin 64000) (k : Fin 64) : idx_main_v111 (ix2 n k) = ix2 n 0 :=
  funext fun a => Fin.ext (by match a with | ⟨0, _⟩ => rfl | ⟨1, _⟩ => rfl)
theorem e_bias (n : Fin 64000) (j : Fin 64) : idx_main_v119 (idx_main_v120 (ix2 n j)) = ix1 j :=
  funext fun a => Fin.ext (by match a with | ⟨0, _⟩ => rfl)

/-- The guarded neighbour mean at node n, feature k. -/
theorem guard_at (n : Fin 64000) (k : Fin 64) :
    sGuard (ix2 n k)
      = Scalar.select (Ideal.cmp .ogt (cntA e (ix2 n 0)) f0)
          (Ideal.div (agg hin e (ix2 n k)) (max (cntA e (ix2 n 0)) f1)) f0 := by
  rw [val_main_v113_apply, val_main_call4_v0_apply, val_main_v108_apply, val_main_v107_apply, val_main_cst_19_apply,
    val_main_v112_apply, val_main_v111_apply, val_main_v110_apply, val_main_v109_apply, val_main_cst_20_apply,
    val_main_call4_v1_apply, val_main_cst_21_apply, e_cond, e_den, agg_ref, cnt_ref]
  rfl

/-- The neighbour mean contracted with the first weight. -/
theorem left_at (n : Fin 64000) (j : Fin 64) :
    sLeft (ix2 n j)
      = ∑ k : Fin 64, Scalar.select (Ideal.cmp .ogt (cntA e (ix2 n 0)) f0)
          (Ideal.div (agg hin e (ix2 n k)) (max (cntA e (ix2 n 0)) f1)) f0 * w2 Wl (ix2 j k) := by
  rw [val_main_v115_apply]
  refine Finset.sum_congr rfl fun k _ => ?_
  rw [e_lidxL, e_ridxL, guard_at, val_main_v114_apply, e_trL, wl_ref]

/-- The node's own features contracted with the second weight. -/
theorem right_at (n : Fin 64000) (j : Fin 64) :
    sRight (ix2 n j) = ∑ k : Fin 64, hin (ix2 n k) * w2 Wr (ix2 j k) := by
  rw [val_main_v117_apply]
  refine Finset.sum_congr rfl fun k _ => ?_
  rw [e_lidxR, e_ridxR, val_main_v116_apply, e_trR, wr_ref]

/-- The bias, broadcast over the nodes. -/
theorem bias_at (n : Fin 64000) (j : Fin 64) : sBias (ix2 n j) = b2 b (ix2 0 j) := by
  rw [val_main_v120_apply, val_main_v119_apply, e_bias, b_ref]

/-- The node features after this layer are the specification's layer of the features before it. -/
theorem layer_ref : sOut = lay64 (agg hin e) hin (cntA e) (w2 Wl) (w2 Wr) (b2 b) := by
  funext i
  obtain ⟨n, j, rfl⟩ : ∃ (n : Fin 64000) (j : Fin 64), i = ix2 n j := ⟨i 0, i 1, eq_ix2 i⟩
  rw [val_main_v122_apply, val_main_v121_apply, val_main_v118_apply, left_at, right_at, bias_at,
    val_main_call5_v0_apply, val_main_call5_cst_apply]
  exact lay64_of_guarded Cert.ScatterFacts.f0_eq Cert.ScatterFacts.f1_eq (agg hin e) hin (cntA e)
    (w2 Wl) (w2 Wr) (b2 b) (agg_zero_of_cnt hin e) n j

end Cert.RefValue.L3

end
-- ==== Proof.Ref.L4.lean ====
/- The output layer of the reference, read index by index: the hidden layers' law with two output features, the
   program's own output weights and bias in place of slices, and no clamp. -/
import proofs.«422203_j1219770712268_1_alg».proof.Proof.RefReadP
import proofs.«422203_j1219770712268_1_alg».proof.Proof.SpecHost
import proofs.«422203_j1219770712268_1_alg».proof.Proof.Ref.Core
import proofs.«422203_j1219770712268_1_alg».proof.Proof.Ref.Deg

noncomputable section

namespace Cert.RefValue.L4

open Idealize.ShloMosaic Cert.KernelIdeal ValueIdx Cert.Spec Cert.ReferenceIdeal.ReadP Cert.RefValue
open Cert.KernelIdeal.Facts₀ Cert.KernelIdeal.Facts

variable (x : FVec Ideal S64000x64 .f32) (e : IVec S2x1024000 32) (Wl Wr : FVec Ideal S3x64x64 .f32)
  (b : FVec Ideal S3x64 .f32) (Wlo Wro : FVec Ideal S2x64 .f32) (bout : FVec Ideal S2 .f32)

/-- The node features this layer starts from: the third hidden layer's. -/
local notation "hin" => (val_main_v122 (F := Ideal) x e Wl Wr b)
/-- The reference's stages of this layer: neighbour sum, in-degree column, guarded mean, the two contractions, the
    broadcast bias, the layer's result. Its weights and bias are arguments of the program, not slices. -/
local notation "sAgg" => val_main_v136 (F := Ideal) x e Wl Wr b
local notation "sCnt" => val_main_v141 (F := Ideal) e
local notation "sGuard" => val_main_v148 (F := Ideal) x e Wl Wr b
local notation "sLeft" => val_main_v150 (F := Ideal) x e Wl Wr b Wlo
local notation "sRight" => val_main_v152 (F := Ideal) x e Wl Wr b Wro
local notation "sBias" => val_main_v155 (F := Ideal) bout
local notation "sOut" => val_main_v156 (F := Ideal) x e Wl Wr b Wlo Wro bout

/-! The reference's host stages that are the specification's, array for array: the same operations with the same
    dimension numbers. -/
theorem agg_ref : sAgg = agg hin e := rfl
theorem cnt_ref : sCnt = cntA e := rfl

/-- The bias row at column j is the bias vector at j. -/
theorem b_ref (j : Fin 2) : bout (ix1 j) = bo bout (ix2 0 j) := by
  unfold bo
  refine Eq.symm (shapeCast_apply _ _ (ix2 0 j) (ix1 j) ?_)
  rewrite [Shape.rowMajor_val_one, Shape.rowMajor_val_two]
  show j.val = 0 * 2 + j.val
  omega

/-! Where each stage reads its operands, at node n, feature j and contracted position k. -/
theorem e_lidxL (n : Fin 64000) (j : Fin 2) (k : Fin 64) : lidx_main_v150 (ix2 n j) k = ix2 n k :=
  funext fun a => Fin.ext (by match a with | ⟨0, _⟩ => rfl | ⟨1, _⟩ => rfl)
theorem e_ridxL (n : Fin 64000) (j : Fin 2) (k : Fin 64) : ridx_main_v150 (ix2 n j) k = ix2 k j :=
  funext fun a => Fin.ext (by match a with | ⟨0, _⟩ => rfl | ⟨1, _⟩ => rfl)
theorem e_lidxR (n : Fin 64000) (j : Fin 2) (k : Fin 64) : lidx_main_v152 (ix2 n j) k = ix2 n k :=
  funext fun a => Fin.ext (by match a with | ⟨0, _⟩ => rfl | ⟨1, _⟩ => rfl)
theorem e_ridxR (n : Fin 64000) (j : Fin 2) (k : Fin 64) : ridx_main_v152 (ix2 n j) k = ix2 k j :=
  funext fun a => Fin.ext (by match a with | ⟨0, _⟩ => rfl | ⟨1, _⟩ => rfl)
theorem e_trL (j : Fin 2) (k : Fin 64) : idx_main_v149 (ix2 k j) = ix2 j k :=
  funext fun a => Fin.ext (by match a with | ⟨0, _⟩ => rfl | ⟨1, _⟩ => rfl)
theorem e_trR (j : Fin 2) (k : Fin 64) : idx_main_v151 (ix2 k j) = ix2 j k :=
  funext fun a => Fin.ext (by match a with | ⟨0, _⟩ => rfl | ⟨1, _⟩ => rfl)
theorem e_cond (n : Fin 64000) (k : Fin 64) : idx_main_call6_v0 (ix2 n k) = ix2 n 0 :=
  funext fun a => Fin.ext (by match a with | ⟨0, _⟩ => rfl | ⟨1, _⟩ => rfl)
theorem e_den (n : Fin 64000) (k : Fin 64) : idx_main_v146 (ix2 n k) = ix2 n 0 :=
  funext fun a => Fin.ext (by match a with | ⟨0, _⟩ => rfl | ⟨1, _⟩ => rfl)
theorem e_bias (n : Fin 64000) (j : Fin 2) : idx_main_v154 (idx_main_v155 (ix2 n j)) = ix1 j :=
  funext fun a => Fin.ext (by match a with | ⟨0, _⟩ => rfl)

/-- The guarded neighbour mean at node n, feature k. -/
theorem guard_at (n : Fin 64000) (k : Fin 64) :
    sGuard (ix2 n k)
      = Scalar.select (Ideal.cmp .ogt (cntA e (ix2 n 0)) f0)
          (Ideal.div (agg hin e (ix2 n k)) (max (cntA e (ix2 n 0)) f1)) f0 := by
  rw [val_main_v148_apply, val_main_call6_v0_apply, val_main_v143_apply, val_main_v142_apply, val_main_cst_27_apply,
    val_main_v147_apply, val_main_v146_apply, val_main_v145_apply, val_main_v144_apply, val_main_cst_28_apply,
    val_main_call6_v1_apply, val_main_cst_29_apply, e_cond, e_den, agg_ref, cnt_ref]
  rfl

/-- The neighbour mean contracted with the first weight. -/
theorem left_at (n : Fin 64000) (j : Fin 2) :
    sLeft (ix2 n j)
      = ∑ k : Fin 64, Scalar.select (Ideal.cmp .ogt (cntA e (ix2 n 0)) f0)
          (Ideal.div (agg hin e (ix2 n k)) (max (cntA e (ix2 n 0)) f1)) f0 * Wlo (ix2 j k) := by
  rw [val_main_v150_apply]
  refine Finset.sum_congr rfl fun k _ => ?_
  rw [e_lidxL, e_ridxL, guard_at, val_main_v149_apply, e_trL]

/-- The node's own features contracted with the second weight. -/
theorem right_at (n : Fin 64000) (j : Fin 2) :
    sRight (ix2 n j) = ∑ k : Fin 64, hin (ix2 n k) * Wro (ix2 j k) := by
  rw [val_main_v152_apply]
  refine Finset.sum_congr rfl fun k _ => ?_
  rw [e_lidxR, e_ridxR, val_main_v151_apply, e_trR]

/-- The bias, broadcast over the nodes. -/
theorem bias_at (n : Fin 64000) (j : Fin 2) : sBias (ix2 n j) = bo bout (ix2 0 j) := by
  rw [val_main_v155_apply, val_main_v154_apply, e_bias, b_ref bout j]

/-- The node scores are the specification's output layer of the third hidden layer's features. -/
theorem layer_ref : sOut = lay2 (agg hin e) hin (cntA e) Wlo Wro (bo bout) := by
  funext i
  obtain ⟨n, j, rfl⟩ : ∃ (n : Fin 64000) (j : Fin 2), i = ix2 n j := ⟨i 0, i 1, eq_ix2 i⟩
  rw [val_main_v156_apply, val_main_v153_apply, left_at, right_at, bias_at]
  exact lay2_of_guarded Cert.ScatterFacts.f0_eq Cert.ScatterFacts.f1_eq (agg hin e) hin (cntA e)
    Wlo Wro (bo bout) (agg_zero_of_cnt hin e) n j

end Cert.RefValue.L4

end
-- ==== Proof.Ref.Pool.lean ====
import proofs.«422203_j1219770712268_1_alg».proof.Proof.RefReadP
import proofs.«422203_j1219770712268_1_alg».proof.Proof.ScatterFacts
import proofs.«422203_j1219770712268_1_alg».proof.Proof.Spec
import proofs.«422203_j1219770712268_1_alg».proof.Proof.Gen.ReferenceIdeal
import proofs.«422203_j1219770712268_1_alg».proof.Proof.Gen.KernelIdeal
import Idealize.ShloMosaic.Lib.ValueIdx
import Idealize.ShloMosaic.PureOps.Ideal.Laws

/-! # The reference's read-out is the pooled mean

The reference program ends with the read-out: the node scores are added, row by row, into a zeroed `128 × 2` array
along the column of graph ids, ones are added into a zeroed array of `128` counts along the same column, and the sums
are divided by the counts clamped at one from below. Read at graph `g` and feature `d`, the first is the sum of
feature `d` over the nodes whose id is `g`, the second the number of such nodes: the specification's pooled mean of
the node scores over the graph ids. -/

noncomputable section

namespace Cert.RefValue

open Idealize.ShloMosaic ValueIdx
open Cert.ReferenceIdeal Cert.ReferenceIdeal.Gen Cert.ReferenceIdeal.ReadP
open scoped BigOperators

/-- The zeroed sums: the word `+0.0` everywhere, the real number 0. -/
theorem zeros128x2 : val_main_v157 (F := Ideal) = fun _ => (0 : EReal) := funext fun j => by
  rw [val_main_v157_apply, val_main_cst_30_apply]; exact Ideal.ofBits_zero_f32

/-- The zeroed counts. -/
theorem zeros128 : val_main_v161 (F := Ideal) = fun _ => (0 : EReal) := funext fun j => by
  rw [val_main_v161_apply, val_main_cst_32_apply]; exact Ideal.ofBits_zero_f32

/-- The ones added into the counts: the word `1.0` everywhere, the real number 1. -/
theorem ones64000 : val_main_v160 (F := Ideal) = fun _ => (1 : EReal) := funext fun j => by
  rw [val_main_v160_apply, val_main_cst_31_apply]; exact Cert.ScatterFacts.f1_eq

/-- THE READ-OUT: the reference's last stage, as a function of the nine arguments, is the pooled mean of its node
    scores over the column of graph ids. -/
theorem ref_pool (x0 : (⟨S64000x64, .f32⟩ : BufTy).Contents (Elt Ideal)) (x1 : (⟨S2x1024000, .i32⟩ : BufTy).Contents (Elt Ideal)) (x2 : (⟨S64000, .i32⟩ : BufTy).Contents (Elt Ideal))
    (x3 x4 : (⟨S3x64x64, .f32⟩ : BufTy).Contents (Elt Ideal)) (x5 : (⟨S3x64, .f32⟩ : BufTy).Contents (Elt Ideal)) (x6 x7 : (⟨S2x64, .f32⟩ : BufTy).Contents (Elt Ideal)) (x8 : (⟨S2, .f32⟩ : BufTy).Contents (Elt Ideal)) :
    val_main_v168 (F := Ideal) x0 x1 x2 x3 x4 x5 x6 x7 x8
      = Cert.Spec.pool (val_main_v156 (F := Ideal) x0 x1 x3 x4 x5 x6 x7 x8)
          (broadcastInDim Cert.KernelIdeal.S64000x1 ![0] Cert.KernelIdeal.Facts₀.bcast_S64000_S64000x1_0 x2) := by
  funext i
  obtain ⟨g, d, rfl⟩ : ∃ (g : Fin 128) (d : Fin 2), i = ix2 g d := ⟨i 0, i 1, eq_ix2 i⟩
  rw [val_main_v168_apply]
  unfold val_main_v159
  generalize val_main_v156 (F := Ideal) x0 x1 x3 x4 x5 x6 x7 x8 = H
  -- the sums
  rw [zeros128x2, Cert.ScatterFacts.pool_sum]
  -- the counts, clamped, read at the row
  rw [val_main_v167_apply, val_main_v166_apply, val_main_v164_apply, val_main_v165_apply, val_main_cst_33_apply]
  unfold val_main_v163
  rw [zeros128, ones64000]
  have hi : idx_main_v164 (idx_main_v167 (ix2 g d)) = ix1 g := funext fun a => match a with | ⟨0, _⟩ => rfl
  rw [hi, Cert.ScatterFacts.pool_cnt]
  -- both sides are now the same quotient of the same sums
  show _ = Cert.Spec.poolAt H (broadcastInDim Cert.KernelIdeal.S64000x1 ![0] Cert.KernelIdeal.Facts₀.bcast_S64000_S64000x1_0 x2) g d
  unfold Cert.Spec.poolAt
  rw [Ideal.hostDivf_def]
  exact congrArg₂ Ideal.div (Finset.sum_congr rfl fun n _ => rfl)
    (congrArg₂ max (Finset.sum_congr rfl fun n _ => rfl) rfl)

end Cert.RefValue

end
-- ==== Proof.Ref.Value.lean ====
/- The reference's result is the specification's: each layer's stage is the specification's layer of the stage
   before it, so the four stages are H1 … H4 in turn, and the read-out of the last is OUT. -/
import proofs.«422203_j1219770712268_1_alg».proof.Proof.Ref.L1
import proofs.«422203_j1219770712268_1_alg».proof.Proof.Ref.L2
import proofs.«422203_j1219770712268_1_alg».proof.Proof.Ref.L3
import proofs.«422203_j1219770712268_1_alg».proof.Proof.Ref.L4
import proofs.«422203_j1219770712268_1_alg».proof.Proof.Ref.Pool

noncomputable section

namespace Cert.RefValue

open Idealize.ShloMosaic Cert.KernelIdeal ValueIdx Cert.Spec Cert.ReferenceIdeal.ReadP

section Layers
variable (x : FVec Ideal S64000x64 .f32) (e : IVec S2x1024000 32) (Wl Wr : FVec Ideal S3x64x64 .f32)
  (b : FVec Ideal S3x64 .f32) (Wlo Wro : FVec Ideal S2x64 .f32) (bout : FVec Ideal S2 .f32)

/-- The node features after the first, second and third hidden layer, and the node scores. -/
theorem H1_ref : val_main_v40 (F := Ideal) x e Wl Wr b = H1 x e Wl Wr b := L1.layer_ref x e Wl Wr b

theorem H2_ref : val_main_v81 (F := Ideal) x e Wl Wr b = H2 x e Wl Wr b := by
  rw [L2.layer_ref, H1_ref]; rfl

theorem H3_ref : val_main_v122 (F := Ideal) x e Wl Wr b = H3 x e Wl Wr b := by
  rw [L3.layer_ref, H2_ref]; rfl

theorem H4_ref : val_main_v156 (F := Ideal) x e Wl Wr b Wlo Wro bout = H4 x e Wl Wr b Wlo Wro bout := by
  rw [L4.layer_ref, H3_ref]; rfl
end Layers

/-- The reference's result, over arguments typed as the reference's last stage takes them. -/
theorem ref_value (x0 : (⟨Cert.ReferenceIdeal.S64000x64, .f32⟩ : BufTy).Contents (Elt Ideal))
    (x1 : (⟨Cert.ReferenceIdeal.S2x1024000, .i32⟩ : BufTy).Contents (Elt Ideal))
    (x2 : (⟨Cert.ReferenceIdeal.S64000, .i32⟩ : BufTy).Contents (Elt Ideal))
    (x3 x4 : (⟨Cert.ReferenceIdeal.S3x64x64, .f32⟩ : BufTy).Contents (Elt Ideal))
    (x5 : (⟨Cert.ReferenceIdeal.S3x64, .f32⟩ : BufTy).Contents (Elt Ideal))
    (x6 x7 : (⟨Cert.ReferenceIdeal.S2x64, .f32⟩ : BufTy).Contents (Elt Ideal))
    (x8 : (⟨Cert.ReferenceIdeal.S2, .f32⟩ : BufTy).Contents (Elt Ideal)) :
    val_main_v168 (F := Ideal) x0 x1 x2 x3 x4 x5 x6 x7 x8 = OUT x0 x1 x2 x3 x4 x5 x6 x7 x8 := by
  rw [ref_pool, H4_ref]; rfl

end Cert.RefValue

end
-- ==== Proof.lean ====
/- The certificate of a four-layer graph convolution with a graph-wise mean read-out.
   Both programs compute, for the node features x, the edge list e and the graph ids: three hidden layers
   h ← max(mean of in-neighbours(h)·Wlᵀ + h·Wrᵀ + b, 0), an output layer of the same form without the clamp, and per graph
   the mean of its nodes' scores (Spec.OUT). The kernel program runs each layer's dense part and the read-out as pipelined
   kernel regions between host stretches that gather and scatter-add along the edges; the reference does everything on the
   host and guards the neighbour mean by "in-degree > 0", which changes nothing: a node with no incoming edge has neighbour
   sum 0, and 0 over max(0, 1) is 0. The read-out's one-hot matrix product is the scatter-add by graph id, out-of-range ids
   dropped on both sides. No law used needs finiteness, so the precondition is not opened.
   The frames: the run of the nine items (KI/Run, K/Run), every argument buffer untouched (KI/Frame, K/Frame); the
   reference's frame is its run read back. -/
import proofs.«422203_j1219770712268_1_alg».proof.Defs
import proofs.«422203_j1219770712268_1_alg».proof.Proof.Gen.Kernel
import proofs.«422203_j1219770712268_1_alg».proof.Proof.Gen.KernelIdeal
import proofs.«422203_j1219770712268_1_alg».proof.Proof.Gen.ReferenceIdeal
import proofs.«422203_j1219770712268_1_alg».proof.Proof.Gen.Pre_finite_inputs
import proofs.«422203_j1219770712268_1_alg».proof.Proof.K.Frame
import proofs.«422203_j1219770712268_1_alg».proof.Proof.KI.Value
import proofs.«422203_j1219770712268_1_alg».proof.Proof.Ref.Value
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.Spec.OUT (Cert.KernelIdeal.Fr.aX m c) (Cert.KernelIdeal.Fr.aE m c) (Cert.KernelIdeal.Fr.aG m c) (Cert.KernelIdeal.Fr.aWl m c)
        (Cert.KernelIdeal.Fr.aWr m c) (Cert.KernelIdeal.Fr.aB m c) (Cert.KernelIdeal.Fr.aWlo m c) (Cert.KernelIdeal.Fr.aWro m c) (Cert.KernelIdeal.Fr.aBo m c),
      Cert.KernelIdeal.Fr.value_run m ρ,
      (θ_run Cert.ReferenceIdeal.defs _ _).mono (fun _ h c => ⟨by
          rw [(h c).1, Cert.ReferenceIdeal.ReadP.val_main_v168_eq, Cert.RefValue.ref_value,
            (hagree c).1, (hagree c).2.1, (hagree c).2.2.1, (hagree c).2.2.2.1, (hagree c).2.2.2.2.1, (hagree c).2.2.2.2.2.1,
            (hagree c).2.2.2.2.2.2.1, (hagree c).2.2.2.2.2.2.2.1, (hagree c).2.2.2.2.2.2.2.2], (h c).2⟩)
        (Cert.ReferenceIdeal.ValueP.run (F := Ideal) m' ρ')⟩⟩

end Cert.Proof

end
